-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩
abbrev S8192 : Shape := ⟨1, ![8192]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part2 {F : FTy → Type} [FloatOps F] (main_v28 : IVec S_ 1) (main_v31 : FVec F S8192 .f32) (main_v32 : FVec F S8192 .f32) : IVec S_ 1 :=
  let main_v33 : IVec S8192 1 := cmpf .ogt main_v31 main_v32
  let main_c_13 : IVec S_ 1 := constantI S_ 1 1#1
  let main_v34 : IVec S_ 1 := (fun x v => Host.reduce IntOp.andi x v reducesTo_S8192_S_d0 h_S_) main_v33 main_c_13
  let main_v35 : IVec S_ 1 := andi main_v28 main_v34
  main_v35

def fn_part1 {F : FTy → Type} [FloatOps F] (main_arg1 : FVec F S8192x8192 .f32) (main_arg4 : FVec F S64x2 .f32) (main_arg5 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x2 .f32 := Host.absf main_arg4
  let main_cst_6 : FVec F S_ .f32 := constant S_ .f32 0x7F800000#32
  let main_v20 : FVec F S64x2 .f32 := broadcastInDim S64x2 ![] bcast_S_S64x2 main_cst_6
  let main_v21 : IVec S64x2 1 := cmpf .olt main_v19 main_v20
  let main_c_7 : IVec S_ 1 := constantI S_ 1 1#1
  let main_v22 : IVec S_ 1 := (fun x v => Host.reduce IntOp.andi x v reducesTo_S64x2_S_d0_1 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_cst_10 : FVec F S_ .f32 := constant S_ .f32 0x00000000#32
  let main_v29 : FVec F S8192 .f32 := (fun x v => Host.reduceAdd x v reducesTo_S8192x8192_S8192_d1 h_S_) main_arg1 main_cst_10
  let main_cst_11 : FVec F S_ .f32 := constant S_ .f32 0x358637BD#32
  let main_v30 : FVec F S8192 .f32 := broadcastInDim S8192 ![] bcast_S_S8192 main_cst_11
  let main_v31 : FVec F S8192 .f32 := addf main_v29 main_v30
  let main_cst_12 : FVec F S_ .f32 := constant S_ .f32 0x00000000#32
  let main_v32 : FVec F S8192 .f32 := broadcastInDim S8192 ![] bcast_S_S8192 main_cst_12
  fn_part2 (F := F) main_v28 main_v31 main_v32

def fn {F : FTy → Type} [FloatOps F] (main_arg0 : FVec F S8192x128 .f32) (main_arg1 : FVec F S8192x8192 .f32) (main_arg2 : FVec F S128x64 .f32) (main_arg3 : FVec F S64 .f32) (main_arg4 : FVec F S64x2 .f32) (main_arg5 : FVec F S2 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg4 main_arg5 main_v13 main_v16
-- ==== Kernel.lean ====
abbrev S8192x128 : Shape := ⟨2, ![8192, 128]⟩
abbrev S8192x8192 : Shape := ⟨2, ![8192, 8192]⟩
abbrev S128x64 : Shape := ⟨2, ![128, 64]⟩
abbrev S64 : Shape := ⟨1, ![64]⟩
abbrev S64x2 : Shape := ⟨2, ![64, 2]⟩
abbrev S2 : Shape := ⟨1, ![2]⟩
abbrev S8192x1 : Shape := ⟨2, ![8192, 1]⟩
abbrev S512x2048 : Shape := ⟨2, ![512, 2048]⟩
abbrev S512x1 : Shape := ⟨2, ![512, 1]⟩
abbrev S512 : Shape := ⟨1, ![512]⟩
abbrev S1x64 : Shape := ⟨2, ![1, 64]⟩
abbrev S1x2 : Shape := ⟨2, ![1, 2]⟩
abbrev S8192x64 : Shape := ⟨2, ![8192, 64]⟩
abbrev S2048x128 : Shape := ⟨2, ![2048, 128]⟩
abbrev S2048x1 : Shape := ⟨2, ![2048, 1]⟩
abbrev S512x64 : Shape := ⟨2, ![512, 64]⟩
abbrev S512x128 : Shape := ⟨2, ![512, 128]⟩
abbrev S8192x2 : Shape := ⟨2, ![8192, 2]⟩
abbrev S2048x64 : Shape := ⟨2, ![2048, 64]⟩
abbrev S512x2 : Shape := ⟨2, ![512, 2]⟩

abbrev nBuf : Space → Nat
  | .hbm => 11
  | .vmem => 31
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S8192x1, .f32⟩
  | .hbm, ⟨7, _⟩ => ⟨S1x64, .f32⟩
  | .hbm, ⟨8, _⟩ => ⟨S1x2, .f32⟩
  | .hbm, ⟨9, _⟩ => ⟨S8192x64, .f32⟩
  | .hbm, ⟨10, _⟩ => ⟨S8192x2, .f32⟩
  | .local _ .vmem, ⟨0, _⟩ => ⟨S512x2048, .f32⟩
  | .local _ .vmem, ⟨1, _⟩ => ⟨S512x2048, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x2048, .f32⟩
  | .local _ .vmem, ⟨6, _⟩ => ⟨S512x2048, .f32⟩
  | .local _ .vmem, ⟨7, _⟩ => ⟨S2048x128, .f32⟩
  | .local _ .vmem, ⟨8, _⟩ => ⟨S2048x128, .f32⟩
  | .local _ .vmem, ⟨9, _⟩ => ⟨S512x1, .f32⟩
  | .local _ .vmem, ⟨10, _⟩ => ⟨S512x1, .f32⟩
  | .local _ .vmem, ⟨11, _⟩ => ⟨S2048x1, .f32⟩
  | .local _ .vmem, ⟨12, _⟩ => ⟨S2048x1, .f32⟩
  | .local _ .vmem, ⟨13, _⟩ => ⟨S128x64, .f32⟩
  | .local _ .vmem, ⟨14, _⟩ => ⟨S1x64, .f32⟩
  | .local _ .vmem, ⟨15, _⟩ => ⟨S512x64, .f32⟩
  | .local _ .vmem, ⟨16, _⟩ => ⟨S512x64, .f32⟩
  | .local _ .vmem, ⟨17, _⟩ => ⟨S512x128, .f32⟩
  | .local _ .vmem, ⟨18, _⟩ => ⟨S512x2048, .f32⟩
  | .local _ .vmem, ⟨19, _⟩ => ⟨S512x2048, .f32⟩
  | .local _ .vmem, ⟨20, _⟩ => ⟨S2048x64, .f32⟩
  | .local _ .vmem, ⟨21, _⟩ => ⟨S2048x64, .f32⟩
  | .local _ .vmem, ⟨22, _⟩ => ⟨S512x1, .f32⟩
  | .local _ .vmem, ⟨23, _⟩ => ⟨S512x1, .f32⟩
  | .local _ .vmem, ⟨24, _⟩ => ⟨S2048x1, .f32⟩
  | .local _ .vmem, ⟨25, _⟩ => ⟨S2048x1, .f32⟩
  | .local _ .vmem, ⟨26, _⟩ => ⟨S64x2, .f32⟩
  | .local _ .vmem, ⟨27, _⟩ => ⟨S1x2, .f32⟩
  | .local _ .vmem, ⟨28, _⟩ => ⟨S512x2, .f32⟩
  | .local _ .vmem, ⟨29, _⟩ => ⟨S512x2, .f32⟩
  | .local _ .vmem, ⟨30, _⟩ => ⟨S512x64, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_10 : BitVec 32 := 0#32
  let v19 : BitVec 1 := Scalar.cmpi .ne v18 c0_i32_10
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S512x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![16, 4], ![false, false]⟩

def k2_cond2 (i : grid2.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_10 : BitVec 32 := 0#32
  let v20 : BitVec 1 := Scalar.cmpi .ne v19 c0_i32_10
  v20

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S64x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S512x2 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  shapeCasts_S64_S1x64 : S64.ShapeCasts S1x64
  shapeCasts_S2_S1x2 : S2.ShapeCasts S1x2
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  bitsLt_bf16_f32 : FTy.bits .bf16 < FTy.bits .f32
  broadcasts_S512x1_S512x128 : S512x1.Broadcasts S512x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S2048x1_S2048x64 : S2048x1.Broadcasts S2048x64
  broadcasts_S512x1_S512x64 : S512x1.Broadcasts S512x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  dot_S512x2048_S2048x128_S512x128_1_0_0_1_n_n_wf : DotDims.WF S512x2048 S2048x128 S512x128 [1] [0] [0] [1] [] []
  dot_S512x128_S128x64_S512x64_1_0_0_1_n_n_wf : DotDims.WF S512x128 S128x64 S512x64 [1] [0] [0] [1] [] []
  dot_S512x2048_S2048x64_S512x64_1_0_0_1_n_n_wf : DotDims.WF S512x2048 S2048x64 S512x64 [1] [0] [0] [1] [] []
  dot_S512x64_S64x2_S512x2_1_0_0_1_n_n_wf : DotDims.WF S512x64 S64x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x8192.size a
  hwx0_0 : ∀ i : grid0.Coords, EltTy.bits .f32 = 32 ∨ (Rect.block (s := S8192x8192) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x8192.size a
  hwx1_0 : ∀ i : grid1.Coords, EltTy.bits .f32 = 32 ∨ (Rect.block (s := S8192x8192) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S8192x1.size a
  hwx1_3 : ∀ i : grid1.Coords, EltTy.bits .f32 = 32 ∨ (Rect.block (s := S8192x1) S2048x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x64.size a ≤ S8192x64.size a
  hwx1_6 : ∀ i : grid1.Coords, EltTy.bits .f32 = 32 ∨ (Rect.block (s := S8192x64) S512x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S8192x8192.size a
  hwx2_0 : ∀ i : grid2.Coords, EltTy.bits .f32 = 32 ∨ (Rect.block (s := S8192x8192) S512x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S8192x64.size a
  hwx2_1 : ∀ i : grid2.Coords, EltTy.bits .f32 = 32 ∨ (Rect.block (s := S8192x64) S2048x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S8192x1.size a
  hwx2_2 : ∀ i : grid2.Coords, EltTy.bits .f32 = 32 ∨ (Rect.block (s := S8192x1) S512x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S8192x1.size a
  hwx2_3 : ∀ i : grid2.Coords, EltTy.bits .f32 = 32 ∨ (Rect.block (s := S8192x1) S2048x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x2.size a ≤ S64x2.size a
  hwx2_4 : ∀ i : grid2.Coords, EltTy.bits .f32 = 32 ∨ (Rect.block (s := S64x2) S64x2.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2.size a ≤ S1x2.size a
  hwx2_5 : ∀ i : grid2.Coords, EltTy.bits .f32 = 32 ∨ (Rect.block (s := S1x2) S1x2.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x2.size a ≤ S8192x2.size a
  hwx2_6 : ∀ i : grid2.Coords, EltTy.bits .f32 = 32 ∨ (Rect.block (s := S8192x2) S512x2.size (cc2_transform_6 i) (hinb2_6 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S512x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_arg1) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S2048x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S64x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v2) S1x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v4) S512x2.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x64 : Shape := ⟨2, ![8192, 64]⟩
abbrev S1x64 : Shape := ⟨2, ![1, 64]⟩
abbrev S8192x2 : Shape := ⟨2, ![8192, 2]⟩
abbrev S1x2 : Shape := ⟨2, ![1, 2]⟩

abbrev nBuf : Space → Nat
  | .hbm => 40
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x8192, .f32⟩
  | .hbm, ⟨17, _⟩ => ⟨S8192x8192, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x128, .f32⟩
  | .hbm, ⟨22, _⟩ => ⟨S8192x64, .f32⟩
  | .hbm, ⟨23, _⟩ => ⟨S1x64, .f32⟩
  | .hbm, ⟨24, _⟩ => ⟨S8192x64, .f32⟩
  | .hbm, ⟨25, _⟩ => ⟨S8192x64, .f32⟩
  | .hbm, ⟨26, _⟩ => ⟨S_, .f32⟩
  | .hbm, ⟨27, _⟩ => ⟨S8192x64, .f32⟩
  | .hbm, ⟨28, _⟩ => ⟨S8192x64, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S1x8192, .f32⟩
  | .hbm, ⟨33, _⟩ => ⟨S8192x8192, .f32⟩
  | .hbm, ⟨34, _⟩ => ⟨S8192x8192, .f32⟩
  | .hbm, ⟨35, _⟩ => ⟨S8192x64, .f32⟩
  | .hbm, ⟨36, _⟩ => ⟨S8192x2, .f32⟩
  | .hbm, ⟨37, _⟩ => ⟨S1x2, .f32⟩
  | .hbm, ⟨38, _⟩ => ⟨S8192x2, .f32⟩
  | .hbm, ⟨39, _⟩ => ⟨S8192x2, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  dot_S8192x8192_S8192x128_S8192x128_1_0_0_1_n_n_wf : DotDims.WF S8192x8192 S8192x128 S8192x128 [1] [0] [0] [1] [] []
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []
  dot_S8192x64_S64x2_S8192x2_1_0_0_1_n_n_wf : DotDims.WF S8192x64 S64x2 S8192x2 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x2_S8192x2_1_0_0_1_n_n : DotDims S8192x64 S64x2 S8192x2 where
  lhsContracting := [1]
  rhsContracting := [0]
  lhsNonContracting := [0]
  rhsNonContracting := [1]
  lhsBatch := []
  rhsBatch := []
  wf := dot_S8192x64_S64x2_S8192x2_1_0_0_1_n_n_wf

class Facts : Prop extends Facts₀ where

variable [Facts]
-- ==== Proof.BitsRegion0Defs.lean ====
/-
  Region 0 of the program (the degree kernel), at the buffer contents `V` the region is entered from: each window's block at a
  grid point, what the accumulator holds after each point, what the output block holds after a row tile's last
  point, and the proof data of the pipeline over them.

  A grid point `t` is column tile `t % 4` of row tile `t / 4`. The accumulator is reset at column tile 0, takes this
  point's partial row sums at every point, and after column tile 3 it holds the whole row tile's row sums; the output block is
  computed from it there, and only there.
-/
import proofs.«132783_j15479062135163_1_alg».proof.Proof.Gen.Kernel.Launch
import proofs.«132783_j15479062135163_1_alg».proof.Proof.Gen.Kernel.Skeleton
import proofs.«132783_j15479062135163_1_alg».proof.Proof.Gen.Kernel.Points
import Idealize.ShloMosaic.Lib.Pipeline.FrameBody
import Idealize.ShloMosaic.Lib.Pipeline.Frame
import Idealize.ShloMosaic.Lib.Pipeline.Kit

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency block of point `t`. -/
abbrev ablk0 (c : Dev nD) (t : Fin cfg0.N) : Vec F S512x2048 .f32 := iblk0 V c 0 t

/-- The accumulator after point `n`: at column tile 0 this point's partial row sums over the zero block, otherwise over
    what the point before left. -/
def sAt0 (c : Dev nD) : (n : ℕ) → n < cfg0.N → Vec F S512x1 .f32
  | 0, hn => k0_pay2 (k0_pay1 (F := F)) (ablk0 V c ⟨0, hn⟩)
  | n + 1, hn =>
    if (n + 1) % 4 = 0 then k0_pay2 (k0_pay1 (F := F)) (ablk0 V c ⟨n + 1, hn⟩)
    else k0_pay2 (sAt0 c n (Nat.lt_of_succ_lt hn)) (ablk0 V c ⟨n + 1, hn⟩)

/-- The output block computed at point `t` from the accumulator after `t` (stored, and written back, at column tile 3). -/
def oAt0 (c : Dev nD) (t : Fin cfg0.N) : Vec F S512x1 .f32 :=
  k0_pay3 (sAt0 V c t.val t.isLt)

/-- The accumulator's memref: the call's scratch operand, whole. -/
abbrev scM0 : Memref sig .tc .vmem S512x1 .f32 := Memref.whole cc0_scratch0

/-- The region invariant before position `n`: before the first point every scoped buffer that is no staging buffer at
    anything and the generator register at some state; afterwards the accumulator at what the point before left, the other
    such buffers at anything, the generator register at some state. -/
def PhiS0 (c : Dev nD) : (n : ℕ) → n ≤ cfg0.N → sProp 𝕄
  | 0, _ => Pipeline.ΦA spec0 c
  | n + 1, hn => iprop(owns (c : Thread nD τ) (scM0) fullShare (sAt0 V c n hn)
      ∗ Pipeline.scopedRestBut (Ix := Unit) (Name := ℕ) (U := UR sig nD τ) (Lvl := ℕ) (Val := Elt F) spec0 c [cc0_scratch0]
      ∗ (∃ r, prngReg c r))

/-- The proof data of pipeline 0 on core `c`: the arrays as the region finds them; after the body at point `t` each
    input's buffer at its block and the output's at `oAt0`; the invariant `PhiS0`; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => oAt0 V c t
  Φ t := PhiS0 V c t.val (Nat.le_of_lt_succ t.isLt)
  q w := fullShare
  owed _ := 0

end Cert.Kernel.Hand

end
-- ==== Proof.BitsRegion0.lean ====
/-
  Region 0: the body of the kernel at every grid point against the proof data of Proof/Region0Defs.lean — the
  accumulator reset at column tile 0, this point's partial result added at every point, the output block stored at
  column tile 3 — and the invariant at the region's two ends.
-/
import proofs.«132783_j15479062135163_1_alg».proof.Proof.BitsRegion0Defs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data's arrays are the region-entry contents. -/
theorem A_eq0 (c : Dev nD) (w : Fin cfg0.W) : (dat0 V c).A w = V c (Pipeline.arrRef spec0 w) := by
  dsimp only [dat0]

/-! ## The body's branch conditions over the grid -/

/-- The first branch of the body is taken exactly when the column-tile coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch of the body is taken exactly when the column-tile coordinate is 3. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The adjacency window is never idle (an input). -/
theorem liveAt0_0 : ∀ t : Fin cfg0.N, cfg0.idle 0 (grid0.coords t) = false := by decide +kernel
/-- Off column tile 3 the output window is idle: nothing is stored into it. -/
theorem idleAt0_1 : ∀ t : Fin cfg0.N, ¬ t.val % 4 = 3 → cfg0.idle 1 (grid0.coords t) = true :=
  (by decide +kernel : ∀ t : Fin grid0.N, ¬ t.val % 4 = 3 → cfg0.idle 1 (grid0.coords t) = true)
/-- Off column tile 3 the output block is not written back. -/
theorem noFlush0_1 : ∀ t : Fin cfg0.N, ¬ t.val % 4 = 3 → (cfg0.win 1).flush t = false :=
  (by decide +kernel : ∀ t : Fin grid0.N, ¬ t.val % 4 = 3 → win0_1.flush t = false)
/-- At column tile 3 the output window is live: the body stores into it. -/
theorem liveAt0_1 : ∀ t : Fin cfg0.N, t.val % 4 = 3 → cfg0.idle 1 (grid0.coords t) = false :=
  (by decide +kernel : ∀ t : Fin grid0.N, t.val % 4 = 3 → cfg0.idle 1 (grid0.coords t) = false)

/-! ## What the body finds in the adjacency window's buffer -/

/-- The adjacency window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = oAt0 V c t := by dsimp only [dat0]

theorem before0_0 (c : Dev nD) (t : Fin cfg0.N) (d) : (dat0 V c).before 0 t d = iblk0 V c 0 t :=
  before0_0_of V (dat0 V c) (A_eq0 V c 0) (after0_0 V c) t d

/-! ## The body's triple, case by case -/

/-- The whole-buffer rectangle's offsets are zero. -/
theorem hzero0 : (![0, 0] : Fin 2 → ℕ) = fun _ => 0 := funext fun a => by fin_cases a <;> rfl

/-- The whole-buffer rectangle of the accumulator and of the output block. -/
abbrev rAcc0 : Rect S512x1 := Rect.unit (s := S512x1) ![0, 0] S512x1.size inb_S512x1_S512x1_0_0

/-- A store through the whole-buffer rectangle, made last, covers every index. -/
theorem cover_rAcc0 (w : Vec F S512x1 .f32) (L : List (View.Piece (Elt F) S512x1 .f32)) (y : S512x1.Idx) :
    ∃ pc ∈ ((⟨rAcc0, w⟩ : View.Piece (Elt F) S512x1 .f32) :: L), y ∈ pc.1.set :=
  ⟨_, List.mem_cons_self, View.mem_set_unit_zero hzero0 inb_S512x1_S512x1_0_0 y⟩

set_option maxHeartbeats 1000000 in
/-- Column tiles 1 and 2: the accumulator takes this point's partial row sums; the output block is not touched. -/
theorem kernel0_B (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (hc0 : ¬cond0_0 i) (hc1 : ¬cond0_1 i)
    (x0 : Vec F S512x2048 .f32) (xs0 : Vec F S512x1 .f32) (xi1 : Vec F S512x1 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1 ∗ owns (c : Thread nD τ) arg4 fullShare (k0_pay2 xs0 x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%fs0, %hfs0, HS0⟩, Hk⟩
  subst hf0 hf1 hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS0
  ipureintro
  rw [View.read_writes_eq_canon _ _ _ (cover_rAcc0 _ _), View.canon_unit_zero hzero0]
  rw [View.readAt_eq_ld, View.readAt_eq_ld, View.ld_unit_zero (S := S512x1) hzero0, View.ld_unit_zero (S := S512x2048) hzero0]

set_option maxHeartbeats 1000000 in
/-- Column tile 0: the accumulator is reset to the zero block, then takes this point's partial row sums; the output
    block is not touched. -/
theorem kernel0_A (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (hc0 : cond0_0 i) (hc1 : ¬cond0_1 i)
    (x0 : Vec F S512x2048 .f32) (xi1 : Vec F S512x1 .f32) (E : Set ℕ) (K : PUnit → sProp 𝕄) :
    iprop(owns (c : Thread nD τ) arg2 fullShare x0 ∗ owns (c : Thread nD τ) arg3 fullShare xi1 ∗ (∃ d, owns (c : Thread nD τ) arg4 fullShare d)
        ∗ (iprop(owns (c : Thread nD τ) arg2 fullShare x0 ∗ owns (c : Thread nD τ) arg3 fullShare xi1 ∗ owns (c : Thread nD τ) arg4 fullShare (k0_pay2 (k0_pay1 (F := F)) x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%ds0, %fs0, -, HS0⟩, Hk⟩
  subst hf0 hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS0
  ipureintro
  sl_unfold_words
  rw [View.read_writes_eq_canon _ _ _ (cover_rAcc0 _ _), View.canon_cons_unit_zero (S := S512x1) hzero0, View.readCov_unit_zero (S := S512x1) _ hzero0,
    View.readAt_eq_ld, View.ld_unit_zero (S := S512x2048) hzero0]

set_option maxHeartbeats 1000000 in
/-- Column tile 3: the accumulator takes this point's partial row sums, and the output block is computed from it and
    stored. -/
theorem kernel0_C (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (hc0 : ¬cond0_0 i) (hc1 : cond0_1 i)
    (x0 : Vec F S512x2048 .f32) (xs0 : Vec F S512x1 .f32) (E : Set ℕ) (K : PUnit → sProp 𝕄) :
    iprop(owns (c : Thread nD τ) arg2 fullShare x0 ∗ (∃ d, owns (c : Thread nD τ) arg3 fullShare d) ∗ owns (c : Thread nD τ) arg4 fullShare xs0
        ∗ (iprop(owns (c : Thread nD τ) arg2 fullShare x0 ∗ owns (c : Thread nD τ) arg3 fullShare (k0_pay3 (k0_pay2 xs0 x0)) ∗ owns (c : Thread nD τ) arg4 fullShare (k0_pay2 xs0 x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%d1, %f1, -, H1⟩, ⟨%fs0, %hfs0, HS0⟩, Hk⟩
  subst hf0 hfs0
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_words
    rw [View.read_writes_eq_canon _ _ _ (cover_rAcc0 _ _), View.canon_unit_zero (S := S512x1) hzero0, View.readCov_unit_zero (S := S512x1) _ hzero0,
      View.readAt_eq_ld, View.readAt_eq_ld, View.ld_unit_zero (S := S512x1) hzero0, View.ld_unit_zero (S := S512x2048) hzero0]
  iexists _; isplitr
  swap; · iexact HS0
  ipureintro
  sl_unfold_words
  rw [View.read_writes_eq_canon _ _ _ (cover_rAcc0 _ _), View.canon_unit_zero (S := S512x1) hzero0,
    View.readAt_eq_ld, View.readAt_eq_ld, View.ld_unit_zero (S := S512x1) hzero0, View.ld_unit_zero (S := S512x2048) hzero0]

/-! ## The accumulator after each point -/

/-- At column tile 0 the accumulator holds this point's partial row sums over the zero block. -/
theorem sAt0_reset (c : Dev nD) (t : Fin cfg0.N) (h0 : t.val % 4 = 0) :
    sAt0 V c t.val t.isLt = k0_pay2 (k0_pay1 (F := F)) (ablk0 V c t) := by
  obtain ⟨n, hn⟩ := t
  cases n with
  | zero => rfl
  | succ n => rw [sAt0.eq_2]; exact if_pos h0

/-- At any other column tile it holds this point's partial row sums over what the point before left. -/
theorem sAt0_acc (c : Dev nD) (t : Fin cfg0.N) (h0 : ¬t.val % 4 = 0) :
    sAt0 V c t.val t.isLt
      = k0_pay2 (sAt0 V c (t.val - 1) (Nat.lt_of_le_of_lt (Nat.sub_le _ _) t.isLt)) (ablk0 V c t) := by
  obtain ⟨n, hn⟩ := t
  cases n with
  | zero => exact absurd (Nat.zero_mod _) h0
  | succ n => rw [sAt0.eq_2]; exact if_neg h0

/-! ## The region invariant, position by position -/

theorem PhiS0_zero (c : Dev nD) (n : ℕ) (h : n ≤ cfg0.N) (hn : n = 0) : PhiS0 V c n h = Pipeline.ΦA spec0 c := by
  subst hn; rfl

/-- After point `n`: the accumulator at that point's contents. -/
theorem PhiS0_succ (c : Dev nD) (n : ℕ) (hn : n < cfg0.N) :
    PhiS0 V c (n + 1) hn = iprop(owns (c : Thread nD τ) (scM0) fullShare (sAt0 V c n hn)
      ∗ Pipeline.scopedRestBut (Ix := Unit) (Name := ℕ) (U := UR sig nD τ) (Lvl := ℕ) (Val := Elt F) spec0 c [cc0_scratch0]
      ∗ (∃ r, prngReg c r)) := rfl

/-- Before a point that is not the first: the accumulator at what the point before left. -/
theorem PhiS0_pos (c : Dev nD) (n : ℕ) (h : n ≤ cfg0.N) (hn : n ≠ 0) :
    PhiS0 V c n h = iprop(owns (c : Thread nD τ) (scM0) fullShare (sAt0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hn
  | succ n => rfl

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the region is handed, with the accumulator's buffer taken out of the scoped rest and owned at some contents. -/
theorem PhiA0_eq (c : Dev nD) :
    (Pipeline.ΦA (Val := Elt F) (U := UR sig nD τ) spec0 c : sProp 𝕄)
      = iprop((∃ d, owns (c : Thread nD τ) (scM0) fullShare d)
          ∗ Pipeline.scopedRestBut (Ix := Unit) (Name := ℕ) (U := UR sig nD τ) (Lvl := ℕ) (Val := Elt F) spec0 c [cc0_scratch0]
          ∗ (∃ r, prngReg c r)) := by
  unfold Pipeline.ΦA; rw [scopedRest0_split]; simp only [scM0, owns_whole]
  refine BI.equiv_iff.mp ⟨?_, ?_⟩
  · show (_ : sProp 𝕄) ⊢ _
    iintro ⟨⟨HS, HR⟩, Hg⟩
    isplitl [HS]; · iexact HS
    isplitl [HR]; · iexact HR
    iexact Hg
  · show (_ : sProp 𝕄) ⊢ _
    iintro ⟨HS, HR, Hg⟩
    isplitl [HS HR]
    · isplitl [HS]; · iexact HS
      iexact HR
    iexact Hg

/-! ## The body obligation, at a generic point -/

/-- Each window's current staging memref at point `t`, as the pipeline passes it to the body. -/
abbrev ms0_0 (t : Fin cfg0.N) : Memref sig .tc .vmem S512x2048 .f32 := win0_0.stage (cfg0.slots t 0)
abbrev ms0_1 (t : Fin cfg0.N) : Memref sig .tc .vmem S512x1 .f32 := win0_1.stage (cfg0.slots t 1)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The adjacency window's buffer holds its block; the column tile says which case the point is
    in; the invariant hands the body the accumulator at what the point before left (at anything before the first point)
    and takes it back at this point's contents; off column tile 3 the output window's buffer is handed back as found, at
    column tile 3 it holds the block computed from the accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  have hN : t.val < 64 := lt_of_lt_of_eq t.isLt (show cfg0.N = 64 from N_0)
  by_cases h0 : t.val % 4 = 0
  · have h1 : ¬t.val % 4 = 3 := by omega
    rw [Dat.leavesExact_idle (dat0 V c) 1 t (idleAt0_1 t h1) (noFlush0_1 t h1)]
    rw [sAt0_reset V c t h0]
    by_cases hn : t.val = 0
    · rw [PhiS0_castSucc V c t, PhiS0_zero V c _ _ hn, PhiA0_eq]
      iintro ⟨⟨HS0, HR, Hg⟩, Ho, ⟨%d0, H0⟩, ⟨%d1, H1⟩⟩
      iapply (kernel0_A c (grid0.coords t) _ _ _ _ _ _ ((hcond0_0 t).mpr h0) (fun h => h1 ((hcond0_1 t).mp h)) (ablk0 V c t) _ Set.univ _)
      isplitl [H0]; · iexact H0
      isplitl [H1]; · iexact H1
      isplitl [HS0]; · iexact HS0
      iintro ⟨H0, H1, HS0⟩
      isplitl [HS0 HR Hg]
      · isplitl [HS0]; · iexact HS0
        isplitl [HR]; · iexact HR
        iexact Hg
      isplitl [Ho]; · iexact Ho
      isplitl [H0]; · iexact H0
      iexists _; iexact H1
    · rw [PhiS0_castSucc V c t, PhiS0_pos V c _ _ hn]
      iintro ⟨⟨HS0, HR, Hg⟩, Ho, ⟨%d0, H0⟩, ⟨%d1, H1⟩⟩
      iapply (kernel0_A c (grid0.coords t) _ _ _ _ _ _ ((hcond0_0 t).mpr h0) (fun h => h1 ((hcond0_1 t).mp h)) (ablk0 V c t) _ Set.univ _)
      isplitl [H0]; · iexact H0
      isplitl [H1]; · iexact H1
      isplitl [HS0]; · iexists _; iexact HS0
      iintro ⟨H0, H1, HS0⟩
      isplitl [HS0 HR Hg]
      · isplitl [HS0]; · iexact HS0
        isplitl [HR]; · iexact HR
        iexact Hg
      isplitl [Ho]; · iexact Ho
      isplitl [H0]; · iexact H0
      iexists _; iexact H1
  · have hn : t.val ≠ 0 := fun h => h0 (by rw [h])
    rw [sAt0_acc V c t h0]
    rw [PhiS0_castSucc V c t, PhiS0_pos V c _ _ hn]
    by_cases h1 : t.val % 4 = 3
    · rw [show (dat0 V c).leavesExact 1 t = owns (c : Thread nD τ) (ms0_1 t) fullShare ((dat0 V c).after 1 t) from by
        unfold Dat.leavesExact; rw [liveAt0_1 t h1], after0_1]
      unfold oAt0
      rw [sAt0_acc V c t h0]
      iintro ⟨⟨HS0, HR, Hg⟩, Ho, ⟨%d0, H0⟩, ⟨%d1, H1⟩⟩
      iapply (kernel0_C c (grid0.coords t) _ _ _ _ _ _ (fun h => h0 ((hcond0_0 t).mp h)) ((hcond0_1 t).mpr h1) (ablk0 V c t)
        (sAt0 V c (t.val - 1) (Nat.lt_of_le_of_lt (Nat.sub_le _ _) t.isLt)) Set.univ _)
      isplitl [H0]; · iexact H0
      isplitl [H1]; · iexists _; iexact H1
      isplitl [HS0]; · iexact HS0
      iintro ⟨H0, H1, HS0⟩
      isplitl [HS0 HR Hg]
      · isplitl [HS0]; · iexact HS0
        isplitl [HR]; · iexact HR
        iexact Hg
      isplitl [Ho]; · iexact Ho
      isplitl [H0]; · iexact H0
      iexact H1
    · rw [Dat.leavesExact_idle (dat0 V c) 1 t (idleAt0_1 t h1) (noFlush0_1 t h1)]
      iintro ⟨⟨HS0, HR, Hg⟩, Ho, ⟨%d0, H0⟩, ⟨%d1, H1⟩⟩
      iapply (kernel0_B c (grid0.coords t) _ _ _ _ _ _ (fun h => h0 ((hcond0_0 t).mp h)) (fun h => h1 ((hcond0_1 t).mp h)) (ablk0 V c t)
        (sAt0 V c (t.val - 1) (Nat.lt_of_le_of_lt (Nat.sub_le _ _) t.isLt)) _ Set.univ _)
      isplitl [H0]; · iexact H0
      isplitl [H1]; · iexact H1
      isplitl [HS0]; · iexact HS0
      iintro ⟨H0, H1, HS0⟩
      isplitl [HS0 HR Hg]
      · isplitl [HS0]; · iexact HS0
        isplitl [HR]; · iexact HR
        iexact Hg
      isplitl [Ho]; · iexact Ho
      isplitl [H0]; · iexact H0
      iexists _; iexact H1

/-- The body obligation of pipeline 0, at every point. -/
theorem body_obligation0 (c : Dev nD) : BodyObligation (dat0 (F := F) V c) (defs₀ (F := F)) Variants.none () Set.univ := by
  intro t
  rw [bigSep_W0, bigSep_W0]
  exact sound_body0 V c t

/-- What the region is handed is the invariant before the first point. -/
theorem hin0 (c : Dev nD) : (Pipeline.ΦA (Val := Elt F) (U := UR sig nD τ) spec0 c : sProp 𝕄) ⊢ (dat0 V c).Φ 0 := by
  rw [show (dat0 V c).Φ 0 = PhiS0 V c 0 (Nat.zero_le _) from rfl, PhiS0_zero V c 0 _ rfl]

/-- After any point the invariant gives back what the region was handed: the accumulator's contents are forgotten. -/
theorem Phi_out0 (c : Dev nD) (t : Fin (cfg0.N + 1)) (ht : t.val ≠ 0) :
    (dat0 V c).Φ t ⊢ (Pipeline.ΦA (Val := Elt F) (U := UR sig nD τ) spec0 c : sProp 𝕄) := by
  rw [show (dat0 V c).Φ t = PhiS0 V c t.val (Nat.le_of_lt_succ t.isLt) from rfl, PhiS0_pos V c _ _ ht, PhiA0_eq]
  iintro ⟨HS0, HR, Hg⟩
  isplitl [HS0]
  · iexists _; iexact HS0
  isplitl [HR]; · iexact HR
  iexact Hg

/-- After the last point the invariant gives back every scoped buffer that is no staging buffer at anything, and the
    generator register. -/
theorem hout0 (c : Dev nD) : (dat0 V c).Φ (Fin.last cfg0.N) ⊢ (Pipeline.ΦA (Val := Elt F) (U := UR sig nD τ) spec0 c : sProp 𝕄) := by
  exact Phi_out0 V c _ (by rw [Fin.val_last]; have : cfg0.N = 64 := N_0; omega)

end Cert.Kernel.Hand

end
-- ==== Proof.BitsRegion1Defs.lean ====
/-
  Region 1 of the program (the first layer), at the buffer contents `V` the region is entered from: each window's block at a
  grid point, what the accumulator holds after each point, what the output block holds after a row tile's last
  point, and the proof data of the pipeline over them.

  A grid point `t` is column tile `t % 4` of row tile `t / 4`. The accumulator is reset at column tile 0, takes this
  point's partial products at every point, and after column tile 3 it holds the whole row tile's products; the output block is
  computed from it there, and only there.
-/
import proofs.«132783_j15479062135163_1_alg».proof.Proof.Gen.Kernel.Launch
import proofs.«132783_j15479062135163_1_alg».proof.Proof.Gen.Kernel.Skeleton
import proofs.«132783_j15479062135163_1_alg».proof.Proof.Gen.Kernel.Points
import Idealize.ShloMosaic.Lib.Pipeline.FrameBody
import Idealize.ShloMosaic.Lib.Pipeline.Frame
import Idealize.ShloMosaic.Lib.Pipeline.Kit

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block of point `t`. -/
abbrev ablk1 (c : Dev nD) (t : Fin cfg1.N) : Vec F S512x2048 .f32 := iblk1 V c 0 t
/-- The feature block of point `t` (the rows of the column tile). -/
abbrev xblk1 (c : Dev nD) (t : Fin cfg1.N) : Vec F S2048x128 .f32 := iblk1 V c 1 t
/-- The scaling of the row tile's rows. -/
abbrev drow1 (c : Dev nD) (t : Fin cfg1.N) : Vec F S512x1 .f32 := iblk1 V c 2 t
/-- The scaling of the column tile's rows. -/
abbrev dcol1 (c : Dev nD) (t : Fin cfg1.N) : Vec F S2048x1 .f32 := iblk1 V c 3 t
/-- The weights. -/
abbrev wblk1 (c : Dev nD) (t : Fin cfg1.N) : Vec F S128x64 .f32 := iblk1 V c 4 t
/-- The bias row. -/
abbrev bblk1 (c : Dev nD) (t : Fin cfg1.N) : Vec F S1x64 .f32 := iblk1 V c 5 t

/-- The accumulator after point `n`: at column tile 0 this point's partial products over the zero block, otherwise over
    what the point before left. -/
def sAt1 (c : Dev nD) : (n : ℕ) → n < cfg1.N → Vec F S512x128 .f32
  | 0, hn => k1_pay2 (xblk1 V c ⟨0, hn⟩) (dcol1 V c ⟨0, hn⟩) (ablk1 V c ⟨0, hn⟩) (k1_pay1 (F := F))
  | n + 1, hn =>
    if (n + 1) % 4 = 0 then k1_pay2 (xblk1 V c ⟨n + 1, hn⟩) (dcol1 V c ⟨n + 1, hn⟩) (ablk1 V c ⟨n + 1, hn⟩) (k1_pay1 (F := F))
    else k1_pay2 (xblk1 V c ⟨n + 1, hn⟩) (dcol1 V c ⟨n + 1, hn⟩) (ablk1 V c ⟨n + 1, hn⟩) (sAt1 c n (Nat.lt_of_succ_lt hn))

/-- The output block computed at point `t` from the accumulator after `t` (stored, and written back, at column tile 3). -/
def oAt1 (c : Dev nD) (t : Fin cfg1.N) : Vec F S512x64 .f32 :=
  k1_pay3 (sAt1 V c t.val t.isLt) (drow1 V c t) (wblk1 V c t) (bblk1 V c t)

/-- The accumulator's memref: the call's scratch operand, whole. -/
abbrev scM1 : Memref sig .tc .vmem S512x128 .f32 := Memref.whole cc1_scratch0

/-- The region invariant before position `n`: before the first point every scoped buffer that is no staging buffer at
    anything and the generator register at some state; afterwards the accumulator at what the point before left, the other
    such buffers at anything, the generator register at some state. -/
def PhiS1 (c : Dev nD) : (n : ℕ) → n ≤ cfg1.N → sProp 𝕄
  | 0, _ => Pipeline.ΦA spec1 c
  | n + 1, hn => iprop(owns (c : Thread nD τ) (scM1) fullShare (sAt1 V c n hn)
      ∗ Pipeline.scopedRestBut (Ix := Unit) (Name := ℕ) (U := UR sig nD τ) (Lvl := ℕ) (Val := Elt F) spec1 c [cc1_scratch0]
      ∗ (∃ r, prngReg c r))

/-- The proof data of pipeline 1 on core `c`: the arrays as the region finds them; after the body at point `t` each
    input's buffer at its block and the output's at `oAt1`; the invariant `PhiS1`; nothing owed; the scaling array, read through two windows, held half by each, every other array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => oAt1 V c t
  Φ t := PhiS1 V c t.val (Nat.le_of_lt_succ t.isLt)
  q w := match w with | ⟨2, _⟩ => fullShare.left | ⟨3, _⟩ => fullShare.right | _ => fullShare
  owed _ := 0

end Cert.Kernel.Hand

end
-- ==== Proof.BitsRegion1.lean ====
/-
  Region 1: the body of the kernel at every grid point against the proof data of Proof/Region1Defs.lean — the
  accumulator reset at column tile 0, this point's partial result added at every point, the output block stored at
  column tile 3 — and the invariant at the region's two ends.
-/
import proofs.«132783_j15479062135163_1_alg».proof.Proof.BitsRegion1Defs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions of the body, in closed form over the grid -/

/-- The body's first branch (the accumulator's reset) is taken: the column-tile coordinate is 0. -/
abbrev condReset1 (i : grid1.Coords) : Prop := (Scalar.cmpi .ne (Scalar.extui (Scalar.cmpi .eq (BitVec.ofNat 32 (i 1).val) 0#32)) 0#32) = 1#1
/-- The body's second branch (the output block's computation) is taken: the column-tile coordinate is 3. -/
abbrev condFin1 (i : grid1.Coords) : Prop := k1_cond2 i = 1#1

/-- The reset happens exactly at column tile 0. -/
theorem condReset1_iff : ∀ t : Fin cfg1.N, condReset1 (grid1.coords t) ↔ t.val % 4 = 0 :=
  (by decide +kernel : ∀ t : Fin grid1.N, condReset1 (grid1.coords t) ↔ t.val % 4 = 0)
/-- The output block is computed exactly at column tile 3. -/
theorem condFin1_iff : ∀ t : Fin cfg1.N, condFin1 (grid1.coords t) ↔ t.val % 4 = 3 :=
  (by decide +kernel : ∀ t : Fin grid1.N, condFin1 (grid1.coords t) ↔ t.val % 4 = 3)

/-- Every access of the body is at offset (0, 0). -/
theorem off_zero1 : (![0, 0] : Fin 2 → ℕ) = fun _ => 0 := by
  funext a; fin_cases a <;> rfl

/-- One store of the whole accumulator covers it. -/
theorem cover_acc1 (p : Vec F S512x128 .f32) (L : List (View.Piece (Elt F) S512x128 .f32)) (y : S512x128.Idx) :
    ∃ pc ∈ ((⟨Rect.unit ![0, 0] S512x128.size inb_S512x128_S512x128_0_0, p⟩ : View.Piece (Elt F) S512x128 .f32) :: L), y ∈ pc.1.set :=
  ⟨_, List.mem_cons_self, View.mem_set_unit_zero off_zero1 inb_S512x128_S512x128_0_0 y⟩

/-- One store of the whole output block covers it. -/
theorem cover_out1 (p : Vec F S512x64 .f32) (y : S512x64.Idx) :
    ∃ pc ∈ ([⟨Rect.unit ![0, 0] S512x64.size inb_S512x64_S512x64_0_0, p⟩] : List (View.Piece (Elt F) S512x64 .f32)), y ∈ pc.1.set :=
  ⟨_, List.mem_cons_self, View.mem_set_unit_zero off_zero1 inb_S512x64_S512x64_0_0 y⟩

/-! ## The body's triple, case by case -/

set_option maxHeartbeats 2000000 in
/-- Column tile 0: the accumulator, whatever it held, is reset and takes this point's products; the output block's buffer is
    not touched. -/
theorem run1_A (c : Dev nD) (E : Set ℕ) (i : grid1.Coords)
    (arg2 : Memref sig .tc .vmem S512x2048 .f32) (harg2 : arg2.IsWhole) (arg3 : Memref sig .tc .vmem S2048x128 .f32) (harg3 : arg3.IsWhole)
    (arg4 : Memref sig .tc .vmem S512x1 .f32) (harg4 : arg4.IsWhole) (arg5 : Memref sig .tc .vmem S2048x1 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S512x64 .f32) (harg8 : arg8.IsWhole) (arg9 : Memref sig .tc .vmem S512x128 .f32) (harg9 : arg9.IsWhole)
    (hc0 : condReset1 i) (hc1 : ¬condFin1 i)
    (x0 : Vec F S512x2048 .f32) (x1 : Vec F S2048x128 .f32) (x2 : Vec F S512x1 .f32) (x3 : Vec F S2048x1 .f32)
    (x4 : Vec F S128x64 .f32) (x5 : Vec F S1x64 .f32) (xo : Vec F S512x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xo ∗ (∃ d, owns (c : Thread nD τ) arg9 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xo ∗ owns (c : Thread nD τ) arg9 fullShare (k1_pay2 x1 x3 x0 (k1_pay1 (F := F)))) -∗ K ⟨⟩))
      ⊢ wp frame (wpE (defs₀ (F := F)) Variants.none c none) E (cc1_kernel i arg2 harg2 arg3 harg3 arg4 harg4 arg5 harg5 arg6 harg6 arg7 harg7 arg8 harg8 arg9 harg9) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
  subst hf0 hf1 hf2 hf3 hf4 hf5 hf6
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact HS
  ipureintro
  sl_unfold_run_names
  rw [View.read_writes_eq_canon _ _ _ (cover_acc1 _ _), View.canon_cons_unit_zero off_zero1, View.readCov_unit_zero _ off_zero1]
  simp only [View.readAt_eq_ld, View.ld_unit_zero (S := S2048x128) off_zero1, View.ld_unit_zero (S := S2048x1) off_zero1, View.ld_unit_zero (S := S512x2048) off_zero1]

set_option maxHeartbeats 2000000 in
/-- Column tiles 1 and 2: the accumulator takes this point's products over what it held; the output block's buffer is not
    touched. -/
theorem run1_B (c : Dev nD) (E : Set ℕ) (i : grid1.Coords)
    (arg2 : Memref sig .tc .vmem S512x2048 .f32) (harg2 : arg2.IsWhole) (arg3 : Memref sig .tc .vmem S2048x128 .f32) (harg3 : arg3.IsWhole)
    (arg4 : Memref sig .tc .vmem S512x1 .f32) (harg4 : arg4.IsWhole) (arg5 : Memref sig .tc .vmem S2048x1 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S512x64 .f32) (harg8 : arg8.IsWhole) (arg9 : Memref sig .tc .vmem S512x128 .f32) (harg9 : arg9.IsWhole)
    (hc0 : ¬condReset1 i) (hc1 : ¬condFin1 i)
    (x0 : Vec F S512x2048 .f32) (x1 : Vec F S2048x128 .f32) (x2 : Vec F S512x1 .f32) (x3 : Vec F S2048x1 .f32)
    (x4 : Vec F S128x64 .f32) (x5 : Vec F S1x64 .f32) (xo : Vec F S512x64 .f32) (xs : Vec F S512x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xo ∗ owns (c : Thread nD τ) arg9 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xo ∗ owns (c : Thread nD τ) arg9 fullShare (k1_pay2 x1 x3 x0 xs)) -∗ K ⟨⟩))
      ⊢ wp frame (wpE (defs₀ (F := F)) Variants.none c none) E (cc1_kernel i arg2 harg2 arg3 harg3 arg4 harg4 arg5 harg5 arg6 harg6 arg7 harg7 arg8 harg8 arg9 harg9) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  subst hf0 hf1 hf2 hf3 hf4 hf5 hf6 hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact HS
  ipureintro
  rw [View.read_writes_eq_canon _ _ _ (cover_acc1 _ _), View.canon_unit_zero off_zero1]
  simp only [View.readAt_eq_ld, View.ld_unit_zero (S := S2048x128) off_zero1, View.ld_unit_zero (S := S2048x1) off_zero1, View.ld_unit_zero (S := S512x2048) off_zero1, View.ld_unit_zero (S := S512x128) off_zero1]

set_option maxHeartbeats 2000000 in
/-- Column tile 3: the accumulator takes this point's products over what it held, and the output block, whatever its buffer
    held, is computed from the accumulator and stored. -/
theorem run1_C (c : Dev nD) (E : Set ℕ) (i : grid1.Coords)
    (arg2 : Memref sig .tc .vmem S512x2048 .f32) (harg2 : arg2.IsWhole) (arg3 : Memref sig .tc .vmem S2048x128 .f32) (harg3 : arg3.IsWhole)
    (arg4 : Memref sig .tc .vmem S512x1 .f32) (harg4 : arg4.IsWhole) (arg5 : Memref sig .tc .vmem S2048x1 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S512x64 .f32) (harg8 : arg8.IsWhole) (arg9 : Memref sig .tc .vmem S512x128 .f32) (harg9 : arg9.IsWhole)
    (hc0 : ¬condReset1 i) (hc1 : condFin1 i)
    (x0 : Vec F S512x2048 .f32) (x1 : Vec F S2048x128 .f32) (x2 : Vec F S512x1 .f32) (x3 : Vec F S2048x1 .f32)
    (x4 : Vec F S128x64 .f32) (x5 : Vec F S1x64 .f32) (xs : Vec F S512x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (k1_pay3 (k1_pay2 x1 x3 x0 xs) x2 x4 x5) ∗ owns (c : Thread nD τ) arg9 fullShare (k1_pay2 x1 x3 x0 xs)) -∗ K ⟨⟩))
      ⊢ wp frame (wpE (defs₀ (F := F)) Variants.none c none) E (cc1_kernel i arg2 harg2 arg3 harg3 arg4 harg4 arg5 harg5 arg6 harg6 arg7 harg7 arg8 harg8 arg9 harg9) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0 hf1 hf2 hf3 hf4 hf5 hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  have hacc : View.read (Elt F) arg9.view (arg9.view.writes (Elt F) fs
      [⟨Rect.unit ![0, 0] S512x128.size inb_S512x128_S512x128_0_0,
        k1_pay2 (View.readAt (Elt F) arg3.view (Rect.unit ![0, 0] S2048x128.size inb_S2048x128_S2048x128_0_0).toLoadRect f1)
          (View.readAt (Elt F) arg5.view (Rect.unit ![0, 0] S2048x1.size inb_S2048x1_S2048x1_0_0).toLoadRect f3)
          (View.readAt (Elt F) arg2.view (Rect.unit ![0, 0] S512x2048.size inb_S512x2048_S512x2048_0_0).toLoadRect f0)
          (View.readAt (Elt F) arg9.view (Rect.unit ![0, 0] S512x128.size inb_S512x128_S512x128_0_0).toLoadRect fs)⟩])
      = k1_pay2 (View.read (Elt F) arg3.view f1) (View.read (Elt F) arg5.view f3) (View.read (Elt F) arg2.view f0) (View.read (Elt F) arg9.view fs) := by
    rw [View.read_writes_eq_canon _ _ _ (cover_acc1 _ _), View.canon_unit_zero off_zero1]
    simp only [View.readAt_eq_ld, View.ld_unit_zero (S := S2048x128) off_zero1, View.ld_unit_zero (S := S2048x1) off_zero1, View.ld_unit_zero (S := S512x2048) off_zero1, View.ld_unit_zero (S := S512x128) off_zero1]
  isplitl [H6]
  · iexists _; isplitr
    swap; · iexact H6
    ipureintro
    sl_unfold_run_names
    rw [View.read_writes_eq_canon _ _ _ (cover_out1 _), View.canon_unit_zero off_zero1, View.readCov_unit_zero _ off_zero1]
    simp only [View.readAt_eq_ld, View.ld_unit_zero (S := S2048x128) off_zero1, View.ld_unit_zero (S := S2048x1) off_zero1, View.ld_unit_zero (S := S512x2048) off_zero1, View.ld_unit_zero (S := S512x128) off_zero1, View.ld_unit_zero (S := S512x1) off_zero1, View.ld_unit_zero (S := S128x64) off_zero1, View.ld_unit_zero (S := S1x64) off_zero1]
  iexists _; isplitr
  swap; · iexact HS
  ipureintro
  exact hacc

variable (V : (c : Dev nD) → (b : Ref sig .tc) → Buf (Elt F) ((c : Thread nD τ).loc b))

/-- The proof data's arrays are the region-entry contents. -/
theorem A_eq1 (c : Dev nD) (w : Fin cfg1.W) : (dat1 V c).A w = V c (Pipeline.arrRef spec1 w) := by
  dsimp only [dat1]

/-! ## Where the output window is idle, live, written back -/

/-- Away from column tile 3 the body stores nothing into the output block's buffer, -/
theorem idle1_6 : ∀ t : Fin cfg1.N, ¬t.val % 4 = 3 → cfg1.idle 6 (grid1.coords t) = true :=
  (by decide +kernel : ∀ t : Fin grid1.N, ¬t.val % 4 = 3 → idle1 6 (grid1.coords t) = true)
/-- and the block is not written back there; -/
theorem noFlush1_6 (t : Fin cfg1.N) (h : ¬t.val % 4 = 3) : (cfg1.win 6).flush t = false :=
  Bool.eq_false_iff.mpr fun hf => h ((flush1_6 t).mp hf)
/-- at column tile 3 it stores the block. -/
theorem live1_6 : ∀ t : Fin cfg1.N, t.val % 4 = 3 → cfg1.idle 6 (grid1.coords t) = false :=
  (by decide +kernel : ∀ t : Fin grid1.N, t.val % 4 = 3 → idle1 6 (grid1.coords t) = false)

/-! ## The accumulator, point by point -/

/-- At column tile 0 the accumulator is this point's products over the zero block. -/
theorem acc1_at_reset (c : Dev nD) (t : Fin cfg1.N) (h0 : t.val % 4 = 0) :
    sAt1 V c t.val t.isLt = k1_pay2 (xblk1 V c t) (dcol1 V c t) (ablk1 V c t) (k1_pay1 (F := F)) := by
  obtain ⟨n, hn⟩ := t
  cases n with
  | zero => rfl
  | succ n => exact if_pos h0

/-- At any other column tile it is this point's products over what the point before left. -/
theorem acc1_at_next (c : Dev nD) (t : Fin cfg1.N) (h0 : ¬t.val % 4 = 0) :
    sAt1 V c t.val t.isLt = k1_pay2 (xblk1 V c t) (dcol1 V c t) (ablk1 V c t)
      (sAt1 V c (t.val - 1) (Nat.lt_of_le_of_lt (Nat.sub_le _ _) t.isLt)) := by
  obtain ⟨n, hn⟩ := t
  cases n with
  | zero => exact absurd (Nat.zero_mod _) h0
  | succ n => exact if_neg h0

/-! ## The invariant, position by position -/

theorem PhiS1_zero (c : Dev nD) (n : ℕ) (h : n ≤ cfg1.N) (hz : n = 0) : PhiS1 V c n h = Pipeline.ΦA spec1 c := by
  subst hz; rfl

/-- After point `n`: the accumulator at what that point left. -/
theorem PhiS1_succ (c : Dev nD) (n : ℕ) (hn : n < cfg1.N) :
    PhiS1 V c (n + 1) hn = iprop(owns (c : Thread nD τ) (scM1) fullShare (sAt1 V c n hn)
      ∗ Pipeline.scopedRestBut (Ix := Unit) (Name := ℕ) (U := UR sig nD τ) (Lvl := ℕ) (Val := Elt F) spec1 c [cc1_scratch0]
      ∗ (∃ r, prngReg c r)) := rfl

/-- Before a point that is not the first: the accumulator at what the point before left. -/
theorem PhiS1_pos (c : Dev nD) (n : ℕ) (h : n ≤ cfg1.N) (hz : n ≠ 0) :
    PhiS1 V c n h = iprop(owns (c : Thread nD τ) (scM1) fullShare (sAt1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- The scoped buffers that are no staging buffer of this call, split at the accumulator. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- What the region is handed, with the accumulator as a memref owned at some contents. -/
theorem PhiA1_eq (c : Dev nD) :
    (Pipeline.ΦA (Val := Elt F) (U := UR sig nD τ) spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## What the body leaves and finds, window by window -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = oAt1 V c t := by dsimp only [dat1]

/-- Each input's current buffer holds its block at every point, fetched there or not: where it is not fetched its block
    index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d))
    ∗ (∃ d, owns (c : Thread nD τ) (win1_6.stage (cfg1.slots t 6)) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The body at any point: the inputs' buffers hold their blocks; the point's column tile says which case it is in; the
    invariant hands the body the accumulator at what the point before left (at anything before the first point) and takes it
    back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (win1_0.stage (cfg1.slots t 0)) fullShare ((dat1 V c).after 0 t) from rfl, after1_0]
  rw [show (dat1 V c).leavesExact 1 t = owns (c : Thread nD τ) (win1_1.stage (cfg1.slots t 1)) fullShare ((dat1 V c).after 1 t) from rfl, after1_1]
  rw [show (dat1 V c).leavesExact 2 t = owns (c : Thread nD τ) (win1_2.stage (cfg1.slots t 2)) fullShare ((dat1 V c).after 2 t) from rfl, after1_2]
  rw [show (dat1 V c).leavesExact 3 t = owns (c : Thread nD τ) (win1_3.stage (cfg1.slots t 3)) fullShare ((dat1 V c).after 3 t) from rfl, after1_3]
  rw [show (dat1 V c).leavesExact 4 t = owns (c : Thread nD τ) (win1_4.stage (cfg1.slots t 4)) fullShare ((dat1 V c).after 4 t) from rfl, after1_4]
  rw [show (dat1 V c).leavesExact 5 t = owns (c : Thread nD τ) (win1_5.stage (cfg1.slots t 5)) fullShare ((dat1 V c).after 5 t) from rfl, after1_5]
  have hN : t.val < 64 := lt_of_lt_of_eq t.isLt (show cfg1.N = 64 from N_1)
  by_cases h0 : t.val % 4 = 0
  · have h1 : ¬t.val % 4 = 3 := by omega
    rw [Dat.leavesExact_idle (dat1 V c) 6 t (idle1_6 t h1) (noFlush1_6 t h1)]
    rw [acc1_at_reset V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run1_A c Set.univ (grid1.coords t) _ _ _ _ _ _ _ _ _ _ _ _ _ _ _ _ ((condReset1_iff t).mpr h0) (fun h => h1 ((condFin1_iff t).mp h))
        (ablk1 V c t) (xblk1 V c t) (drow1 V c t) (dcol1 V c t) (wblk1 V c t) (bblk1 V c t) ((dat1 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
      iapply (run1_A c Set.univ (grid1.coords t) _ _ _ _ _ _ _ _ _ _ _ _ _ _ _ _ ((condReset1_iff t).mpr h0) (fun h => h1 ((condFin1_iff t).mp h))
        (ablk1 V c t) (xblk1 V c t) (drow1 V c t) (dcol1 V c t) (wblk1 V c t) (bblk1 V c t) ((dat1 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    rw [acc1_at_next V c t h0, PhiS1_castSucc V c t, PhiS1_pos V c _ _ hz]
    by_cases h1 : t.val % 4 = 3
    · rw [show (dat1 V c).leavesExact 6 t = owns (c : Thread nD τ) (win1_6.stage (cfg1.slots t 6)) fullShare ((dat1 V c).after 6 t) from by
        unfold Dat.leavesExact; rw [live1_6 t h1], after1_6]
      unfold oAt1
      rw [acc1_at_next V c t h0]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
      iapply (run1_C c Set.univ (grid1.coords t) _ _ _ _ _ _ _ _ _ _ _ _ _ _ _ _ (fun h => h0 ((condReset1_iff t).mp h)) ((condFin1_iff t).mpr h1)
        (ablk1 V c t) (xblk1 V c t) (drow1 V c t) (dcol1 V c t) (wblk1 V c t) (bblk1 V c t)
        (sAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 6 t (idle1_6 t h1) (noFlush1_6 t h1)]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
      iapply (run1_B c Set.univ (grid1.coords t) _ _ _ _ _ _ _ _ _ _ _ _ _ _ _ _ (fun h => h0 ((condReset1_iff t).mp h)) (fun h => h1 ((condFin1_iff t).mp h))
        (ablk1 V c t) (xblk1 V c t) (drow1 V c t) (dcol1 V c t) (wblk1 V c t) (bblk1 V c t) ((dat1 V c).before 6 t d6)
        (sAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : (Pipeline.ΦA (Val := Elt F) (U := UR sig nD τ) spec1 c : sProp 𝕄) ⊢ (dat1 V c).Φ 0 := by
  rw [show (dat1 V c).Φ 0 = PhiS1 V c 0 (Nat.zero_le _) from rfl, PhiS1_zero V c 0 _ rfl]

/-- After the last point the invariant gives back every scoped buffer that is no staging buffer at anything, and the
    generator register. -/
theorem hout1 (c : Dev nD) : (dat1 V c).Φ (Fin.last cfg1.N) ⊢ (Pipeline.ΦA (Val := Elt F) (U := UR sig nD τ) spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨HS, HR, Hg⟩
  isplitl [HS HR]
  · isplitl [HS]; · iexists _; iexact HS
    iexact HR
  iexact Hg

end Cert.Kernel.Hand

end
-- ==== Proof.BitsRegion2Defs.lean ====
/-
  Region 2 of the program (the second layer), at the buffer contents `V` the region is entered from: each window's block at a
  grid point, what the accumulator holds after each point, what the output block holds after a row tile's last
  point, and the proof data of the pipeline over them.

  A grid point `t` is column tile `t % 4` of row tile `t / 4`. The accumulator is reset at column tile 0, takes this
  point's partial products at every point, and after column tile 3 it holds the whole row tile's products; the output block is
  computed from it there, and only there.
-/
import proofs.«132783_j15479062135163_1_alg».proof.Proof.Gen.Kernel.Launch
import proofs.«132783_j15479062135163_1_alg».proof.Proof.Gen.Kernel.Skeleton
import proofs.«132783_j15479062135163_1_alg».proof.Proof.Gen.Kernel.Points
import Idealize.ShloMosaic.Lib.Pipeline.FrameBody
import Idealize.ShloMosaic.Lib.Pipeline.Frame
import Idealize.ShloMosaic.Lib.Pipeline.Kit

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency block of point `t`. -/
abbrev ablk2 (c : Dev nD) (t : Fin cfg2.N) : Vec F S512x2048 .f32 := iblk2 V c 0 t
/-- The feature block of point `t` (the rows of the column tile). -/
abbrev xblk2 (c : Dev nD) (t : Fin cfg2.N) : Vec F S2048x64 .f32 := iblk2 V c 1 t
/-- The scaling of the row tile's rows. -/
abbrev drow2 (c : Dev nD) (t : Fin cfg2.N) : Vec F S512x1 .f32 := iblk2 V c 2 t
/-- The scaling of the column tile's rows. -/
abbrev dcol2 (c : Dev nD) (t : Fin cfg2.N) : Vec F S2048x1 .f32 := iblk2 V c 3 t
/-- The weights. -/
abbrev wblk2 (c : Dev nD) (t : Fin cfg2.N) : Vec F S64x2 .f32 := iblk2 V c 4 t
/-- The bias row. -/
abbrev bblk2 (c : Dev nD) (t : Fin cfg2.N) : Vec F S1x2 .f32 := iblk2 V c 5 t

/-- The accumulator after point `n`: at column tile 0 this point's partial products over the zero block, otherwise over
    what the point before left. -/
def sAt2 (c : Dev nD) : (n : ℕ) → n < cfg2.N → Vec F S512x64 .f32
  | 0, hn => k2_pay2 (xblk2 V c ⟨0, hn⟩) (dcol2 V c ⟨0, hn⟩) (ablk2 V c ⟨0, hn⟩) (k2_pay1 (F := F))
  | n + 1, hn =>
    if (n + 1) % 4 = 0 then k2_pay2 (xblk2 V c ⟨n + 1, hn⟩) (dcol2 V c ⟨n + 1, hn⟩) (ablk2 V c ⟨n + 1, hn⟩) (k2_pay1 (F := F))
    else k2_pay2 (xblk2 V c ⟨n + 1, hn⟩) (dcol2 V c ⟨n + 1, hn⟩) (ablk2 V c ⟨n + 1, hn⟩) (sAt2 c n (Nat.lt_of_succ_lt hn))

/-- The output block computed at point `t` from the accumulator after `t` (stored, and written back, at column tile 3). -/
def oAt2 (c : Dev nD) (t : Fin cfg2.N) : Vec F S512x2 .f32 :=
  k2_pay3 (sAt2 V c t.val t.isLt) (drow2 V c t) (wblk2 V c t) (bblk2 V c t)

/-- The accumulator's memref: the call's scratch operand, whole. -/
abbrev scM2 : Memref sig .tc .vmem S512x64 .f32 := Memref.whole cc2_scratch0

/-- The region invariant before position `n`: before the first point every scoped buffer that is no staging buffer at
    anything and the generator register at some state; afterwards the accumulator at what the point before left, the other
    such buffers at anything, the generator register at some state. -/
def PhiS2 (c : Dev nD) : (n : ℕ) → n ≤ cfg2.N → sProp 𝕄
  | 0, _ => Pipeline.ΦA spec2 c
  | n + 1, hn => iprop(owns (c : Thread nD τ) (scM2) fullShare (sAt2 V c n hn)
      ∗ Pipeline.scopedRestBut (Ix := Unit) (Name := ℕ) (U := UR sig nD τ) (Lvl := ℕ) (Val := Elt F) spec2 c [cc2_scratch0]
      ∗ (∃ r, prngReg c r))

/-- The proof data of pipeline 2 on core `c`: the arrays as the region finds them; after the body at point `t` each
    input's buffer at its block and the output's at `oAt2`; the invariant `PhiS2`; nothing owed; the scaling array, read through two windows, held half by each, every other array whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => oAt2 V c t
  Φ t := PhiS2 V c t.val (Nat.le_of_lt_succ t.isLt)
  q w := match w with | ⟨2, _⟩ => fullShare.left | ⟨3, _⟩ => fullShare.right | _ => fullShare
  owed _ := 0

end Cert.Kernel.Hand

end
-- ==== Proof.BitsRegion2.lean ====
/-
  Region 2: the body of the kernel at every grid point against the proof data of Proof/Region2Defs.lean — the
  accumulator reset at column tile 0, this point's partial result added at every point, the output block stored at
  column tile 3 — and the invariant at the region's two ends.
-/
import proofs.«132783_j15479062135163_1_alg».proof.Proof.BitsRegion2Defs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data's arrays are the region-entry contents. -/
theorem A_eq2 (c : Dev nD) (w : Fin cfg2.W) : (dat2 V c).A w = V c (Pipeline.arrRef spec2 w) := by
  dsimp only [dat2]

/-! ## The two branch conditions, in closed form over the grid -/

/-- The reset condition: the column-tile coordinate is 0. -/
abbrev cond2_0 (i : grid2.Coords) : Prop := (Scalar.cmpi .ne (Scalar.extui (Scalar.cmpi .eq (BitVec.ofNat 32 (i 1).val) 0#32)) 0#32) = 1#1
/-- It holds exactly at the first column tile of a row tile. -/
theorem hcond2_0 : ∀ t : Fin cfg2.N, cond2_0 (grid2.coords t) ↔ t.val % 4 = 0 :=
  (by decide +kernel : ∀ t : Fin grid2.N, cond2_0 (grid2.coords t) ↔ t.val % 4 = 0)

/-- The finalize condition: the column-tile coordinate is 3. -/
abbrev cond2_1 (i : grid2.Coords) : Prop := k2_cond2 i = 1#1
/-- It holds exactly at the last column tile of a row tile. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the output window is idle, live, written back -/

/-- Off the last column tile the output window is idle, -/
theorem idleAt2_6 : ∀ t : Fin cfg2.N, ¬ t.val % 4 = 3 → cfg2.idle 6 (grid2.coords t) = true :=
  (by decide +kernel : ∀ t : Fin grid2.N, ¬ t.val % 4 = 3 → idle2 6 (grid2.coords t) = true)
/-- and its block is not written back; -/
theorem noFlush2_6 : ∀ t : Fin cfg2.N, ¬ t.val % 4 = 3 → (cfg2.win 6).flush t = false :=
  (by decide +kernel : ∀ t : Fin grid2.N, ¬ t.val % 4 = 3 → win2_6.flush t = false)
/-- at the last column tile it is live. -/
theorem liveAt2_6 : ∀ t : Fin cfg2.N, t.val % 4 = 3 → cfg2.idle 6 (grid2.coords t) = false :=
  (by decide +kernel : ∀ t : Fin grid2.N, t.val % 4 = 3 → idle2 6 (grid2.coords t) = false)

/-! ## What the body leaves, and what it finds, window by window -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = oAt2 V c t := by dsimp only [dat2]

/-- Each input's current staging buffer holds its block at every point, fetched there or not: an input that is
    not fetched at a point has the block index of the point before, and the body leaves every input's block in place. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)

/-! ## The body's triple, case by case

Every load and every store of the body is of a whole buffer. On whole staging memrefs, each at the contents named, the
body runs to its continuation with the accumulator at the partial products added to what it held (the zero block when
it was reset first), and — at the last column tile — the output block computed from that accumulator. -/

theorem zeroOffsets2 : (![0, 0] : Fin 2 → Nat) = fun _ => 0 := funext fun a => by fin_cases a <;> rfl

set_option maxHeartbeats 1000000 in
/-- First column tile: the accumulator, at anything, is reset to the zero block and takes the point's partial products. -/
theorem run2_A (c : Dev nD) (E : Set ℕ) (i : grid2.Coords) (arg2 : Memref sig .tc .vmem S512x2048 .f32) (harg2 : arg2.IsWhole) (arg3 : Memref sig .tc .vmem S2048x64 .f32) (harg3 : arg3.IsWhole) (arg4 : Memref sig .tc .vmem S512x1 .f32) (harg4 : arg4.IsWhole) (arg5 : Memref sig .tc .vmem S2048x1 .f32) (harg5 : arg5.IsWhole) (arg6 : Memref sig .tc .vmem S64x2 .f32) (harg6 : arg6.IsWhole) (arg7 : Memref sig .tc .vmem S1x2 .f32) (harg7 : arg7.IsWhole) (arg8 : Memref sig .tc .vmem S512x2 .f32) (harg8 : arg8.IsWhole) (arg9 : Memref sig .tc .vmem S512x64 .f32) (harg9 : arg9.IsWhole) (hc0 : cond2_0 i) (hc1 : ¬cond2_1 i)
    (x0 : Vec F S512x2048 .f32) (x1 : Vec F S2048x64 .f32) (x3 : Vec F S2048x1 .f32) (K : PUnit → sProp 𝕄) :
    iprop(owns (c : Thread nD τ) arg2 fullShare x0 ∗ owns (c : Thread nD τ) arg3 fullShare x1 ∗ owns (c : Thread nD τ) arg5 fullShare x3 ∗ (∃ d, owns (c : Thread nD τ) arg9 fullShare d)
        ∗ (iprop(owns (c : Thread nD τ) arg2 fullShare x0 ∗ owns (c : Thread nD τ) arg3 fullShare x1 ∗ owns (c : Thread nD τ) arg5 fullShare x3 ∗ owns (c : Thread nD τ) arg9 fullShare (k2_pay2 x1 x3 x0 (k2_pay1 (F := F)))) -∗ K ⟨⟩))
      ⊢ wp frame (wpE (defs₀ (F := F)) Variants.none c none) E (cc2_kernel i arg2 harg2 arg3 harg3 arg4 harg4 arg5 harg5 arg6 harg6 arg7 harg7 arg8 harg8 arg9 harg9) K := by
  simp only [cc2_kernel_eq_skeleton]; unfold cc2_kernel_skel
  unfold owns
  iintro ⟨⟨%f0, %hf0, H0⟩, ⟨%f1, %hf1, H1⟩, ⟨%f3, %hf3, H3⟩, ⟨%ds, %fs, -, HS⟩, Hk⟩
  obtain rfl := harg2.eq_unread hf0; obtain rfl := harg3.eq_unread hf1; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H3]
  · iexists _; isplitr; · ipureintro; exact harg5.read_unread _
    iexact H3
  iexists _; isplitr
  swap; · iexact HS
  ipureintro
  sl_unfold_words
  rw [View.read_writes_eq_canon _ _ _ (fun y => ⟨_, List.mem_cons_self, View.mem_set_unit_zero zeroOffsets2 inb_S512x64_S512x64_0_0 y⟩)]
  rw [View.canon_cons_unit_zero (S := S512x64) zeroOffsets2]
  sl_unfold_words
  rw [View.readCov_unit_zero (S := S512x64) _ zeroOffsets2]
  simp only [View.readAt_eq_ld, harg2.read_unread, harg3.read_unread, harg5.read_unread,
    View.ld_unit_zero (S := S512x2048) zeroOffsets2, View.ld_unit_zero (S := S2048x64) zeroOffsets2, View.ld_unit_zero (S := S2048x1) zeroOffsets2]

set_option maxHeartbeats 1000000 in
/-- A middle column tile: the accumulator takes the point's partial products over what it held. -/
theorem run2_B (c : Dev nD) (E : Set ℕ) (i : grid2.Coords) (arg2 : Memref sig .tc .vmem S512x2048 .f32) (harg2 : arg2.IsWhole) (arg3 : Memref sig .tc .vmem S2048x64 .f32) (harg3 : arg3.IsWhole) (arg4 : Memref sig .tc .vmem S512x1 .f32) (harg4 : arg4.IsWhole) (arg5 : Memref sig .tc .vmem S2048x1 .f32) (harg5 : arg5.IsWhole) (arg6 : Memref sig .tc .vmem S64x2 .f32) (harg6 : arg6.IsWhole) (arg7 : Memref sig .tc .vmem S1x2 .f32) (harg7 : arg7.IsWhole) (arg8 : Memref sig .tc .vmem S512x2 .f32) (harg8 : arg8.IsWhole) (arg9 : Memref sig .tc .vmem S512x64 .f32) (harg9 : arg9.IsWhole) (hc0 : ¬cond2_0 i) (hc1 : ¬cond2_1 i)
    (x0 : Vec F S512x2048 .f32) (x1 : Vec F S2048x64 .f32) (x3 : Vec F S2048x1 .f32) (xs : Vec F S512x64 .f32) (K : PUnit → sProp 𝕄) :
    iprop(owns (c : Thread nD τ) arg2 fullShare x0 ∗ owns (c : Thread nD τ) arg3 fullShare x1 ∗ owns (c : Thread nD τ) arg5 fullShare x3 ∗ owns (c : Thread nD τ) arg9 fullShare xs
        ∗ (iprop(owns (c : Thread nD τ) arg2 fullShare x0 ∗ owns (c : Thread nD τ) arg3 fullShare x1 ∗ owns (c : Thread nD τ) arg5 fullShare x3 ∗ owns (c : Thread nD τ) arg9 fullShare (k2_pay2 x1 x3 x0 xs)) -∗ K ⟨⟩))
      ⊢ wp frame (wpE (defs₀ (F := F)) Variants.none c none) E (cc2_kernel i arg2 harg2 arg3 harg3 arg4 harg4 arg5 harg5 arg6 harg6 arg7 harg7 arg8 harg8 arg9 harg9) K := by
  simp only [cc2_kernel_eq_skeleton]; unfold cc2_kernel_skel
  unfold owns
  iintro ⟨⟨%f0, %hf0, H0⟩, ⟨%f1, %hf1, H1⟩, ⟨%f3, %hf3, H3⟩, ⟨%fs, %hfs, HS⟩, Hk⟩
  obtain rfl := harg2.eq_unread hf0; obtain rfl := harg3.eq_unread hf1; obtain rfl := harg5.eq_unread hf3; obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H3]
  · iexists _; isplitr; · ipureintro; exact harg5.read_unread _
    iexact H3
  iexists _; isplitr
  swap; · iexact HS
  ipureintro
  sl_unfold_words
  rw [View.read_writes_eq_canon _ _ _ (fun y => ⟨_, List.mem_singleton_self _, View.mem_set_unit_zero zeroOffsets2 inb_S512x64_S512x64_0_0 y⟩)]
  rw [View.canon_unit_zero (S := S512x64) zeroOffsets2]
  simp only [View.readAt_eq_ld, harg2.read_unread, harg3.read_unread, harg5.read_unread, harg9.read_unread,
    View.ld_unit_zero (S := S512x2048) zeroOffsets2, View.ld_unit_zero (S := S2048x64) zeroOffsets2, View.ld_unit_zero (S := S2048x1) zeroOffsets2, View.ld_unit_zero (S := S512x64) zeroOffsets2]

set_option maxHeartbeats 2000000 in
/-- Last column tile: the accumulator takes the point's partial products, and the output block, at anything before, is
    computed from it, the row scaling, the weights and the bias row. -/
theorem run2_C (c : Dev nD) (E : Set ℕ) (i : grid2.Coords) (arg2 : Memref sig .tc .vmem S512x2048 .f32) (harg2 : arg2.IsWhole) (arg3 : Memref sig .tc .vmem S2048x64 .f32) (harg3 : arg3.IsWhole) (arg4 : Memref sig .tc .vmem S512x1 .f32) (harg4 : arg4.IsWhole) (arg5 : Memref sig .tc .vmem S2048x1 .f32) (harg5 : arg5.IsWhole) (arg6 : Memref sig .tc .vmem S64x2 .f32) (harg6 : arg6.IsWhole) (arg7 : Memref sig .tc .vmem S1x2 .f32) (harg7 : arg7.IsWhole) (arg8 : Memref sig .tc .vmem S512x2 .f32) (harg8 : arg8.IsWhole) (arg9 : Memref sig .tc .vmem S512x64 .f32) (harg9 : arg9.IsWhole) (hc0 : ¬cond2_0 i) (hc1 : cond2_1 i)
    (x0 : Vec F S512x2048 .f32) (x1 : Vec F S2048x64 .f32) (x2 : Vec F S512x1 .f32) (x3 : Vec F S2048x1 .f32) (x4 : Vec F S64x2 .f32) (x5 : Vec F S1x2 .f32)
    (xs : Vec F S512x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k2_pay3 (k2_pay2 x1 x3 x0 xs) x2 x4 x5) ∗ owns (c : Thread nD τ) arg9 fullShare (k2_pay2 x1 x3 x0 xs)) -∗ K ⟨⟩))
      ⊢ wp frame (wpE (defs₀ (F := F)) Variants.none c none) E (cc2_kernel i arg2 harg2 arg3 harg3 arg4 harg4 arg5 harg5 arg6 harg6 arg7 harg7 arg8 harg8 arg9 harg9) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_words
    rw [View.read_writes_eq_canon _ _ _ (fun y => ⟨_, List.mem_singleton_self _, View.mem_set_unit_zero zeroOffsets2 inb_S512x2_S512x2_0_0 y⟩)]
    rw [View.canon_unit_zero (S := S512x2) zeroOffsets2]
    sl_unfold_words
    rw [View.readCov_unit_zero (S := S512x64) _ zeroOffsets2]
    simp only [View.readAt_eq_ld, harg2.read_unread, harg3.read_unread, harg4.read_unread, harg5.read_unread, harg6.read_unread, harg7.read_unread, harg9.read_unread,
      View.ld_unit_zero (S := S512x2048) zeroOffsets2, View.ld_unit_zero (S := S2048x64) zeroOffsets2, View.ld_unit_zero (S := S512x1) zeroOffsets2, View.ld_unit_zero (S := S2048x1) zeroOffsets2, View.ld_unit_zero (S := S64x2) zeroOffsets2, View.ld_unit_zero (S := S1x2) zeroOffsets2, View.ld_unit_zero (S := S512x64) zeroOffsets2]
  iexists _; isplitr
  swap; · iexact HS
  ipureintro
  sl_unfold_words
  rw [View.read_writes_eq_canon _ _ _ (fun y => ⟨_, List.mem_singleton_self _, View.mem_set_unit_zero zeroOffsets2 inb_S512x64_S512x64_0_0 y⟩)]
  rw [View.canon_unit_zero (S := S512x64) zeroOffsets2]
  simp only [View.readAt_eq_ld, harg2.read_unread, harg3.read_unread, harg5.read_unread, harg9.read_unread,
    View.ld_unit_zero (S := S512x2048) zeroOffsets2, View.ld_unit_zero (S := S2048x64) zeroOffsets2, View.ld_unit_zero (S := S2048x1) zeroOffsets2, View.ld_unit_zero (S := S512x64) zeroOffsets2]

/-! ## The accumulator point by point -/

/-- At a first column tile the accumulator holds the point's partial products over the zero block. -/
theorem sAt2_reset (c : Dev nD) (t : Fin cfg2.N) (h0 : t.val % 4 = 0) :
    sAt2 V c t.val t.isLt = k2_pay2 (xblk2 V c t) (dcol2 V c t) (ablk2 V c t) (k2_pay1 (F := F)) := by
  obtain ⟨n, hn⟩ := t
  cases n with
  | zero => exact rfl
  | succ n => exact (if_pos h0).trans rfl

/-- At any other column tile it holds them over what the point before left. -/
theorem sAt2_acc (c : Dev nD) (t : Fin cfg2.N) (h0 : ¬ t.val % 4 = 0) :
    sAt2 V c t.val t.isLt = k2_pay2 (xblk2 V c t) (dcol2 V c t) (ablk2 V c t)
      (sAt2 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The invariant position by position -/

theorem PhiS2_zero (c : Dev nD) (n : ℕ) (h : n ≤ cfg2.N) (hz : n = 0) : PhiS2 V c n h = Pipeline.ΦA spec2 c := by
  subst hz; rfl

/-- After point `n`: the accumulator at that point's contents. -/
theorem PhiS2_succ (c : Dev nD) (n : ℕ) (hn : n < cfg2.N) :
    PhiS2 V c (n + 1) hn = iprop(owns (c : Thread nD τ) (scM2) fullShare (sAt2 V c n hn)
      ∗ Pipeline.scopedRestBut (Ix := Unit) (Name := ℕ) (U := UR sig nD τ) (Lvl := ℕ) (Val := Elt F) spec2 c [cc2_scratch0]
      ∗ (∃ r, prngReg c r)) := rfl

/-- Before a point that is not the first: the accumulator at what the point before left. -/
theorem PhiS2_pos (c : Dev nD) (n : ℕ) (h : n ≤ cfg2.N) (hz : n ≠ 0) :
    PhiS2 V c n h = iprop(owns (c : Thread nD τ) (scM2) fullShare (sAt2 V c (n - 1) (by omega))
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

/-- What the region is handed, with the accumulator taken out of the scoped buffers: owned whole at some contents. -/
theorem PhiA2_eq (c : Dev nD) :
    (Pipeline.ΦA (Val := Elt F) (U := UR sig nD τ) spec2 c : sProp 𝕄)
      = iprop((∃ d, owns (c : Thread nD τ) (scM2) fullShare d)
        ∗ Pipeline.scopedRestBut (Ix := Unit) (Name := ℕ) (U := UR sig nD τ) (Lvl := ℕ) (Val := Elt F) spec2 c [cc2_scratch0]
        ∗ (∃ r, prngReg c r)) := by
  unfold Pipeline.ΦA
  rw [Pipeline.scopedRest_split_of_list spec2 c [cc2_scratch0] (by decide) (by decide)]
  simp only [bigSepL_singleton, scM2, owns_whole]
  exact BI.equiv_iff.mp ⟨Idealize.SL.BI.sep_assoc, Idealize.SL.BI.sep_assoc'⟩

/-- The invariant at a point's start, restated at the point's number. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## The body at a grid point -/

/-- Each window's current staging memref at point `t`, and its wholeness. -/
abbrev ms2_0 (t : Fin cfg2.N) : Memref sig .tc .vmem S512x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x2 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x2 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x2 .f32 := win2_6.stage (cfg2.slots t 6)
abbrev hs2_6 (t : Fin cfg2.N) : (ms2_6 t).IsWhole := hstage2_6 ((cfg2.slots t 6).cast nbuf2_6)

/-- What the body is called with at point `t`: the invariant, what the core owes, every window's current buffer at what it then holds, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

/-- What an input window's buffer is left at: its block (the window is never idle). -/
theorem leaves2_0 (c : Dev nD) (t : Fin cfg2.N) :
    (dat2 V c).leavesExact 0 t = owns (c : Thread nD τ) (ms2_0 t) fullShare (iblk2 V c 0 t) := by
  rw [show (dat2 V c).leavesExact 0 t = owns (c : Thread nD τ) (ms2_0 t) fullShare ((dat2 V c).after 0 t) from rfl, after2_0]
theorem leaves2_1 (c : Dev nD) (t : Fin cfg2.N) :
    (dat2 V c).leavesExact 1 t = owns (c : Thread nD τ) (ms2_1 t) fullShare (iblk2 V c 1 t) := by
  rw [show (dat2 V c).leavesExact 1 t = owns (c : Thread nD τ) (ms2_1 t) fullShare ((dat2 V c).after 1 t) from rfl, after2_1]
theorem leaves2_2 (c : Dev nD) (t : Fin cfg2.N) :
    (dat2 V c).leavesExact 2 t = owns (c : Thread nD τ) (ms2_2 t) fullShare (iblk2 V c 2 t) := by
  rw [show (dat2 V c).leavesExact 2 t = owns (c : Thread nD τ) (ms2_2 t) fullShare ((dat2 V c).after 2 t) from rfl, after2_2]
theorem leaves2_3 (c : Dev nD) (t : Fin cfg2.N) :
    (dat2 V c).leavesExact 3 t = owns (c : Thread nD τ) (ms2_3 t) fullShare (iblk2 V c 3 t) := by
  rw [show (dat2 V c).leavesExact 3 t = owns (c : Thread nD τ) (ms2_3 t) fullShare ((dat2 V c).after 3 t) from rfl, after2_3]
theorem leaves2_4 (c : Dev nD) (t : Fin cfg2.N) :
    (dat2 V c).leavesExact 4 t = owns (c : Thread nD τ) (ms2_4 t) fullShare (iblk2 V c 4 t) := by
  rw [show (dat2 V c).leavesExact 4 t = owns (c : Thread nD τ) (ms2_4 t) fullShare ((dat2 V c).after 4 t) from rfl, after2_4]
theorem leaves2_5 (c : Dev nD) (t : Fin cfg2.N) :
    (dat2 V c).leavesExact 5 t = owns (c : Thread nD τ) (ms2_5 t) fullShare (iblk2 V c 5 t) := by
  rw [show (dat2 V c).leavesExact 5 t = owns (c : Thread nD τ) (ms2_5 t) fullShare ((dat2 V c).after 5 t) from rfl, after2_5]
/-- At a last column tile the output window's buffer is left at the output block. -/
theorem leaves2_6_live (c : Dev nD) (t : Fin cfg2.N) (h1 : t.val % 4 = 3) :
    (dat2 V c).leavesExact 6 t = owns (c : Thread nD τ) (ms2_6 t) fullShare (oAt2 V c t) := by
  rw [show (dat2 V c).leavesExact 6 t = owns (c : Thread nD τ) (ms2_6 t) fullShare ((dat2 V c).after 6 t) from by
    unfold Dat.leavesExact; rw [liveAt2_6 t h1], after2_6]

set_option maxHeartbeats 4800000 in
/-- The body at any point. The inputs' buffers hold their blocks; the point's column tile says which case it is in.
    The invariant hands the body the accumulator at what the point before left (at anything before the first point)
    and takes it back at this point's contents; the other scoped buffers, the generator register and what the core
    owes pass through unread; off the last column tile the output's buffer is handed back untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5]
  have hN : t.val < 64 := lt_of_lt_of_eq t.isLt (show cfg2.N = 64 from N_2)
  by_cases h0 : t.val % 4 = 0
  · have h1 : ¬ t.val % 4 = 3 := by omega
    rw [Dat.leavesExact_idle (dat2 V c) 6 t (idleAt2_6 t h1) (noFlush2_6 t h1)]
    rw [sAt2_reset V c t h0]
    by_cases hz : t.val = 0
    · rw [PhiS2_castSucc V c t, PhiS2_zero V c _ _ hz, PhiA2_eq]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
      iapply (run2_A c Set.univ (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => h1 ((hcond2_1 t).mp h)) (ablk2 V c t) (xblk2 V c t) (dcol2 V c t) _)
      isplitl [H0]; · iexact H0
      isplitl [H1]; · iexact H1
      isplitl [H3]; · iexact H3
      isplitl [HS]; · iexact HS
      iintro ⟨H0, H1, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS2_castSucc V c t, PhiS2_pos V c _ _ hz]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
      iapply (run2_A c Set.univ (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => h1 ((hcond2_1 t).mp h)) (ablk2 V c t) (xblk2 V c t) (dcol2 V c t) _)
      isplitl [H0]; · iexact H0
      isplitl [H1]; · iexact H1
      isplitl [H3]; · iexact H3
      isplitl [HS]; · iexists _; iexact HS
      iintro ⟨H0, H1, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    rw [sAt2_acc V c t h0]
    rw [PhiS2_castSucc V c t, PhiS2_pos V c _ _ hz]
    by_cases h1 : t.val % 4 = 3
    · rw [leaves2_6_live V c t h1]
      unfold oAt2
      rw [sAt2_acc V c t h0]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
      iapply (run2_C c Set.univ (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (ablk2 V c t) (xblk2 V c t) (drow2 V c t) (dcol2 V c t) (wblk2 V c t) (bblk2 V c t) (sAt2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat2 V c) 6 t (idleAt2_6 t h1) (noFlush2_6 t h1)]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
      iapply (run2_B c Set.univ (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) (fun h => h1 ((hcond2_1 t).mp h)) (ablk2 V c t) (xblk2 V c t) (dcol2 V c t) (sAt2 V c (t.val - 1) (Nat.lt_of_le_of_lt (Nat.sub_le _ _) t.isLt)) _)
      isplitl [H0]; · iexact H0
      isplitl [H1]; · iexact H1
      isplitl [H3]; · iexact H3
      isplitl [HS]; · iexact HS
      iintro ⟨H0, H1, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of pipeline 2, at every point. -/
theorem body_obligation2 (c : Dev nD) : BodyObligation (dat2 (F := F) V c) (defs₀ (F := F)) Variants.none () Set.univ := by
  intro t
  rw [bigSep_W2, bigSep_W2]
  exact sound_body2 V c t

/-- What the region is handed is the invariant before the first point. -/
theorem hin2 (c : Dev nD) : (Pipeline.ΦA (Val := Elt F) (U := UR sig nD τ) spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives back every scoped buffer that is no staging buffer at anything, and the
    generator register. -/
theorem hout2 (c : Dev nD) : (dat2 V c).Φ (Fin.last cfg2.N) ⊢ (Pipeline.ΦA (Val := Elt F) (U := UR sig nD τ) spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨HS, Hr, Hg⟩
  isplitl [HS]; · iexists _; iexact HS
  isplitl [Hr]; · iexact Hr
  iexact Hg

end Cert.Kernel.Hand

end
-- ==== Proof.BitsSharedArr.lean ====
/-
  Regions 1 and 2 read the scaling array through TWO windows (the row tile's rows and the column tile's rows). The
  pipeline holds each window's array at that window's share, so the one buffer behind the two windows is held as two
  halves of the full share: split at the region's entry, joined again at its exit, where both halves still hold the
  entry contents (an input window's array is never written).
-/
import proofs.«132783_j15479062135163_1_alg».proof.Proof.BitsRegion1Defs
import proofs.«132783_j15479062135163_1_alg».proof.Proof.BitsRegion2Defs
import Idealize.ShloMosaic.Lib.Pipeline.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind region 1's windows, each listed once: the scaling array stands behind two windows. -/
theorem arrImage1 : Finset.univ.image (Pipeline.arrRef spec1)
    = [main_arg1, main_arg0, main_v0, main_arg2, main_v1, main_v3].toFinset := by decide

/-- They are arrays of @main, none of them scoped. -/
theorem arrSub1 : Finset.univ.image (Pipeline.arrRef spec1) ⊆ Finset.univ.filter fun b : Ref sig .tc => ¬ b.isScoped := by decide

/-- The core's unscoped buffers at a valuation `W`: the six buffers behind region 1's windows, each whole at the full
    share, and the buffers no window reads. -/
theorem unscopedBufs_split1 (c : Dev nD) (W : (b : Ref sig .tc) → Buf (Elt F) ((c : Thread nD τ).loc b)) :
    (unscopedBufs c W : sProp 𝕄)
      = iprop(((((c : Thread nD τ).loc main_arg1) ↦{fullShare} W main_arg1) ∗ (((c : Thread nD τ).loc main_arg0) ↦{fullShare} W main_arg0)
          ∗ (((c : Thread nD τ).loc main_v0) ↦{fullShare} W main_v0) ∗ (((c : Thread nD τ).loc main_arg2) ↦{fullShare} W main_arg2)
          ∗ (((c : Thread nD τ).loc main_v1) ↦{fullShare} W main_v1) ∗ (((c : Thread nD τ).loc main_v3) ↦{fullShare} W main_v3))
        ∗ Pipeline.unscopedRest (Ix := Unit) (Name := ℕ) (U := UR sig nD τ) (Lvl := ℕ) spec1 c W) := by
  unfold unscopedBufs Pipeline.unscopedRest
  rw [bigSep_sdiff_split arrSub1, bigSep_eq_bigSepL_of_eq _ arrImage1 (by decide)]
  rfl

/-- Region 1's arrays at contents `G`, window by window: each a whole buffer, the scaling array's two windows at the two
    halves of the full share, every other at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg1) ↦{fullShare} G 0) ∗ (((c : Thread nD τ).loc main_arg0) ↦{fullShare} G 1)
          ∗ (((c : Thread nD τ).loc main_v0) ↦{fullShare.left} G 2) ∗ (((c : Thread nD τ).loc main_v0) ↦{fullShare.right} G 3)
          ∗ (((c : Thread nD τ).loc main_arg2) ↦{fullShare} G 4) ∗ (((c : Thread nD τ).loc main_v1) ↦{fullShare} G 5)
          ∗ (((c : Thread nD τ).loc main_v3) ↦{fullShare} G 6)) := by
  unfold Dat.arrays
  rw [bigSep_W1]
  rw [(arr_whole1 0).set_eq_univ, (arr_whole1 1).set_eq_univ, (arr_whole1 2).set_eq_univ,
    (arr_whole1 4).set_eq_univ, (arr_whole1 5).set_eq_univ, (arr_whole1 6).set_eq_univ]
  rfl

/-- ENTRY of region 1: the core's unscoped buffers at `V` are the windows' arrays at the proof data's entry contents —
    the scaling array, which two windows read, split into its two halves — and the buffers no window reads. -/
theorem arrays_of_unscopedBufs1 (c : Dev nD) :
    (unscopedBufs c (V c) : sProp 𝕄) ⊢ iprop((dat1 V c).arrays ((dat1 V c).arrAt · 0)
      ∗ Pipeline.unscopedRest (Ix := Unit) (Name := ℕ) (U := UR sig nD τ) (Lvl := ℕ) spec1 c (V c)) := by
  rw [unscopedBufs_split1, arrays1_eq]
  refine sep_mono ?_ .rfl
  -- each window's entry contents are the valuation's at the buffer behind it; the scaling array's full share is its two halves
  show iprop((((c : Thread nD τ).loc main_arg1) ↦{fullShare} V c main_arg1) ∗ (((c : Thread nD τ).loc main_arg0) ↦{fullShare} V c main_arg0)
          ∗ (((c : Thread nD τ).loc main_v0) ↦{fullShare} V c main_v0) ∗ (((c : Thread nD τ).loc main_arg2) ↦{fullShare} V c main_arg2)
          ∗ (((c : Thread nD τ).loc main_v1) ↦{fullShare} V c main_v1) ∗ (((c : Thread nD τ).loc main_v3) ↦{fullShare} V c main_v3))
    ⊢ (iprop((((c : Thread nD τ).loc main_arg1) ↦{fullShare} V c main_arg1) ∗ (((c : Thread nD τ).loc main_arg0) ↦{fullShare} V c main_arg0)
          ∗ (((c : Thread nD τ).loc main_v0) ↦{fullShare.left} V c main_v0) ∗ (((c : Thread nD τ).loc main_v0) ↦{fullShare.right} V c main_v0)
          ∗ (((c : Thread nD τ).loc main_arg2) ↦{fullShare} V c main_arg2) ∗ (((c : Thread nD τ).loc main_v1) ↦{fullShare} V c main_v1)
          ∗ (((c : Thread nD τ).loc main_v3) ↦{fullShare} V c main_v3)) : sProp 𝕄)
  exact sep_mono .rfl (sep_mono .rfl
    ((sep_mono (pointsTo_share (PosShare.mem_left_op_right fullShare)).1 .rfl).trans sep_assoc.1))

/-- EXIT of region 1: the windows' arrays at what the region leaves in them (the inputs as entered: the two halves of the
    scaling array hold the same contents and join) and the buffers no window reads are the core's unscoped buffers at
    any valuation `V'` that agrees with those. -/
theorem unscopedBufs_of_arrays1 (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N)
      ∗ Pipeline.unscopedRest (Ix := Unit) (Name := ℕ) (U := UR sig nD τ) (Lvl := ℕ) spec1 c (V c)) ⊢ (unscopedBufs c V' : sProp 𝕄) := by
  -- the arrays' contents at the exit are `V'` at the buffers behind them
  rw [show ((dat1 V c).arrAt · cfg1.N) = fun w => V' (Pipeline.arrRef spec1 w) from funext hF]
  -- the buffers no window reads hold under `V'` what they hold under `V`
  rw [show (Pipeline.unscopedRest (Ix := Unit) (Name := ℕ) (U := UR sig nD τ) (Lvl := ℕ) spec1 c (V c) : sProp 𝕄)
      = Pipeline.unscopedRest (Ix := Unit) (Name := ℕ) (U := UR sig nD τ) (Lvl := ℕ) spec1 c V' from by
    unfold Pipeline.unscopedRest
    exact bigSep_congr fun b hb => by rw [hrest b (Finset.mem_sdiff.mp hb).2]]
  rw [unscopedBufs_split1, arrays1_eq]
  refine sep_mono ?_ .rfl
  -- the two halves of the scaling array hold the same contents: they join into the full share
  show (iprop((((c : Thread nD τ).loc main_arg1) ↦{fullShare} V' main_arg1) ∗ (((c : Thread nD τ).loc main_arg0) ↦{fullShare} V' main_arg0)
          ∗ (((c : Thread nD τ).loc main_v0) ↦{fullShare.left} V' main_v0) ∗ (((c : Thread nD τ).loc main_v0) ↦{fullShare.right} V' main_v0)
          ∗ (((c : Thread nD τ).loc main_arg2) ↦{fullShare} V' main_arg2) ∗ (((c : Thread nD τ).loc main_v1) ↦{fullShare} V' main_v1)
          ∗ (((c : Thread nD τ).loc main_v3) ↦{fullShare} V' main_v3)) : sProp 𝕄)
    ⊢ iprop((((c : Thread nD τ).loc main_arg1) ↦{fullShare} V' main_arg1) ∗ (((c : Thread nD τ).loc main_arg0) ↦{fullShare} V' main_arg0)
          ∗ (((c : Thread nD τ).loc main_v0) ↦{fullShare} V' main_v0) ∗ (((c : Thread nD τ).loc main_arg2) ↦{fullShare} V' main_arg2)
          ∗ (((c : Thread nD τ).loc main_v1) ↦{fullShare} V' main_v1) ∗ (((c : Thread nD τ).loc main_v3) ↦{fullShare} V' main_v3))
  exact sep_mono .rfl (sep_mono .rfl
    (sep_assoc.2.trans (sep_mono (pointsTo_share (PosShare.mem_left_op_right fullShare)).2 .rfl)))

/-- The buffers behind region 2's windows, each listed once: the scaling array stands behind two windows. -/
theorem arrImage2 : Finset.univ.image (Pipeline.arrRef spec2)
    = [main_arg1, main_v3, main_v0, main_arg4, main_v2, main_v4].toFinset := by decide

/-- They are arrays of @main, none of them scoped. -/
theorem arrSub2 : Finset.univ.image (Pipeline.arrRef spec2) ⊆ Finset.univ.filter fun b : Ref sig .tc => ¬ b.isScoped := by decide

/-- The core's unscoped buffers at a valuation `W`: the six buffers behind region 2's windows, each whole at the full
    share, and the buffers no window reads. -/
theorem unscopedBufs_split2 (c : Dev nD) (W : (b : Ref sig .tc) → Buf (Elt F) ((c : Thread nD τ).loc b)) :
    (unscopedBufs c W : sProp 𝕄)
      = iprop(((((c : Thread nD τ).loc main_arg1) ↦{fullShare} W main_arg1) ∗ (((c : Thread nD τ).loc main_v3) ↦{fullShare} W main_v3)
          ∗ (((c : Thread nD τ).loc main_v0) ↦{fullShare} W main_v0) ∗ (((c : Thread nD τ).loc main_arg4) ↦{fullShare} W main_arg4)
          ∗ (((c : Thread nD τ).loc main_v2) ↦{fullShare} W main_v2) ∗ (((c : Thread nD τ).loc main_v4) ↦{fullShare} W main_v4))
        ∗ Pipeline.unscopedRest (Ix := Unit) (Name := ℕ) (U := UR sig nD τ) (Lvl := ℕ) spec2 c W) := by
  unfold unscopedBufs Pipeline.unscopedRest
  rw [bigSep_sdiff_split arrSub2, bigSep_eq_bigSepL_of_eq _ arrImage2 (by decide)]
  rfl

/-- Region 2's arrays at contents `G`, window by window: each a whole buffer, the scaling array's two windows at the two
    halves of the full share, every other at the full share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_arg1) ↦{fullShare} G 0) ∗ (((c : Thread nD τ).loc main_v3) ↦{fullShare} G 1)
          ∗ (((c : Thread nD τ).loc main_v0) ↦{fullShare.left} G 2) ∗ (((c : Thread nD τ).loc main_v0) ↦{fullShare.right} G 3)
          ∗ (((c : Thread nD τ).loc main_arg4) ↦{fullShare} G 4) ∗ (((c : Thread nD τ).loc main_v2) ↦{fullShare} G 5)
          ∗ (((c : Thread nD τ).loc main_v4) ↦{fullShare} G 6)) := by
  unfold Dat.arrays
  rw [bigSep_W2]
  rw [(arr_whole2 0).set_eq_univ, (arr_whole2 1).set_eq_univ, (arr_whole2 2).set_eq_univ,
    (arr_whole2 4).set_eq_univ, (arr_whole2 5).set_eq_univ, (arr_whole2 6).set_eq_univ]
  rfl

/-- ENTRY of region 2: the core's unscoped buffers at `V` are the windows' arrays at the proof data's entry contents —
    the scaling array, which two windows read, split into its two halves — and the buffers no window reads. -/
theorem arrays_of_unscopedBufs2 (c : Dev nD) :
    (unscopedBufs c (V c) : sProp 𝕄) ⊢ iprop((dat2 V c).arrays ((dat2 V c).arrAt · 0)
      ∗ Pipeline.unscopedRest (Ix := Unit) (Name := ℕ) (U := UR sig nD τ) (Lvl := ℕ) spec2 c (V c)) := by
  rw [unscopedBufs_split2, arrays2_eq]
  refine sep_mono ?_ .rfl
  -- each window's entry contents are the valuation's at the buffer behind it; the scaling array's full share is its two halves
  show iprop((((c : Thread nD τ).loc main_arg1) ↦{fullShare} V c main_arg1) ∗ (((c : Thread nD τ).loc main_v3) ↦{fullShare} V c main_v3)
          ∗ (((c : Thread nD τ).loc main_v0) ↦{fullShare} V c main_v0) ∗ (((c : Thread nD τ).loc main_arg4) ↦{fullShare} V c main_arg4)
          ∗ (((c : Thread nD τ).loc main_v2) ↦{fullShare} V c main_v2) ∗ (((c : Thread nD τ).loc main_v4) ↦{fullShare} V c main_v4))
    ⊢ (iprop((((c : Thread nD τ).loc main_arg1) ↦{fullShare} V c main_arg1) ∗ (((c : Thread nD τ).loc main_v3) ↦{fullShare} V c main_v3)
          ∗ (((c : Thread nD τ).loc main_v0) ↦{fullShare.left} V c main_v0) ∗ (((c : Thread nD τ).loc main_v0) ↦{fullShare.right} V c main_v0)
          ∗ (((c : Thread nD τ).loc main_arg4) ↦{fullShare} V c main_arg4) ∗ (((c : Thread nD τ).loc main_v2) ↦{fullShare} V c main_v2)
          ∗ (((c : Thread nD τ).loc main_v4) ↦{fullShare} V c main_v4)) : sProp 𝕄)
  exact sep_mono .rfl (sep_mono .rfl
    ((sep_mono (pointsTo_share (PosShare.mem_left_op_right fullShare)).1 .rfl).trans sep_assoc.1))

/-- EXIT of region 2: the windows' arrays at what the region leaves in them (the inputs as entered: the two halves of the
    scaling array hold the same contents and join) and the buffers no window reads are the core's unscoped buffers at
    any valuation `V'` that agrees with those. -/
theorem unscopedBufs_of_arrays2 (c : Dev nD) (V' : (b : Ref sig .tc) → Buf (Elt F) ((c : Thread nD τ).loc b))
    (hF : ∀ w, (dat2 V c).arrAt w cfg2.N = V' (Pipeline.arrRef spec2 w))
    (hrest : ∀ b, b ∉ Finset.univ.image (Pipeline.arrRef spec2) → V' b = V c b) :
    iprop((dat2 V c).arrays ((dat2 V c).arrAt · cfg2.N)
      ∗ Pipeline.unscopedRest (Ix := Unit) (Name := ℕ) (U := UR sig nD τ) (Lvl := ℕ) spec2 c (V c)) ⊢ (unscopedBufs c V' : sProp 𝕄) := by
  -- the arrays' contents at the exit are `V'` at the buffers behind them
  rw [show ((dat2 V c).arrAt · cfg2.N) = fun w => V' (Pipeline.arrRef spec2 w) from funext hF]
  -- the buffers no window reads hold under `V'` what they hold under `V`
  rw [show (Pipeline.unscopedRest (Ix := Unit) (Name := ℕ) (U := UR sig nD τ) (Lvl := ℕ) spec2 c (V c) : sProp 𝕄)
      = Pipeline.unscopedRest (Ix := Unit) (Name := ℕ) (U := UR sig nD τ) (Lvl := ℕ) spec2 c V' from by
    unfold Pipeline.unscopedRest
    exact bigSep_congr fun b hb => by rw [hrest b (Finset.mem_sdiff.mp hb).2]]
  rw [unscopedBufs_split2, arrays2_eq]
  refine sep_mono ?_ .rfl
  -- the two halves of the scaling array hold the same contents: they join into the full share
  show (iprop((((c : Thread nD τ).loc main_arg1) ↦{fullShare} V' main_arg1) ∗ (((c : Thread nD τ).loc main_v3) ↦{fullShare} V' main_v3)
          ∗ (((c : Thread nD τ).loc main_v0) ↦{fullShare.left} V' main_v0) ∗ (((c : Thread nD τ).loc main_v0) ↦{fullShare.right} V' main_v0)
          ∗ (((c : Thread nD τ).loc main_arg4) ↦{fullShare} V' main_arg4) ∗ (((c : Thread nD τ).loc main_v2) ↦{fullShare} V' main_v2)
          ∗ (((c : Thread nD τ).loc main_v4) ↦{fullShare} V' main_v4)) : sProp 𝕄)
    ⊢ iprop((((c : Thread nD τ).loc main_arg1) ↦{fullShare} V' main_arg1) ∗ (((c : Thread nD τ).loc main_v3) ↦{fullShare} V' main_v3)
          ∗ (((c : Thread nD τ).loc main_v0) ↦{fullShare} V' main_v0) ∗ (((c : Thread nD τ).loc main_arg4) ↦{fullShare} V' main_arg4)
          ∗ (((c : Thread nD τ).loc main_v2) ↦{fullShare} V' main_v2) ∗ (((c : Thread nD τ).loc main_v4) ↦{fullShare} V' main_v4))
  exact sep_mono .rfl (sep_mono .rfl
    (sep_assoc.2.trans (sep_mono (pointsTo_share (PosShare.mem_left_op_right fullShare)).2 .rfl)))

end Cert.Kernel.Hand

end
-- ==== Proof.BitsRun.lean ====
/-
  The run of the whole program: region 0, the two host reshapes, region 1, region 2, from the launch memory to the
  return. Between two items every unscoped buffer of the core is held at a named valuation: the launch contents, then
  what each item leaves — a region's output array at what its write-backs leave, a host stretch's results at the
  operations' values, everything else untouched. At the end every unscoped buffer is read at the last valuation.
-/
import proofs.«132783_j15479062135163_1_alg».proof.Proof.BitsRegion0
import proofs.«132783_j15479062135163_1_alg».proof.Proof.BitsRegion1
import proofs.«132783_j15479062135163_1_alg».proof.Proof.BitsRegion2
import proofs.«132783_j15479062135163_1_alg».proof.Proof.BitsSharedArr
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- The same read at the TensorCore's references (what region 0's proof data take). -/
abbrev V0 : (c : Dev nD) → (b : Ref sig .tc) → Buf (Elt F) ((c : Thread nD τ).loc b) := fun c b => W0 m c b
/-- After region 0: the scaling array at what the region's write-backs leave, every other buffer as launched. -/
def W1 (c : Dev nD) : Valuation τ sig (Elt F) :=
  Function.update (W0 m c) main_v0 ((dat0 (V0 m) c).arrAt 1 cfg0.N)
abbrev V1 : (c : Dev nD) → (b : Ref sig .tc) → Buf (Elt F) ((c : Thread nD τ).loc b) := fun c b => W1 m c b
/-- After the two reshapes (region 1's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After region 1: the hidden array at what the region leaves, every other buffer as entered. -/
def W3 (c : Dev nD) : Valuation τ sig (Elt F) :=
  Function.update (W2 m c) main_v3 ((dat1 (V2 m) c).arrAt 6 cfg1.N)
abbrev V3 : (c : Dev nD) → (b : Ref sig .tc) → Buf (Elt F) ((c : Thread nD τ).loc b) := fun c b => W3 m c b
/-- After region 2: the result array at what the region leaves, every other buffer as entered. -/
def W4 (c : Dev nD) : Valuation τ sig (Elt F) :=
  Function.update (W3 m c) main_v4 ((dat2 (V3 m) c).arrAt 6 cfg2.N)
abbrev V4 : (c : Dev nD) → (b : Ref sig .tc) → Buf (Elt F) ((c : Thread nD τ).loc b) := fun c b => W4 m c b

theorem W1_out (c : Dev nD) : W1 m c main_v0 = (dat0 (V0 m) c).arrAt 1 cfg0.N := by
  unfold W1; exact Function.update_self ..
theorem W1_of_ne (c : Dev nD) (b : Ref sig .tc) (h : b ≠ main_v0) : W1 m c b = W0 m c b := by
  unfold W1; exact Function.update_of_ne (StableHlo.devRef_ne_of_ne h) ..
theorem W3_out (c : Dev nD) : W3 m c main_v3 = (dat1 (V2 m) c).arrAt 6 cfg1.N := by
  unfold W3; exact Function.update_self ..
theorem W3_of_ne (c : Dev nD) (b : Ref sig .tc) (h : b ≠ main_v3) : W3 m c b = W2 m c b := by
  unfold W3; exact Function.update_of_ne (StableHlo.devRef_ne_of_ne h) ..
theorem W4_out (c : Dev nD) : W4 m c main_v4 = (dat2 (V3 m) c).arrAt 6 cfg2.N := by
  unfold W4; exact Function.update_self ..
theorem W4_of_ne (c : Dev nD) (b : Ref sig .tc) (h : b ≠ main_v4) : W4 m c b = W3 m c b := by
  unfold W4; exact Function.update_of_ne (StableHlo.devRef_ne_of_ne h) ..

/-- The references the two reshapes write. -/
theorem hostOps1_writes : (hostOps1 : List (HloOp τ sig (Elt F))).Forall fun op => op.writes ⊆ (([main_v1, main_v2] : List (Ref sig .tc)).map (Proc.devRef (τ := τ) .tc)).toFinset := by
  simp only [List.Forall]
  exact ⟨by simp only [StableHlo.reshape_writes, Finset.singleton_subset_iff, List.mem_toFinset]; exact List.mem_map_of_mem (by decide),
    by simp only [StableHlo.reshape_writes, Finset.singleton_subset_iff, List.mem_toFinset]; exact List.mem_map_of_mem (by decide)⟩
theorem W2_of (c : Dev nD) (r : Ref sig .tc) (h : r ∉ ([main_v1, main_v2] : List (Ref sig .tc))) : W2 m c r = W1 m c r :=
  StableHlo.after_of_writes_sub hostOps1 _ hostOps1_writes h

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at
    nothing. -/
abbrev R (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor

/-- The host stretch as a segment over the unscoped references from the contents `W1`. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## What each region leaves in its arrays, against the next valuation -/

theorem hF0 (c : Dev nD) (w : Fin cfg0.W) : (dat0 (V0 m) c).arrAt w cfg0.N = V1 m c (Pipeline.arrRef spec0 w) := by
  match w with
  | ⟨0, _⟩ => exact ((dat0 (V0 m) c).arrAt_in 0 rfl _).trans ((A_eq0 (V0 m) c 0).trans (W1_of_ne m c main_arg1 (by decide)).symm)
  | ⟨1, _⟩ => exact (W1_out m c).symm
theorem hrest0 (c : Dev nD) : ∀ b, b ∉ Finset.univ.image (Pipeline.arrRef spec0) → V1 m c b = V0 m c b :=
  fun b hb => W1_of_ne m c b fun e => hb (Finset.mem_image.mpr ⟨1, Finset.mem_univ _, e.symm⟩)

theorem hF1 (c : Dev nD) (w : Fin cfg1.W) : (dat1 (V2 m) c).arrAt w cfg1.N = V3 m c (Pipeline.arrRef spec1 w) := by
  match w with
  | ⟨0, _⟩ => exact ((dat1 (V2 m) c).arrAt_in 0 rfl _).trans ((A_eq1 (V2 m) c 0).trans (W3_of_ne m c main_arg1 (by decide)).symm)
  | ⟨1, _⟩ => exact ((dat1 (V2 m) c).arrAt_in 1 rfl _).trans ((A_eq1 (V2 m) c 1).trans (W3_of_ne m c main_arg0 (by decide)).symm)
  | ⟨2, _⟩ => exact ((dat1 (V2 m) c).arrAt_in 2 rfl _).trans ((A_eq1 (V2 m) c 2).trans (W3_of_ne m c main_v0 (by decide)).symm)
  | ⟨3, _⟩ => exact ((dat1 (V2 m) c).arrAt_in 3 rfl _).trans ((A_eq1 (V2 m) c 3).trans (W3_of_ne m c main_v0 (by decide)).symm)
  | ⟨4, _⟩ => exact ((dat1 (V2 m) c).arrAt_in 4 rfl _).trans ((A_eq1 (V2 m) c 4).trans (W3_of_ne m c main_arg2 (by decide)).symm)
  | ⟨5, _⟩ => exact ((dat1 (V2 m) c).arrAt_in 5 rfl _).trans ((A_eq1 (V2 m) c 5).trans (W3_of_ne m c main_v1 (by decide)).symm)
  | ⟨6, _⟩ => exact (W3_out m c).symm
theorem hrest1 (c : Dev nD) : ∀ b, b ∉ Finset.univ.image (Pipeline.arrRef spec1) → V3 m c b = V2 m c b :=
  fun b hb => W3_of_ne m c b fun e => hb (Finset.mem_image.mpr ⟨6, Finset.mem_univ _, e.symm⟩)

theorem hF2 (c : Dev nD) (w : Fin cfg2.W) : (dat2 (V3 m) c).arrAt w cfg2.N = V4 m c (Pipeline.arrRef spec2 w) := by
  match w with
  | ⟨0, _⟩ => exact ((dat2 (V3 m) c).arrAt_in 0 rfl _).trans ((A_eq2 (V3 m) c 0).trans (W4_of_ne m c main_arg1 (by decide)).symm)
  | ⟨1, _⟩ => exact ((dat2 (V3 m) c).arrAt_in 1 rfl _).trans ((A_eq2 (V3 m) c 1).trans (W4_of_ne m c main_v3 (by decide)).symm)
  | ⟨2, _⟩ => exact ((dat2 (V3 m) c).arrAt_in 2 rfl _).trans ((A_eq2 (V3 m) c 2).trans (W4_of_ne m c main_v0 (by decide)).symm)
  | ⟨3, _⟩ => exact ((dat2 (V3 m) c).arrAt_in 3 rfl _).trans ((A_eq2 (V3 m) c 3).trans (W4_of_ne m c main_v0 (by decide)).symm)
  | ⟨4, _⟩ => exact ((dat2 (V3 m) c).arrAt_in 4 rfl _).trans ((A_eq2 (V3 m) c 4).trans (W4_of_ne m c main_arg4 (by decide)).symm)
  | ⟨5, _⟩ => exact ((dat2 (V3 m) c).arrAt_in 5 rfl _).trans ((A_eq2 (V3 m) c 5).trans (W4_of_ne m c main_v2 (by decide)).symm)
  | ⟨6, _⟩ => exact (W4_out m c).symm
theorem hrest2 (c : Dev nD) : ∀ b, b ∉ Finset.univ.image (Pipeline.arrRef spec2) → V4 m c b = V3 m c b :=
  fun b hb => W4_of_ne m c b fun e => hb (Finset.mem_image.mpr ⟨6, Finset.mem_univ _, e.symm⟩)

/-! ## The regions as segments -/

set_option backward.isDefEq.respectTransparency.types false in
/-- REGION 0 over the thread state: entered from every unscoped buffer at `V0`, left at `V1`. Its arrays split out of
    the unscoped buffers and put back at the exit contents; the generator register and the scoped rest into the region
    invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m) c)
    unfold Pipeline.ΦA
    iintro ⟨Hp, -, Hr⟩
    isplitl [Hr]; · iexact Hr
    iexact Hp
  hout c := by
    rw [Pipeline.ownSems0_none]
    refine BIBase.Entails.trans (hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `V2`, left at `V3`. Its arrays split out of
    the unscoped buffers and put back at the exit contents; the generator register and the scoped rest into the region
    invariant and out; nothing owed; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs c (V2 m c) : sProp 𝕄) ⊢ iprop((pdats m 1 c).arrays ((pdats m 1 c).arrAt · 0) ∗ Pipeline.unscopedRest (Ix := Unit) (Name := ℕ) (U := UR sig nD τ) (Lvl := ℕ) spec1 c (V2 m c)) :=
      arrays_of_unscopedBufs1 (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine BIBase.Entails.trans (hout1 (V2 m) c) ?_
    unfold Pipeline.ΦA
    iintro ⟨Hr, Hp⟩
    isplitl [Hp]; · iexact Hp
    isplitr; · iempintro
    iexact Hr
  hexit c := by
    have hjoin : iprop((pdats m 1 c).arrays ((pdats m 1 c).arrAt · (Pipeline.pin (pcfgs (F := F)) adm 1).N) ∗ Pipeline.unscopedRest (Ix := Unit) (Name := ℕ) (U := UR sig nD τ) (Lvl := ℕ) spec1 c (V2 m c)) ⊢ (unscopedBufs c (V3 m c) : sProp 𝕄) :=
      unscopedBufs_of_arrays1 (V2 m) c (V3 m c) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `V3`, left at `V4`. Its arrays split out of
    the unscoped buffers and put back at the exit contents; the generator register and the scoped rest into the region
    invariant and out; nothing owed; no semaphore of the kernel's own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit : (unscopedBufs c (V3 m c) : sProp 𝕄) ⊢ iprop((pdats m 2 c).arrays ((pdats m 2 c).arrAt · 0) ∗ Pipeline.unscopedRest (Ix := Unit) (Name := ℕ) (U := UR sig nD τ) (Lvl := ℕ) spec2 c (V3 m c)) :=
      arrays_of_unscopedBufs2 (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V3 m) c)
    unfold Pipeline.ΦA
    iintro ⟨Hp, -, Hr⟩
    isplitl [Hr]; · iexact Hr
    iexact Hp
  hout c := by
    rw [Pipeline.ownSems0_none]
    refine BIBase.Entails.trans (hout2 (V3 m) c) ?_
    unfold Pipeline.ΦA
    iintro ⟨Hr, Hp⟩
    isplitl [Hp]; · iexact Hp
    isplitr; · iempintro
    iexact Hr
  hexit c := by
    have hjoin : iprop((pdats m 2 c).arrays ((pdats m 2 c).arrAt · (Pipeline.pin (pcfgs (F := F)) adm 2).N) ∗ Pipeline.unscopedRest (Ix := Unit) (Name := ℕ) (U := UR sig nD τ) (Lvl := ℕ) spec2 c (V3 m c)) ⊢ (unscopedBufs c (V4 m c) : sProp 𝕄) :=
      unscopedBufs_of_arrays2 (V3 m) c (V4 m c) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four items in order: region 0, the host stretch, region 1, region 2. -/
abbrev segs : List (Pipeline.Seg (pcfgs (F := F)) adm (pdats m) () defs₀ 𝒱₀ L lv) :=
  [ .region (reg0 m),
    .host (hseg1 m),
    .region (reg1 m),
    .region (reg2 m) ]
/-- @main IS the run of the segments. -/
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and in every final state each unscoped buffer of each core holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The last valuation at the arguments and at the result -/

theorem W2_arg (c : Dev nD) (r : Ref sig .tc) (h1 : r ∉ ([main_v1, main_v2] : List (Ref sig .tc))) (h0 : r ≠ main_v0) : W2 m c r = m ((c : Thread nD τ).loc r) :=
  (W2_of m c r h1).trans (W1_of_ne m c r h0)

theorem W4_arg (c : Dev nD) (r : Ref sig .tc) (h4 : r ≠ main_v4) (h3 : r ≠ main_v3) (h1 : r ∉ ([main_v1, main_v2] : List (Ref sig .tc))) (h0 : r ≠ main_v0) :
    W4 m c r = m ((c : Thread nD τ).loc r) :=
  (W4_of_ne m c r h4).trans ((W3_of_ne m c r h3).trans (W2_arg m c r h1 h0))

/-- The frame and the result together: every argument array ends as launched, and the result array holds what region
    2's write-backs leave. -/
theorem run_result : θ_run defs (onTc (τ := τ) (main (F := F))) ⟨m, fun _ => 0, ρ⟩ (fun r => ∀ c : Dev nD,
      r.2.mem ((c.tc : Thread nD τ).loc main_v4) = (dat2 (V3 m) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v4 (by decide))).trans (W4_out m c),
     (h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide)),
     (h c _ (mem_uc main_arg4 (by decide))).trans (W4_arg m c main_arg4 (by decide) (by decide) (by decide) (by decide)),
     (h c _ (mem_uc main_arg5 (by decide))).trans (W4_arg m c main_arg5 (by decide) (by decide) (by decide) (by decide))⟩)
    (run_all m ρ)

/-- The frame claim at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_result m ρ)

end Cert.Kernel.Hand

end
-- ==== Proof.Region0Defs.lean ====
/-
  Region 0 of the program (the degree kernel), at the buffer contents `V` the region is entered from: each window's block at a
  grid point, what the accumulator holds after each point, what the output block holds after a row tile's last
  point, and the proof data of the pipeline over them.

  A grid point `t` is column tile `t % 4` of row tile `t / 4`. The accumulator is reset at column tile 0, takes this
  point's partial row sums at every point, and after column tile 3 it holds the whole row tile's row sums; the output block is
  computed from it there, and only there.
-/
import proofs.«132783_j15479062135163_1_alg».proof.Proof.Gen.KernelIdeal.Launch
import proofs.«132783_j15479062135163_1_alg».proof.Proof.Gen.KernelIdeal.Skeleton
import proofs.«132783_j15479062135163_1_alg».proof.Proof.Gen.KernelIdeal.Points
import Idealize.ShloMosaic.Lib.Pipeline.FrameBody
import Idealize.ShloMosaic.Lib.Pipeline.Frame
import Idealize.ShloMosaic.Lib.Pipeline.Kit

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency block of point `t`. -/
abbrev ablk0 (c : Dev nD) (t : Fin cfg0.N) : Vec F S512x2048 .f32 := iblk0 V c 0 t

/-- The accumulator after point `n`: at column tile 0 this point's partial row sums over the zero block, otherwise over
    what the point before left. -/
def sAt0 (c : Dev nD) : (n : ℕ) → n < cfg0.N → Vec F S512x1 .f32
  | 0, hn => k0_pay2 (k0_pay1 (F := F)) (ablk0 V c ⟨0, hn⟩)
  | n + 1, hn =>
    if (n + 1) % 4 = 0 then k0_pay2 (k0_pay1 (F := F)) (ablk0 V c ⟨n + 1, hn⟩)
    else k0_pay2 (sAt0 c n (Nat.lt_of_succ_lt hn)) (ablk0 V c ⟨n + 1, hn⟩)

/-- The output block computed at point `t` from the accumulator after `t` (stored, and written back, at column tile 3). -/
def oAt0 (c : Dev nD) (t : Fin cfg0.N) : Vec F S512x1 .f32 :=
  k0_pay3 (sAt0 V c t.val t.isLt)

/-- The accumulator's memref: the call's scratch operand, whole. -/
abbrev scM0 : Memref sig .tc .vmem S512x1 .f32 := Memref.whole cc0_scratch0

/-- The region invariant before position `n`: before the first point every scoped buffer that is no staging buffer at
    anything and the generator register at some state; afterwards the accumulator at what the point before left, the other
    such buffers at anything, the generator register at some state. -/
def PhiS0 (c : Dev nD) : (n : ℕ) → n ≤ cfg0.N → sProp 𝕄
  | 0, _ => Pipeline.ΦA spec0 c
  | n + 1, hn => iprop(owns (c : Thread nD τ) (scM0) fullShare (sAt0 V c n hn)
      ∗ Pipeline.scopedRestBut (Ix := Unit) (Name := ℕ) (U := UR sig nD τ) (Lvl := ℕ) (Val := Elt F) spec0 c [cc0_scratch0]
      ∗ (∃ r, prngReg c r))

/-- The proof data of pipeline 0 on core `c`: the arrays as the region finds them; after the body at point `t` each
    input's buffer at its block and the output's at `oAt0`; the invariant `PhiS0`; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => oAt0 V c t
  Φ t := PhiS0 V c t.val (Nat.le_of_lt_succ t.isLt)
  q w := fullShare
  owed _ := 0

end Cert.KernelIdeal.Hand

end
-- ==== Proof.Region0.lean ====
/-
  Region 0: the body of the kernel at every grid point against the proof data of Proof/Region0Defs.lean — the
  accumulator reset at column tile 0, this point's partial result added at every point, the output block stored at
  column tile 3 — and the invariant at the region's two ends.
-/
import proofs.«132783_j15479062135163_1_alg».proof.Proof.Region0Defs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data's arrays are the region-entry contents. -/
theorem A_eq0 (c : Dev nD) (w : Fin cfg0.W) : (dat0 V c).A w = V c (Pipeline.arrRef spec0 w) := by
  dsimp only [dat0]

/-! ## The body's branch conditions over the grid -/

/-- The first branch of the body is taken exactly when the column-tile coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch of the body is taken exactly when the column-tile coordinate is 3. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The adjacency window is never idle (an input). -/
theorem liveAt0_0 : ∀ t : Fin cfg0.N, cfg0.idle 0 (grid0.coords t) = false := by decide +kernel
/-- Off column tile 3 the output window is idle: nothing is stored into it. -/
theorem idleAt0_1 : ∀ t : Fin cfg0.N, ¬ t.val % 4 = 3 → cfg0.idle 1 (grid0.coords t) = true :=
  (by decide +kernel : ∀ t : Fin grid0.N, ¬ t.val % 4 = 3 → cfg0.idle 1 (grid0.coords t) = true)
/-- Off column tile 3 the output block is not written back. -/
theorem noFlush0_1 : ∀ t : Fin cfg0.N, ¬ t.val % 4 = 3 → (cfg0.win 1).flush t = false :=
  (by decide +kernel : ∀ t : Fin grid0.N, ¬ t.val % 4 = 3 → win0_1.flush t = false)
/-- At column tile 3 the output window is live: the body stores into it. -/
theorem liveAt0_1 : ∀ t : Fin cfg0.N, t.val % 4 = 3 → cfg0.idle 1 (grid0.coords t) = false :=
  (by decide +kernel : ∀ t : Fin grid0.N, t.val % 4 = 3 → cfg0.idle 1 (grid0.coords t) = false)

/-! ## What the body finds in the adjacency window's buffer -/

/-- The adjacency window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = oAt0 V c t := by dsimp only [dat0]

theorem before0_0 (c : Dev nD) (t : Fin cfg0.N) (d) : (dat0 V c).before 0 t d = iblk0 V c 0 t :=
  before0_0_of V (dat0 V c) (A_eq0 V c 0) (after0_0 V c) t d

/-! ## The body's triple, case by case -/

/-- The whole-buffer rectangle's offsets are zero. -/
theorem hzero0 : (![0, 0] : Fin 2 → ℕ) = fun _ => 0 := funext fun a => by fin_cases a <;> rfl

/-- The whole-buffer rectangle of the accumulator and of the output block. -/
abbrev rAcc0 : Rect S512x1 := Rect.unit (s := S512x1) ![0, 0] S512x1.size inb_S512x1_S512x1_0_0

/-- A store through the whole-buffer rectangle, made last, covers every index. -/
theorem cover_rAcc0 (w : Vec F S512x1 .f32) (L : List (View.Piece (Elt F) S512x1 .f32)) (y : S512x1.Idx) :
    ∃ pc ∈ ((⟨rAcc0, w⟩ : View.Piece (Elt F) S512x1 .f32) :: L), y ∈ pc.1.set :=
  ⟨_, List.mem_cons_self, View.mem_set_unit_zero hzero0 inb_S512x1_S512x1_0_0 y⟩

set_option maxHeartbeats 1000000 in
/-- Column tiles 1 and 2: the accumulator takes this point's partial row sums; the output block is not touched. -/
theorem kernel0_B (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (hc0 : ¬cond0_0 i) (hc1 : ¬cond0_1 i)
    (x0 : Vec F S512x2048 .f32) (xs0 : Vec F S512x1 .f32) (xi1 : Vec F S512x1 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1 ∗ owns (c : Thread nD τ) arg4 fullShare (k0_pay2 xs0 x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%fs0, %hfs0, HS0⟩, Hk⟩
  subst hf0 hf1 hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS0
  ipureintro
  rw [View.read_writes_eq_canon _ _ _ (cover_rAcc0 _ _), View.canon_unit_zero hzero0]
  rw [View.readAt_eq_ld, View.readAt_eq_ld, View.ld_unit_zero (S := S512x1) hzero0, View.ld_unit_zero (S := S512x2048) hzero0]

set_option maxHeartbeats 1000000 in
/-- Column tile 0: the accumulator is reset to the zero block, then takes this point's partial row sums; the output
    block is not touched. -/
theorem kernel0_A (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (hc0 : cond0_0 i) (hc1 : ¬cond0_1 i)
    (x0 : Vec F S512x2048 .f32) (xi1 : Vec F S512x1 .f32) (E : Set ℕ) (K : PUnit → sProp 𝕄) :
    iprop(owns (c : Thread nD τ) arg2 fullShare x0 ∗ owns (c : Thread nD τ) arg3 fullShare xi1 ∗ (∃ d, owns (c : Thread nD τ) arg4 fullShare d)
        ∗ (iprop(owns (c : Thread nD τ) arg2 fullShare x0 ∗ owns (c : Thread nD τ) arg3 fullShare xi1 ∗ owns (c : Thread nD τ) arg4 fullShare (k0_pay2 (k0_pay1 (F := F)) x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%ds0, %fs0, -, HS0⟩, Hk⟩
  subst hf0 hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS0
  ipureintro
  sl_unfold_words
  rw [View.read_writes_eq_canon _ _ _ (cover_rAcc0 _ _), View.canon_cons_unit_zero (S := S512x1) hzero0, View.readCov_unit_zero (S := S512x1) _ hzero0,
    View.readAt_eq_ld, View.ld_unit_zero (S := S512x2048) hzero0]

set_option maxHeartbeats 1000000 in
/-- Column tile 3: the accumulator takes this point's partial row sums, and the output block is computed from it and
    stored. -/
theorem kernel0_C (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (hc0 : ¬cond0_0 i) (hc1 : cond0_1 i)
    (x0 : Vec F S512x2048 .f32) (xs0 : Vec F S512x1 .f32) (E : Set ℕ) (K : PUnit → sProp 𝕄) :
    iprop(owns (c : Thread nD τ) arg2 fullShare x0 ∗ (∃ d, owns (c : Thread nD τ) arg3 fullShare d) ∗ owns (c : Thread nD τ) arg4 fullShare xs0
        ∗ (iprop(owns (c : Thread nD τ) arg2 fullShare x0 ∗ owns (c : Thread nD τ) arg3 fullShare (k0_pay3 (k0_pay2 xs0 x0)) ∗ owns (c : Thread nD τ) arg4 fullShare (k0_pay2 xs0 x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%d1, %f1, -, H1⟩, ⟨%fs0, %hfs0, HS0⟩, Hk⟩
  subst hf0 hfs0
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_words
    rw [View.read_writes_eq_canon _ _ _ (cover_rAcc0 _ _), View.canon_unit_zero (S := S512x1) hzero0, View.readCov_unit_zero (S := S512x1) _ hzero0,
      View.readAt_eq_ld, View.readAt_eq_ld, View.ld_unit_zero (S := S512x1) hzero0, View.ld_unit_zero (S := S512x2048) hzero0]
  iexists _; isplitr
  swap; · iexact HS0
  ipureintro
  sl_unfold_words
  rw [View.read_writes_eq_canon _ _ _ (cover_rAcc0 _ _), View.canon_unit_zero (S := S512x1) hzero0,
    View.readAt_eq_ld, View.readAt_eq_ld, View.ld_unit_zero (S := S512x1) hzero0, View.ld_unit_zero (S := S512x2048) hzero0]

/-! ## The accumulator after each point -/

/-- At column tile 0 the accumulator holds this point's partial row sums over the zero block. -/
theorem sAt0_reset (c : Dev nD) (t : Fin cfg0.N) (h0 : t.val % 4 = 0) :
    sAt0 V c t.val t.isLt = k0_pay2 (k0_pay1 (F := F)) (ablk0 V c t) := by
  obtain ⟨n, hn⟩ := t
  cases n with
  | zero => rfl
  | succ n => rw [sAt0.eq_2]; exact if_pos h0

/-- At any other column tile it holds this point's partial row sums over what the point before left. -/
theorem sAt0_acc (c : Dev nD) (t : Fin cfg0.N) (h0 : ¬t.val % 4 = 0) :
    sAt0 V c t.val t.isLt
      = k0_pay2 (sAt0 V c (t.val - 1) (Nat.lt_of_le_of_lt (Nat.sub_le _ _) t.isLt)) (ablk0 V c t) := by
  obtain ⟨n, hn⟩ := t
  cases n with
  | zero => exact absurd (Nat.zero_mod _) h0
  | succ n => rw [sAt0.eq_2]; exact if_neg h0

/-! ## The region invariant, position by position -/

theorem PhiS0_zero (c : Dev nD) (n : ℕ) (h : n ≤ cfg0.N) (hn : n = 0) : PhiS0 V c n h = Pipeline.ΦA spec0 c := by
  subst hn; rfl

/-- After point `n`: the accumulator at that point's contents. -/
theorem PhiS0_succ (c : Dev nD) (n : ℕ) (hn : n < cfg0.N) :
    PhiS0 V c (n + 1) hn = iprop(owns (c : Thread nD τ) (scM0) fullShare (sAt0 V c n hn)
      ∗ Pipeline.scopedRestBut (Ix := Unit) (Name := ℕ) (U := UR sig nD τ) (Lvl := ℕ) (Val := Elt F) spec0 c [cc0_scratch0]
      ∗ (∃ r, prngReg c r)) := rfl

/-- Before a point that is not the first: the accumulator at what the point before left. -/
theorem PhiS0_pos (c : Dev nD) (n : ℕ) (h : n ≤ cfg0.N) (hn : n ≠ 0) :
    PhiS0 V c n h = iprop(owns (c : Thread nD τ) (scM0) fullShare (sAt0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hn
  | succ n => rfl

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the region is handed, with the accumulator's buffer taken out of the scoped rest and owned at some contents. -/
theorem PhiA0_eq (c : Dev nD) :
    (Pipeline.ΦA (Val := Elt F) (U := UR sig nD τ) spec0 c : sProp 𝕄)
      = iprop((∃ d, owns (c : Thread nD τ) (scM0) fullShare d)
          ∗ Pipeline.scopedRestBut (Ix := Unit) (Name := ℕ) (U := UR sig nD τ) (Lvl := ℕ) (Val := Elt F) spec0 c [cc0_scratch0]
          ∗ (∃ r, prngReg c r)) := by
  unfold Pipeline.ΦA; rw [scopedRest0_split]; simp only [scM0, owns_whole]
  refine BI.equiv_iff.mp ⟨?_, ?_⟩
  · show (_ : sProp 𝕄) ⊢ _
    iintro ⟨⟨HS, HR⟩, Hg⟩
    isplitl [HS]; · iexact HS
    isplitl [HR]; · iexact HR
    iexact Hg
  · show (_ : sProp 𝕄) ⊢ _
    iintro ⟨HS, HR, Hg⟩
    isplitl [HS HR]
    · isplitl [HS]; · iexact HS
      iexact HR
    iexact Hg

/-! ## The body obligation, at a generic point -/

/-- Each window's current staging memref at point `t`, as the pipeline passes it to the body. -/
abbrev ms0_0 (t : Fin cfg0.N) : Memref sig .tc .vmem S512x2048 .f32 := win0_0.stage (cfg0.slots t 0)
abbrev ms0_1 (t : Fin cfg0.N) : Memref sig .tc .vmem S512x1 .f32 := win0_1.stage (cfg0.slots t 1)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The adjacency window's buffer holds its block; the column tile says which case the point is
    in; the invariant hands the body the accumulator at what the point before left (at anything before the first point)
    and takes it back at this point's contents; off column tile 3 the output window's buffer is handed back as found, at
    column tile 3 it holds the block computed from the accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  have hN : t.val < 64 := lt_of_lt_of_eq t.isLt (show cfg0.N = 64 from N_0)
  by_cases h0 : t.val % 4 = 0
  · have h1 : ¬t.val % 4 = 3 := by omega
    rw [Dat.leavesExact_idle (dat0 V c) 1 t (idleAt0_1 t h1) (noFlush0_1 t h1)]
    rw [sAt0_reset V c t h0]
    by_cases hn : t.val = 0
    · rw [PhiS0_castSucc V c t, PhiS0_zero V c _ _ hn, PhiA0_eq]
      iintro ⟨⟨HS0, HR, Hg⟩, Ho, ⟨%d0, H0⟩, ⟨%d1, H1⟩⟩
      iapply (kernel0_A c (grid0.coords t) _ _ _ _ _ _ ((hcond0_0 t).mpr h0) (fun h => h1 ((hcond0_1 t).mp h)) (ablk0 V c t) _ Set.univ _)
      isplitl [H0]; · iexact H0
      isplitl [H1]; · iexact H1
      isplitl [HS0]; · iexact HS0
      iintro ⟨H0, H1, HS0⟩
      isplitl [HS0 HR Hg]
      · isplitl [HS0]; · iexact HS0
        isplitl [HR]; · iexact HR
        iexact Hg
      isplitl [Ho]; · iexact Ho
      isplitl [H0]; · iexact H0
      iexists _; iexact H1
    · rw [PhiS0_castSucc V c t, PhiS0_pos V c _ _ hn]
      iintro ⟨⟨HS0, HR, Hg⟩, Ho, ⟨%d0, H0⟩, ⟨%d1, H1⟩⟩
      iapply (kernel0_A c (grid0.coords t) _ _ _ _ _ _ ((hcond0_0 t).mpr h0) (fun h => h1 ((hcond0_1 t).mp h)) (ablk0 V c t) _ Set.univ _)
      isplitl [H0]; · iexact H0
      isplitl [H1]; · iexact H1
      isplitl [HS0]; · iexists _; iexact HS0
      iintro ⟨H0, H1, HS0⟩
      isplitl [HS0 HR Hg]
      · isplitl [HS0]; · iexact HS0
        isplitl [HR]; · iexact HR
        iexact Hg
      isplitl [Ho]; · iexact Ho
      isplitl [H0]; · iexact H0
      iexists _; iexact H1
  · have hn : t.val ≠ 0 := fun h => h0 (by rw [h])
    rw [sAt0_acc V c t h0]
    rw [PhiS0_castSucc V c t, PhiS0_pos V c _ _ hn]
    by_cases h1 : t.val % 4 = 3
    · rw [show (dat0 V c).leavesExact 1 t = owns (c : Thread nD τ) (ms0_1 t) fullShare ((dat0 V c).after 1 t) from by
        unfold Dat.leavesExact; rw [liveAt0_1 t h1], after0_1]
      unfold oAt0
      rw [sAt0_acc V c t h0]
      iintro ⟨⟨HS0, HR, Hg⟩, Ho, ⟨%d0, H0⟩, ⟨%d1, H1⟩⟩
      iapply (kernel0_C c (grid0.coords t) _ _ _ _ _ _ (fun h => h0 ((hcond0_0 t).mp h)) ((hcond0_1 t).mpr h1) (ablk0 V c t)
        (sAt0 V c (t.val - 1) (Nat.lt_of_le_of_lt (Nat.sub_le _ _) t.isLt)) Set.univ _)
      isplitl [H0]; · iexact H0
      isplitl [H1]; · iexists _; iexact H1
      isplitl [HS0]; · iexact HS0
      iintro ⟨H0, H1, HS0⟩
      isplitl [HS0 HR Hg]
      · isplitl [HS0]; · iexact HS0
        isplitl [HR]; · iexact HR
        iexact Hg
      isplitl [Ho]; · iexact Ho
      isplitl [H0]; · iexact H0
      iexact H1
    · rw [Dat.leavesExact_idle (dat0 V c) 1 t (idleAt0_1 t h1) (noFlush0_1 t h1)]
      iintro ⟨⟨HS0, HR, Hg⟩, Ho, ⟨%d0, H0⟩, ⟨%d1, H1⟩⟩
      iapply (kernel0_B c (grid0.coords t) _ _ _ _ _ _ (fun h => h0 ((hcond0_0 t).mp h)) (fun h => h1 ((hcond0_1 t).mp h)) (ablk0 V c t)
        (sAt0 V c (t.val - 1) (Nat.lt_of_le_of_lt (Nat.sub_le _ _) t.isLt)) _ Set.univ _)
      isplitl [H0]; · iexact H0
      isplitl [H1]; · iexact H1
      isplitl [HS0]; · iexact HS0
      iintro ⟨H0, H1, HS0⟩
      isplitl [HS0 HR Hg]
      · isplitl [HS0]; · iexact HS0
        isplitl [HR]; · iexact HR
        iexact Hg
      isplitl [Ho]; · iexact Ho
      isplitl [H0]; · iexact H0
      iexists _; iexact H1

/-- The body obligation of pipeline 0, at every point. -/
theorem body_obligation0 (c : Dev nD) : BodyObligation (dat0 (F := F) V c) (defs₀ (F := F)) Variants.none () Set.univ := by
  intro t
  rw [bigSep_W0, bigSep_W0]
  exact sound_body0 V c t

/-- What the region is handed is the invariant before the first point. -/
theorem hin0 (c : Dev nD) : (Pipeline.ΦA (Val := Elt F) (U := UR sig nD τ) spec0 c : sProp 𝕄) ⊢ (dat0 V c).Φ 0 := by
  rw [show (dat0 V c).Φ 0 = PhiS0 V c 0 (Nat.zero_le _) from rfl, PhiS0_zero V c 0 _ rfl]

/-- After any point the invariant gives back what the region was handed: the accumulator's contents are forgotten. -/
theorem Phi_out0 (c : Dev nD) (t : Fin (cfg0.N + 1)) (ht : t.val ≠ 0) :
    (dat0 V c).Φ t ⊢ (Pipeline.ΦA (Val := Elt F) (U := UR sig nD τ) spec0 c : sProp 𝕄) := by
  rw [show (dat0 V c).Φ t = PhiS0 V c t.val (Nat.le_of_lt_succ t.isLt) from rfl, PhiS0_pos V c _ _ ht, PhiA0_eq]
  iintro ⟨HS0, HR, Hg⟩
  isplitl [HS0]
  · iexists _; iexact HS0
  isplitl [HR]; · iexact HR
  iexact Hg

/-- After the last point the invariant gives back every scoped buffer that is no staging buffer at anything, and the
    generator register. -/
theorem hout0 (c : Dev nD) : (dat0 V c).Φ (Fin.last cfg0.N) ⊢ (Pipeline.ΦA (Val := Elt F) (U := UR sig nD τ) spec0 c : sProp 𝕄) := by
  exact Phi_out0 V c _ (by rw [Fin.val_last]; have : cfg0.N = 64 := N_0; omega)

end Cert.KernelIdeal.Hand

end
-- ==== Proof.Region1Defs.lean ====
/-
  Region 1 of the program (the first layer), at the buffer contents `V` the region is entered from: each window's block at a
  grid point, what the accumulator holds after each point, what the output block holds after a row tile's last
  point, and the proof data of the pipeline over them.

  A grid point `t` is column tile `t % 4` of row tile `t / 4`. The accumulator is reset at column tile 0, takes this
  point's partial products at every point, and after column tile 3 it holds the whole row tile's products; the output block is
  computed from it there, and only there.
-/
import proofs.«132783_j15479062135163_1_alg».proof.Proof.Gen.KernelIdeal.Launch
import proofs.«132783_j15479062135163_1_alg».proof.Proof.Gen.KernelIdeal.Skeleton
import proofs.«132783_j15479062135163_1_alg».proof.Proof.Gen.KernelIdeal.Points
import Idealize.ShloMosaic.Lib.Pipeline.FrameBody
import Idealize.ShloMosaic.Lib.Pipeline.Frame
import Idealize.ShloMosaic.Lib.Pipeline.Kit

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block of point `t`. -/
abbrev ablk1 (c : Dev nD) (t : Fin cfg1.N) : Vec F S512x2048 .f32 := iblk1 V c 0 t
/-- The feature block of point `t` (the rows of the column tile). -/
abbrev xblk1 (c : Dev nD) (t : Fin cfg1.N) : Vec F S2048x128 .f32 := iblk1 V c 1 t
/-- The scaling of the row tile's rows. -/
abbrev drow1 (c : Dev nD) (t : Fin cfg1.N) : Vec F S512x1 .f32 := iblk1 V c 2 t
/-- The scaling of the column tile's rows. -/
abbrev dcol1 (c : Dev nD) (t : Fin cfg1.N) : Vec F S2048x1 .f32 := iblk1 V c 3 t
/-- The weights. -/
abbrev wblk1 (c : Dev nD) (t : Fin cfg1.N) : Vec F S128x64 .f32 := iblk1 V c 4 t
/-- The bias row. -/
abbrev bblk1 (c : Dev nD) (t : Fin cfg1.N) : Vec F S1x64 .f32 := iblk1 V c 5 t

/-- The accumulator after point `n`: at column tile 0 this point's partial products over the zero block, otherwise over
    what the point before left. -/
def sAt1 (c : Dev nD) : (n : ℕ) → n < cfg1.N → Vec F S512x128 .f32
  | 0, hn => k1_pay2 (xblk1 V c ⟨0, hn⟩) (dcol1 V c ⟨0, hn⟩) (ablk1 V c ⟨0, hn⟩) (k1_pay1 (F := F))
  | n + 1, hn =>
    if (n + 1) % 4 = 0 then k1_pay2 (xblk1 V c ⟨n + 1, hn⟩) (dcol1 V c ⟨n + 1, hn⟩) (ablk1 V c ⟨n + 1, hn⟩) (k1_pay1 (F := F))
    else k1_pay2 (xblk1 V c ⟨n + 1, hn⟩) (dcol1 V c ⟨n + 1, hn⟩) (ablk1 V c ⟨n + 1, hn⟩) (sAt1 c n (Nat.lt_of_succ_lt hn))

/-- The output block computed at point `t` from the accumulator after `t` (stored, and written back, at column tile 3). -/
def oAt1 (c : Dev nD) (t : Fin cfg1.N) : Vec F S512x64 .f32 :=
  k1_pay3 (sAt1 V c t.val t.isLt) (drow1 V c t) (wblk1 V c t) (bblk1 V c t)

/-- The accumulator's memref: the call's scratch operand, whole. -/
abbrev scM1 : Memref sig .tc .vmem S512x128 .f32 := Memref.whole cc1_scratch0

/-- The region invariant before position `n`: before the first point every scoped buffer that is no staging buffer at
    anything and the generator register at some state; afterwards the accumulator at what the point before left, the other
    such buffers at anything, the generator register at some state. -/
def PhiS1 (c : Dev nD) : (n : ℕ) → n ≤ cfg1.N → sProp 𝕄
  | 0, _ => Pipeline.ΦA spec1 c
  | n + 1, hn => iprop(owns (c : Thread nD τ) (scM1) fullShare (sAt1 V c n hn)
      ∗ Pipeline.scopedRestBut (Ix := Unit) (Name := ℕ) (U := UR sig nD τ) (Lvl := ℕ) (Val := Elt F) spec1 c [cc1_scratch0]
      ∗ (∃ r, prngReg c r))

/-- The proof data of pipeline 1 on core `c`: the arrays as the region finds them; after the body at point `t` each
    input's buffer at its block and the output's at `oAt1`; the invariant `PhiS1`; nothing owed; the scaling array, read through two windows, held half by each, every other array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => oAt1 V c t
  Φ t := PhiS1 V c t.val (Nat.le_of_lt_succ t.isLt)
  q w := match w with | ⟨2, _⟩ => fullShare.left | ⟨3, _⟩ => fullShare.right | _ => fullShare
  owed _ := 0

end Cert.KernelIdeal.Hand

end
-- ==== Proof.Region1.lean ====
/-
  Region 1: the body of the kernel at every grid point against the proof data of Proof/Region1Defs.lean — the
  accumulator reset at column tile 0, this point's partial result added at every point, the output block stored at
  column tile 3 — and the invariant at the region's two ends.
-/
import proofs.«132783_j15479062135163_1_alg».proof.Proof.Region1Defs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions of the body, in closed form over the grid -/

/-- The body's first branch (the accumulator's reset) is taken: the column-tile coordinate is 0. -/
abbrev condReset1 (i : grid1.Coords) : Prop := (Scalar.cmpi .ne (Scalar.extui (Scalar.cmpi .eq (BitVec.ofNat 32 (i 1).val) 0#32)) 0#32) = 1#1
/-- The body's second branch (the output block's computation) is taken: the column-tile coordinate is 3. -/
abbrev condFin1 (i : grid1.Coords) : Prop := k1_cond2 i = 1#1

/-- The reset happens exactly at column tile 0. -/
theorem condReset1_iff : ∀ t : Fin cfg1.N, condReset1 (grid1.coords t) ↔ t.val % 4 = 0 :=
  (by decide +kernel : ∀ t : Fin grid1.N, condReset1 (grid1.coords t) ↔ t.val % 4 = 0)
/-- The output block is computed exactly at column tile 3. -/
theorem condFin1_iff : ∀ t : Fin cfg1.N, condFin1 (grid1.coords t) ↔ t.val % 4 = 3 :=
  (by decide +kernel : ∀ t : Fin grid1.N, condFin1 (grid1.coords t) ↔ t.val % 4 = 3)

/-- Every access of the body is at offset (0, 0). -/
theorem off_zero1 : (![0, 0] : Fin 2 → ℕ) = fun _ => 0 := by
  funext a; fin_cases a <;> rfl

/-- One store of the whole accumulator covers it. -/
theorem cover_acc1 (p : Vec F S512x128 .f32) (L : List (View.Piece (Elt F) S512x128 .f32)) (y : S512x128.Idx) :
    ∃ pc ∈ ((⟨Rect.unit ![0, 0] S512x128.size inb_S512x128_S512x128_0_0, p⟩ : View.Piece (Elt F) S512x128 .f32) :: L), y ∈ pc.1.set :=
  ⟨_, List.mem_cons_self, View.mem_set_unit_zero off_zero1 inb_S512x128_S512x128_0_0 y⟩

/-- One store of the whole output block covers it. -/
theorem cover_out1 (p : Vec F S512x64 .f32) (y : S512x64.Idx) :
    ∃ pc ∈ ([⟨Rect.unit ![0, 0] S512x64.size inb_S512x64_S512x64_0_0, p⟩] : List (View.Piece (Elt F) S512x64 .f32)), y ∈ pc.1.set :=
  ⟨_, List.mem_cons_self, View.mem_set_unit_zero off_zero1 inb_S512x64_S512x64_0_0 y⟩

/-! ## The body's triple, case by case -/

set_option maxHeartbeats 2000000 in
/-- Column tile 0: the accumulator, whatever it held, is reset and takes this point's products; the output block's buffer is
    not touched. -/
theorem run1_A (c : Dev nD) (E : Set ℕ) (i : grid1.Coords)
    (arg2 : Memref sig .tc .vmem S512x2048 .f32) (harg2 : arg2.IsWhole) (arg3 : Memref sig .tc .vmem S2048x128 .f32) (harg3 : arg3.IsWhole)
    (arg4 : Memref sig .tc .vmem S512x1 .f32) (harg4 : arg4.IsWhole) (arg5 : Memref sig .tc .vmem S2048x1 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S512x64 .f32) (harg8 : arg8.IsWhole) (arg9 : Memref sig .tc .vmem S512x128 .f32) (harg9 : arg9.IsWhole)
    (hc0 : condReset1 i) (hc1 : ¬condFin1 i)
    (x0 : Vec F S512x2048 .f32) (x1 : Vec F S2048x128 .f32) (x2 : Vec F S512x1 .f32) (x3 : Vec F S2048x1 .f32)
    (x4 : Vec F S128x64 .f32) (x5 : Vec F S1x64 .f32) (xo : Vec F S512x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xo ∗ (∃ d, owns (c : Thread nD τ) arg9 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xo ∗ owns (c : Thread nD τ) arg9 fullShare (k1_pay2 x1 x3 x0 (k1_pay1 (F := F)))) -∗ K ⟨⟩))
      ⊢ wp frame (wpE (defs₀ (F := F)) Variants.none c none) E (cc1_kernel i arg2 harg2 arg3 harg3 arg4 harg4 arg5 harg5 arg6 harg6 arg7 harg7 arg8 harg8 arg9 harg9) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
  subst hf0 hf1 hf2 hf3 hf4 hf5 hf6
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact HS
  ipureintro
  sl_unfold_run_names
  rw [View.read_writes_eq_canon _ _ _ (cover_acc1 _ _), View.canon_cons_unit_zero off_zero1, View.readCov_unit_zero _ off_zero1]
  simp only [View.readAt_eq_ld, View.ld_unit_zero (S := S2048x128) off_zero1, View.ld_unit_zero (S := S2048x1) off_zero1, View.ld_unit_zero (S := S512x2048) off_zero1]

set_option maxHeartbeats 2000000 in
/-- Column tiles 1 and 2: the accumulator takes this point's products over what it held; the output block's buffer is not
    touched. -/
theorem run1_B (c : Dev nD) (E : Set ℕ) (i : grid1.Coords)
    (arg2 : Memref sig .tc .vmem S512x2048 .f32) (harg2 : arg2.IsWhole) (arg3 : Memref sig .tc .vmem S2048x128 .f32) (harg3 : arg3.IsWhole)
    (arg4 : Memref sig .tc .vmem S512x1 .f32) (harg4 : arg4.IsWhole) (arg5 : Memref sig .tc .vmem S2048x1 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S512x64 .f32) (harg8 : arg8.IsWhole) (arg9 : Memref sig .tc .vmem S512x128 .f32) (harg9 : arg9.IsWhole)
    (hc0 : ¬condReset1 i) (hc1 : ¬condFin1 i)
    (x0 : Vec F S512x2048 .f32) (x1 : Vec F S2048x128 .f32) (x2 : Vec F S512x1 .f32) (x3 : Vec F S2048x1 .f32)
    (x4 : Vec F S128x64 .f32) (x5 : Vec F S1x64 .f32) (xo : Vec F S512x64 .f32) (xs : Vec F S512x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xo ∗ owns (c : Thread nD τ) arg9 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xo ∗ owns (c : Thread nD τ) arg9 fullShare (k1_pay2 x1 x3 x0 xs)) -∗ K ⟨⟩))
      ⊢ wp frame (wpE (defs₀ (F := F)) Variants.none c none) E (cc1_kernel i arg2 harg2 arg3 harg3 arg4 harg4 arg5 harg5 arg6 harg6 arg7 harg7 arg8 harg8 arg9 harg9) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  subst hf0 hf1 hf2 hf3 hf4 hf5 hf6 hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact HS
  ipureintro
  rw [View.read_writes_eq_canon _ _ _ (cover_acc1 _ _), View.canon_unit_zero off_zero1]
  simp only [View.readAt_eq_ld, View.ld_unit_zero (S := S2048x128) off_zero1, View.ld_unit_zero (S := S2048x1) off_zero1, View.ld_unit_zero (S := S512x2048) off_zero1, View.ld_unit_zero (S := S512x128) off_zero1]

set_option maxHeartbeats 2000000 in
/-- Column tile 3: the accumulator takes this point's products over what it held, and the output block, whatever its buffer
    held, is computed from the accumulator and stored. -/
theorem run1_C (c : Dev nD) (E : Set ℕ) (i : grid1.Coords)
    (arg2 : Memref sig .tc .vmem S512x2048 .f32) (harg2 : arg2.IsWhole) (arg3 : Memref sig .tc .vmem S2048x128 .f32) (harg3 : arg3.IsWhole)
    (arg4 : Memref sig .tc .vmem S512x1 .f32) (harg4 : arg4.IsWhole) (arg5 : Memref sig .tc .vmem S2048x1 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S512x64 .f32) (harg8 : arg8.IsWhole) (arg9 : Memref sig .tc .vmem S512x128 .f32) (harg9 : arg9.IsWhole)
    (hc0 : ¬condReset1 i) (hc1 : condFin1 i)
    (x0 : Vec F S512x2048 .f32) (x1 : Vec F S2048x128 .f32) (x2 : Vec F S512x1 .f32) (x3 : Vec F S2048x1 .f32)
    (x4 : Vec F S128x64 .f32) (x5 : Vec F S1x64 .f32) (xs : Vec F S512x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (k1_pay3 (k1_pay2 x1 x3 x0 xs) x2 x4 x5) ∗ owns (c : Thread nD τ) arg9 fullShare (k1_pay2 x1 x3 x0 xs)) -∗ K ⟨⟩))
      ⊢ wp frame (wpE (defs₀ (F := F)) Variants.none c none) E (cc1_kernel i arg2 harg2 arg3 harg3 arg4 harg4 arg5 harg5 arg6 harg6 arg7 harg7 arg8 harg8 arg9 harg9) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0 hf1 hf2 hf3 hf4 hf5 hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  have hacc : View.read (Elt F) arg9.view (arg9.view.writes (Elt F) fs
      [⟨Rect.unit ![0, 0] S512x128.size inb_S512x128_S512x128_0_0,
        k1_pay2 (View.readAt (Elt F) arg3.view (Rect.unit ![0, 0] S2048x128.size inb_S2048x128_S2048x128_0_0).toLoadRect f1)
          (View.readAt (Elt F) arg5.view (Rect.unit ![0, 0] S2048x1.size inb_S2048x1_S2048x1_0_0).toLoadRect f3)
          (View.readAt (Elt F) arg2.view (Rect.unit ![0, 0] S512x2048.size inb_S512x2048_S512x2048_0_0).toLoadRect f0)
          (View.readAt (Elt F) arg9.view (Rect.unit ![0, 0] S512x128.size inb_S512x128_S512x128_0_0).toLoadRect fs)⟩])
      = k1_pay2 (View.read (Elt F) arg3.view f1) (View.read (Elt F) arg5.view f3) (View.read (Elt F) arg2.view f0) (View.read (Elt F) arg9.view fs) := by
    rw [View.read_writes_eq_canon _ _ _ (cover_acc1 _ _), View.canon_unit_zero off_zero1]
    simp only [View.readAt_eq_ld, View.ld_unit_zero (S := S2048x128) off_zero1, View.ld_unit_zero (S := S2048x1) off_zero1, View.ld_unit_zero (S := S512x2048) off_zero1, View.ld_unit_zero (S := S512x128) off_zero1]
  isplitl [H6]
  · iexists _; isplitr
    swap; · iexact H6
    ipureintro
    sl_unfold_run_names
    rw [View.read_writes_eq_canon _ _ _ (cover_out1 _), View.canon_unit_zero off_zero1, View.readCov_unit_zero _ off_zero1]
    simp only [View.readAt_eq_ld, View.ld_unit_zero (S := S2048x128) off_zero1, View.ld_unit_zero (S := S2048x1) off_zero1, View.ld_unit_zero (S := S512x2048) off_zero1, View.ld_unit_zero (S := S512x128) off_zero1, View.ld_unit_zero (S := S512x1) off_zero1, View.ld_unit_zero (S := S128x64) off_zero1, View.ld_unit_zero (S := S1x64) off_zero1]
  iexists _; isplitr
  swap; · iexact HS
  ipureintro
  exact hacc

variable (V : (c : Dev nD) → (b : Ref sig .tc) → Buf (Elt F) ((c : Thread nD τ).loc b))

/-- The proof data's arrays are the region-entry contents. -/
theorem A_eq1 (c : Dev nD) (w : Fin cfg1.W) : (dat1 V c).A w = V c (Pipeline.arrRef spec1 w) := by
  dsimp only [dat1]

/-! ## Where the output window is idle, live, written back -/

/-- Away from column tile 3 the body stores nothing into the output block's buffer, -/
theorem idle1_6 : ∀ t : Fin cfg1.N, ¬t.val % 4 = 3 → cfg1.idle 6 (grid1.coords t) = true :=
  (by decide +kernel : ∀ t : Fin grid1.N, ¬t.val % 4 = 3 → idle1 6 (grid1.coords t) = true)
/-- and the block is not written back there; -/
theorem noFlush1_6 (t : Fin cfg1.N) (h : ¬t.val % 4 = 3) : (cfg1.win 6).flush t = false :=
  Bool.eq_false_iff.mpr fun hf => h ((flush1_6 t).mp hf)
/-- at column tile 3 it stores the block. -/
theorem live1_6 : ∀ t : Fin cfg1.N, t.val % 4 = 3 → cfg1.idle 6 (grid1.coords t) = false :=
  (by decide +kernel : ∀ t : Fin grid1.N, t.val % 4 = 3 → idle1 6 (grid1.coords t) = false)

/-! ## The accumulator, point by point -/

/-- At column tile 0 the accumulator is this point's products over the zero block. -/
theorem acc1_at_reset (c : Dev nD) (t : Fin cfg1.N) (h0 : t.val % 4 = 0) :
    sAt1 V c t.val t.isLt = k1_pay2 (xblk1 V c t) (dcol1 V c t) (ablk1 V c t) (k1_pay1 (F := F)) := by
  obtain ⟨n, hn⟩ := t
  cases n with
  | zero => rfl
  | succ n => exact if_pos h0

/-- At any other column tile it is this point's products over what the point before left. -/
theorem acc1_at_next (c : Dev nD) (t : Fin cfg1.N) (h0 : ¬t.val % 4 = 0) :
    sAt1 V c t.val t.isLt = k1_pay2 (xblk1 V c t) (dcol1 V c t) (ablk1 V c t)
      (sAt1 V c (t.val - 1) (Nat.lt_of_le_of_lt (Nat.sub_le _ _) t.isLt)) := by
  obtain ⟨n, hn⟩ := t
  cases n with
  | zero => exact absurd (Nat.zero_mod _) h0
  | succ n => exact if_neg h0

/-! ## The invariant, position by position -/

theorem PhiS1_zero (c : Dev nD) (n : ℕ) (h : n ≤ cfg1.N) (hz : n = 0) : PhiS1 V c n h = Pipeline.ΦA spec1 c := by
  subst hz; rfl

/-- After point `n`: the accumulator at what that point left. -/
theorem PhiS1_succ (c : Dev nD) (n : ℕ) (hn : n < cfg1.N) :
    PhiS1 V c (n + 1) hn = iprop(owns (c : Thread nD τ) (scM1) fullShare (sAt1 V c n hn)
      ∗ Pipeline.scopedRestBut (Ix := Unit) (Name := ℕ) (U := UR sig nD τ) (Lvl := ℕ) (Val := Elt F) spec1 c [cc1_scratch0]
      ∗ (∃ r, prngReg c r)) := rfl

/-- Before a point that is not the first: the accumulator at what the point before left. -/
theorem PhiS1_pos (c : Dev nD) (n : ℕ) (h : n ≤ cfg1.N) (hz : n ≠ 0) :
    PhiS1 V c n h = iprop(owns (c : Thread nD τ) (scM1) fullShare (sAt1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- The scoped buffers that are no staging buffer of this call, split at the accumulator. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- What the region is handed, with the accumulator as a memref owned at some contents. -/
theorem PhiA1_eq (c : Dev nD) :
    (Pipeline.ΦA (Val := Elt F) (U := UR sig nD τ) spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## What the body leaves and finds, window by window -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = oAt1 V c t := by dsimp only [dat1]

/-- Each input's current buffer holds its block at every point, fetched there or not: where it is not fetched its block
    index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d))
    ∗ (∃ d, owns (c : Thread nD τ) (win1_6.stage (cfg1.slots t 6)) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The body at any point: the inputs' buffers hold their blocks; the point's column tile says which case it is in; the
    invariant hands the body the accumulator at what the point before left (at anything before the first point) and takes it
    back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (win1_0.stage (cfg1.slots t 0)) fullShare ((dat1 V c).after 0 t) from rfl, after1_0]
  rw [show (dat1 V c).leavesExact 1 t = owns (c : Thread nD τ) (win1_1.stage (cfg1.slots t 1)) fullShare ((dat1 V c).after 1 t) from rfl, after1_1]
  rw [show (dat1 V c).leavesExact 2 t = owns (c : Thread nD τ) (win1_2.stage (cfg1.slots t 2)) fullShare ((dat1 V c).after 2 t) from rfl, after1_2]
  rw [show (dat1 V c).leavesExact 3 t = owns (c : Thread nD τ) (win1_3.stage (cfg1.slots t 3)) fullShare ((dat1 V c).after 3 t) from rfl, after1_3]
  rw [show (dat1 V c).leavesExact 4 t = owns (c : Thread nD τ) (win1_4.stage (cfg1.slots t 4)) fullShare ((dat1 V c).after 4 t) from rfl, after1_4]
  rw [show (dat1 V c).leavesExact 5 t = owns (c : Thread nD τ) (win1_5.stage (cfg1.slots t 5)) fullShare ((dat1 V c).after 5 t) from rfl, after1_5]
  have hN : t.val < 64 := lt_of_lt_of_eq t.isLt (show cfg1.N = 64 from N_1)
  by_cases h0 : t.val % 4 = 0
  · have h1 : ¬t.val % 4 = 3 := by omega
    rw [Dat.leavesExact_idle (dat1 V c) 6 t (idle1_6 t h1) (noFlush1_6 t h1)]
    rw [acc1_at_reset V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run1_A c Set.univ (grid1.coords t) _ _ _ _ _ _ _ _ _ _ _ _ _ _ _ _ ((condReset1_iff t).mpr h0) (fun h => h1 ((condFin1_iff t).mp h))
        (ablk1 V c t) (xblk1 V c t) (drow1 V c t) (dcol1 V c t) (wblk1 V c t) (bblk1 V c t) ((dat1 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
      iapply (run1_A c Set.univ (grid1.coords t) _ _ _ _ _ _ _ _ _ _ _ _ _ _ _ _ ((condReset1_iff t).mpr h0) (fun h => h1 ((condFin1_iff t).mp h))
        (ablk1 V c t) (xblk1 V c t) (drow1 V c t) (dcol1 V c t) (wblk1 V c t) (bblk1 V c t) ((dat1 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    rw [acc1_at_next V c t h0, PhiS1_castSucc V c t, PhiS1_pos V c _ _ hz]
    by_cases h1 : t.val % 4 = 3
    · rw [show (dat1 V c).leavesExact 6 t = owns (c : Thread nD τ) (win1_6.stage (cfg1.slots t 6)) fullShare ((dat1 V c).after 6 t) from by
        unfold Dat.leavesExact; rw [live1_6 t h1], after1_6]
      unfold oAt1
      rw [acc1_at_next V c t h0]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
      iapply (run1_C c Set.univ (grid1.coords t) _ _ _ _ _ _ _ _ _ _ _ _ _ _ _ _ (fun h => h0 ((condReset1_iff t).mp h)) ((condFin1_iff t).mpr h1)
        (ablk1 V c t) (xblk1 V c t) (drow1 V c t) (dcol1 V c t) (wblk1 V c t) (bblk1 V c t)
        (sAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 6 t (idle1_6 t h1) (noFlush1_6 t h1)]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
      iapply (run1_B c Set.univ (grid1.coords t) _ _ _ _ _ _ _ _ _ _ _ _ _ _ _ _ (fun h => h0 ((condReset1_iff t).mp h)) (fun h => h1 ((condFin1_iff t).mp h))
        (ablk1 V c t) (xblk1 V c t) (drow1 V c t) (dcol1 V c t) (wblk1 V c t) (bblk1 V c t) ((dat1 V c).before 6 t d6)
        (sAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : (Pipeline.ΦA (Val := Elt F) (U := UR sig nD τ) spec1 c : sProp 𝕄) ⊢ (dat1 V c).Φ 0 := by
  rw [show (dat1 V c).Φ 0 = PhiS1 V c 0 (Nat.zero_le _) from rfl, PhiS1_zero V c 0 _ rfl]

/-- After the last point the invariant gives back every scoped buffer that is no staging buffer at anything, and the
    generator register. -/
theorem hout1 (c : Dev nD) : (dat1 V c).Φ (Fin.last cfg1.N) ⊢ (Pipeline.ΦA (Val := Elt F) (U := UR sig nD τ) spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨HS, HR, Hg⟩
  isplitl [HS HR]
  · isplitl [HS]; · iexists _; iexact HS
    iexact HR
  iexact Hg

end Cert.KernelIdeal.Hand

end
-- ==== Proof.Region2Defs.lean ====
/-
  Region 2 of the program (the second layer), at the buffer contents `V` the region is entered from: each window's block at a
  grid point, what the accumulator holds after each point, what the output block holds after a row tile's last
  point, and the proof data of the pipeline over them.

  A grid point `t` is column tile `t % 4` of row tile `t / 4`. The accumulator is reset at column tile 0, takes this
  point's partial products at every point, and after column tile 3 it holds the whole row tile's products; the output block is
  computed from it there, and only there.
-/
import proofs.«132783_j15479062135163_1_alg».proof.Proof.Gen.KernelIdeal.Launch
import proofs.«132783_j15479062135163_1_alg».proof.Proof.Gen.KernelIdeal.Skeleton
import proofs.«132783_j15479062135163_1_alg».proof.Proof.Gen.KernelIdeal.Points
import Idealize.ShloMosaic.Lib.Pipeline.FrameBody
import Idealize.ShloMosaic.Lib.Pipeline.Frame
import Idealize.ShloMosaic.Lib.Pipeline.Kit

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency block of point `t`. -/
abbrev ablk2 (c : Dev nD) (t : Fin cfg2.N) : Vec F S512x2048 .f32 := iblk2 V c 0 t
/-- The feature block of point `t` (the rows of the column tile). -/
abbrev xblk2 (c : Dev nD) (t : Fin cfg2.N) : Vec F S2048x64 .f32 := iblk2 V c 1 t
/-- The scaling of the row tile's rows. -/
abbrev drow2 (c : Dev nD) (t : Fin cfg2.N) : Vec F S512x1 .f32 := iblk2 V c 2 t
/-- The scaling of the column tile's rows. -/
abbrev dcol2 (c : Dev nD) (t : Fin cfg2.N) : Vec F S2048x1 .f32 := iblk2 V c 3 t
/-- The weights. -/
abbrev wblk2 (c : Dev nD) (t : Fin cfg2.N) : Vec F S64x2 .f32 := iblk2 V c 4 t
/-- The bias row. -/
abbrev bblk2 (c : Dev nD) (t : Fin cfg2.N) : Vec F S1x2 .f32 := iblk2 V c 5 t

/-- The accumulator after point `n`: at column tile 0 this point's partial products over the zero block, otherwise over
    what the point before left. -/
def sAt2 (c : Dev nD) : (n : ℕ) → n < cfg2.N → Vec F S512x64 .f32
  | 0, hn => k2_pay2 (xblk2 V c ⟨0, hn⟩) (dcol2 V c ⟨0, hn⟩) (ablk2 V c ⟨0, hn⟩) (k2_pay1 (F := F))
  | n + 1, hn =>
    if (n + 1) % 4 = 0 then k2_pay2 (xblk2 V c ⟨n + 1, hn⟩) (dcol2 V c ⟨n + 1, hn⟩) (ablk2 V c ⟨n + 1, hn⟩) (k2_pay1 (F := F))
    else k2_pay2 (xblk2 V c ⟨n + 1, hn⟩) (dcol2 V c ⟨n + 1, hn⟩) (ablk2 V c ⟨n + 1, hn⟩) (sAt2 c n (Nat.lt_of_succ_lt hn))

/-- The output block computed at point `t` from the accumulator after `t` (stored, and written back, at column tile 3). -/
def oAt2 (c : Dev nD) (t : Fin cfg2.N) : Vec F S512x2 .f32 :=
  k2_pay3 (sAt2 V c t.val t.isLt) (drow2 V c t) (wblk2 V c t) (bblk2 V c t)

/-- The accumulator's memref: the call's scratch operand, whole. -/
abbrev scM2 : Memref sig .tc .vmem S512x64 .f32 := Memref.whole cc2_scratch0

/-- The region invariant before position `n`: before the first point every scoped buffer that is no staging buffer at
    anything and the generator register at some state; afterwards the accumulator at what the point before left, the other
    such buffers at anything, the generator register at some state. -/
def PhiS2 (c : Dev nD) : (n : ℕ) → n ≤ cfg2.N → sProp 𝕄
  | 0, _ => Pipeline.ΦA spec2 c
  | n + 1, hn => iprop(owns (c : Thread nD τ) (scM2) fullShare (sAt2 V c n hn)
      ∗ Pipeline.scopedRestBut (Ix := Unit) (Name := ℕ) (U := UR sig nD τ) (Lvl := ℕ) (Val := Elt F) spec2 c [cc2_scratch0]
      ∗ (∃ r, prngReg c r))

/-- The proof data of pipeline 2 on core `c`: the arrays as the region finds them; after the body at point `t` each
    input's buffer at its block and the output's at `oAt2`; the invariant `PhiS2`; nothing owed; the scaling array, read through two windows, held half by each, every other array whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => oAt2 V c t
  Φ t := PhiS2 V c t.val (Nat.le_of_lt_succ t.isLt)
  q w := match w with | ⟨2, _⟩ => fullShare.left | ⟨3, _⟩ => fullShare.right | _ => fullShare
  owed _ := 0

end Cert.KernelIdeal.Hand

end
-- ==== Proof.Region2.lean ====
/-
  Region 2: the body of the kernel at every grid point against the proof data of Proof/Region2Defs.lean — the
  accumulator reset at column tile 0, this point's partial result added at every point, the output block stored at
  column tile 3 — and the invariant at the region's two ends.
-/
import proofs.«132783_j15479062135163_1_alg».proof.Proof.Region2Defs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data's arrays are the region-entry contents. -/
theorem A_eq2 (c : Dev nD) (w : Fin cfg2.W) : (dat2 V c).A w = V c (Pipeline.arrRef spec2 w) := by
  dsimp only [dat2]

/-! ## The two branch conditions, in closed form over the grid -/

/-- The reset condition: the column-tile coordinate is 0. -/
abbrev cond2_0 (i : grid2.Coords) : Prop := (Scalar.cmpi .ne (Scalar.extui (Scalar.cmpi .eq (BitVec.ofNat 32 (i 1).val) 0#32)) 0#32) = 1#1
/-- It holds exactly at the first column tile of a row tile. -/
theorem hcond2_0 : ∀ t : Fin cfg2.N, cond2_0 (grid2.coords t) ↔ t.val % 4 = 0 :=
  (by decide +kernel : ∀ t : Fin grid2.N, cond2_0 (grid2.coords t) ↔ t.val % 4 = 0)

/-- The finalize condition: the column-tile coordinate is 3. -/
abbrev cond2_1 (i : grid2.Coords) : Prop := k2_cond2 i = 1#1
/-- It holds exactly at the last column tile of a row tile. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the output window is idle, live, written back -/

/-- Off the last column tile the output window is idle, -/
theorem idleAt2_6 : ∀ t : Fin cfg2.N, ¬ t.val % 4 = 3 → cfg2.idle 6 (grid2.coords t) = true :=
  (by decide +kernel : ∀ t : Fin grid2.N, ¬ t.val % 4 = 3 → idle2 6 (grid2.coords t) = true)
/-- and its block is not written back; -/
theorem noFlush2_6 : ∀ t : Fin cfg2.N, ¬ t.val % 4 = 3 → (cfg2.win 6).flush t = false :=
  (by decide +kernel : ∀ t : Fin grid2.N, ¬ t.val % 4 = 3 → win2_6.flush t = false)
/-- at the last column tile it is live. -/
theorem liveAt2_6 : ∀ t : Fin cfg2.N, t.val % 4 = 3 → cfg2.idle 6 (grid2.coords t) = false :=
  (by decide +kernel : ∀ t : Fin grid2.N, t.val % 4 = 3 → idle2 6 (grid2.coords t) = false)

/-! ## What the body leaves, and what it finds, window by window -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = oAt2 V c t := by dsimp only [dat2]

/-- Each input's current staging buffer holds its block at every point, fetched there or not: an input that is
    not fetched at a point has the block index of the point before, and the body leaves every input's block in place. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)

/-! ## The body's triple, case by case

Every load and every store of the body is of a whole buffer. On whole staging memrefs, each at the contents named, the
body runs to its continuation with the accumulator at the partial products added to what it held (the zero block when
it was reset first), and — at the last column tile — the output block computed from that accumulator. -/

theorem zeroOffsets2 : (![0, 0] : Fin 2 → Nat) = fun _ => 0 := funext fun a => by fin_cases a <;> rfl

set_option maxHeartbeats 1000000 in
/-- First column tile: the accumulator, at anything, is reset to the zero block and takes the point's partial products. -/
theorem run2_A (c : Dev nD) (E : Set ℕ) (i : grid2.Coords) (arg2 : Memref sig .tc .vmem S512x2048 .f32) (harg2 : arg2.IsWhole) (arg3 : Memref sig .tc .vmem S2048x64 .f32) (harg3 : arg3.IsWhole) (arg4 : Memref sig .tc .vmem S512x1 .f32) (harg4 : arg4.IsWhole) (arg5 : Memref sig .tc .vmem S2048x1 .f32) (harg5 : arg5.IsWhole) (arg6 : Memref sig .tc .vmem S64x2 .f32) (harg6 : arg6.IsWhole) (arg7 : Memref sig .tc .vmem S1x2 .f32) (harg7 : arg7.IsWhole) (arg8 : Memref sig .tc .vmem S512x2 .f32) (harg8 : arg8.IsWhole) (arg9 : Memref sig .tc .vmem S512x64 .f32) (harg9 : arg9.IsWhole) (hc0 : cond2_0 i) (hc1 : ¬cond2_1 i)
    (x0 : Vec F S512x2048 .f32) (x1 : Vec F S2048x64 .f32) (x3 : Vec F S2048x1 .f32) (K : PUnit → sProp 𝕄) :
    iprop(owns (c : Thread nD τ) arg2 fullShare x0 ∗ owns (c : Thread nD τ) arg3 fullShare x1 ∗ owns (c : Thread nD τ) arg5 fullShare x3 ∗ (∃ d, owns (c : Thread nD τ) arg9 fullShare d)
        ∗ (iprop(owns (c : Thread nD τ) arg2 fullShare x0 ∗ owns (c : Thread nD τ) arg3 fullShare x1 ∗ owns (c : Thread nD τ) arg5 fullShare x3 ∗ owns (c : Thread nD τ) arg9 fullShare (k2_pay2 x1 x3 x0 (k2_pay1 (F := F)))) -∗ K ⟨⟩))
      ⊢ wp frame (wpE (defs₀ (F := F)) Variants.none c none) E (cc2_kernel i arg2 harg2 arg3 harg3 arg4 harg4 arg5 harg5 arg6 harg6 arg7 harg7 arg8 harg8 arg9 harg9) K := by
  simp only [cc2_kernel_eq_skeleton]; unfold cc2_kernel_skel
  unfold owns
  iintro ⟨⟨%f0, %hf0, H0⟩, ⟨%f1, %hf1, H1⟩, ⟨%f3, %hf3, H3⟩, ⟨%ds, %fs, -, HS⟩, Hk⟩
  obtain rfl := harg2.eq_unread hf0; obtain rfl := harg3.eq_unread hf1; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H3]
  · iexists _; isplitr; · ipureintro; exact harg5.read_unread _
    iexact H3
  iexists _; isplitr
  swap; · iexact HS
  ipureintro
  sl_unfold_words
  rw [View.read_writes_eq_canon _ _ _ (fun y => ⟨_, List.mem_cons_self, View.mem_set_unit_zero zeroOffsets2 inb_S512x64_S512x64_0_0 y⟩)]
  rw [View.canon_cons_unit_zero (S := S512x64) zeroOffsets2]
  sl_unfold_words
  rw [View.readCov_unit_zero (S := S512x64) _ zeroOffsets2]
  simp only [View.readAt_eq_ld, harg2.read_unread, harg3.read_unread, harg5.read_unread,
    View.ld_unit_zero (S := S512x2048) zeroOffsets2, View.ld_unit_zero (S := S2048x64) zeroOffsets2, View.ld_unit_zero (S := S2048x1) zeroOffsets2]

set_option maxHeartbeats 1000000 in
/-- A middle column tile: the accumulator takes the point's partial products over what it held. -/
theorem run2_B (c : Dev nD) (E : Set ℕ) (i : grid2.Coords) (arg2 : Memref sig .tc .vmem S512x2048 .f32) (harg2 : arg2.IsWhole) (arg3 : Memref sig .tc .vmem S2048x64 .f32) (harg3 : arg3.IsWhole) (arg4 : Memref sig .tc .vmem S512x1 .f32) (harg4 : arg4.IsWhole) (arg5 : Memref sig .tc .vmem S2048x1 .f32) (harg5 : arg5.IsWhole) (arg6 : Memref sig .tc .vmem S64x2 .f32) (harg6 : arg6.IsWhole) (arg7 : Memref sig .tc .vmem S1x2 .f32) (harg7 : arg7.IsWhole) (arg8 : Memref sig .tc .vmem S512x2 .f32) (harg8 : arg8.IsWhole) (arg9 : Memref sig .tc .vmem S512x64 .f32) (harg9 : arg9.IsWhole) (hc0 : ¬cond2_0 i) (hc1 : ¬cond2_1 i)
    (x0 : Vec F S512x2048 .f32) (x1 : Vec F S2048x64 .f32) (x3 : Vec F S2048x1 .f32) (xs : Vec F S512x64 .f32) (K : PUnit → sProp 𝕄) :
    iprop(owns (c : Thread nD τ) arg2 fullShare x0 ∗ owns (c : Thread nD τ) arg3 fullShare x1 ∗ owns (c : Thread nD τ) arg5 fullShare x3 ∗ owns (c : Thread nD τ) arg9 fullShare xs
        ∗ (iprop(owns (c : Thread nD τ) arg2 fullShare x0 ∗ owns (c : Thread nD τ) arg3 fullShare x1 ∗ owns (c : Thread nD τ) arg5 fullShare x3 ∗ owns (c : Thread nD τ) arg9 fullShare (k2_pay2 x1 x3 x0 xs)) -∗ K ⟨⟩))
      ⊢ wp frame (wpE (defs₀ (F := F)) Variants.none c none) E (cc2_kernel i arg2 harg2 arg3 harg3 arg4 harg4 arg5 harg5 arg6 harg6 arg7 harg7 arg8 harg8 arg9 harg9) K := by
  simp only [cc2_kernel_eq_skeleton]; unfold cc2_kernel_skel
  unfold owns
  iintro ⟨⟨%f0, %hf0, H0⟩, ⟨%f1, %hf1, H1⟩, ⟨%f3, %hf3, H3⟩, ⟨%fs, %hfs, HS⟩, Hk⟩
  obtain rfl := harg2.eq_unread hf0; obtain rfl := harg3.eq_unread hf1; obtain rfl := harg5.eq_unread hf3; obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H3]
  · iexists _; isplitr; · ipureintro; exact harg5.read_unread _
    iexact H3
  iexists _; isplitr
  swap; · iexact HS
  ipureintro
  sl_unfold_words
  rw [View.read_writes_eq_canon _ _ _ (fun y => ⟨_, List.mem_singleton_self _, View.mem_set_unit_zero zeroOffsets2 inb_S512x64_S512x64_0_0 y⟩)]
  rw [View.canon_unit_zero (S := S512x64) zeroOffsets2]
  simp only [View.readAt_eq_ld, harg2.read_unread, harg3.read_unread, harg5.read_unread, harg9.read_unread,
    View.ld_unit_zero (S := S512x2048) zeroOffsets2, View.ld_unit_zero (S := S2048x64) zeroOffsets2, View.ld_unit_zero (S := S2048x1) zeroOffsets2, View.ld_unit_zero (S := S512x64) zeroOffsets2]

set_option maxHeartbeats 2000000 in
/-- Last column tile: the accumulator takes the point's partial products, and the output block, at anything before, is
    computed from it, the row scaling, the weights and the bias row. -/
theorem run2_C (c : Dev nD) (E : Set ℕ) (i : grid2.Coords) (arg2 : Memref sig .tc .vmem S512x2048 .f32) (harg2 : arg2.IsWhole) (arg3 : Memref sig .tc .vmem S2048x64 .f32) (harg3 : arg3.IsWhole) (arg4 : Memref sig .tc .vmem S512x1 .f32) (harg4 : arg4.IsWhole) (arg5 : Memref sig .tc .vmem S2048x1 .f32) (harg5 : arg5.IsWhole) (arg6 : Memref sig .tc .vmem S64x2 .f32) (harg6 : arg6.IsWhole) (arg7 : Memref sig .tc .vmem S1x2 .f32) (harg7 : arg7.IsWhole) (arg8 : Memref sig .tc .vmem S512x2 .f32) (harg8 : arg8.IsWhole) (arg9 : Memref sig .tc .vmem S512x64 .f32) (harg9 : arg9.IsWhole) (hc0 : ¬cond2_0 i) (hc1 : cond2_1 i)
    (x0 : Vec F S512x2048 .f32) (x1 : Vec F S2048x64 .f32) (x2 : Vec F S512x1 .f32) (x3 : Vec F S2048x1 .f32) (x4 : Vec F S64x2 .f32) (x5 : Vec F S1x2 .f32)
    (xs : Vec F S512x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k2_pay3 (k2_pay2 x1 x3 x0 xs) x2 x4 x5) ∗ owns (c : Thread nD τ) arg9 fullShare (k2_pay2 x1 x3 x0 xs)) -∗ K ⟨⟩))
      ⊢ wp frame (wpE (defs₀ (F := F)) Variants.none c none) E (cc2_kernel i arg2 harg2 arg3 harg3 arg4 harg4 arg5 harg5 arg6 harg6 arg7 harg7 arg8 harg8 arg9 harg9) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_words
    rw [View.read_writes_eq_canon _ _ _ (fun y => ⟨_, List.mem_singleton_self _, View.mem_set_unit_zero zeroOffsets2 inb_S512x2_S512x2_0_0 y⟩)]
    rw [View.canon_unit_zero (S := S512x2) zeroOffsets2]
    sl_unfold_words
    rw [View.readCov_unit_zero (S := S512x64) _ zeroOffsets2]
    simp only [View.readAt_eq_ld, harg2.read_unread, harg3.read_unread, harg4.read_unread, harg5.read_unread, harg6.read_unread, harg7.read_unread, harg9.read_unread,
      View.ld_unit_zero (S := S512x2048) zeroOffsets2, View.ld_unit_zero (S := S2048x64) zeroOffsets2, View.ld_unit_zero (S := S512x1) zeroOffsets2, View.ld_unit_zero (S := S2048x1) zeroOffsets2, View.ld_unit_zero (S := S64x2) zeroOffsets2, View.ld_unit_zero (S := S1x2) zeroOffsets2, View.ld_unit_zero (S := S512x64) zeroOffsets2]
  iexists _; isplitr
  swap; · iexact HS
  ipureintro
  sl_unfold_words
  rw [View.read_writes_eq_canon _ _ _ (fun y => ⟨_, List.mem_singleton_self _, View.mem_set_unit_zero zeroOffsets2 inb_S512x64_S512x64_0_0 y⟩)]
  rw [View.canon_unit_zero (S := S512x64) zeroOffsets2]
  simp only [View.readAt_eq_ld, harg2.read_unread, harg3.read_unread, harg5.read_unread, harg9.read_unread,
    View.ld_unit_zero (S := S512x2048) zeroOffsets2, View.ld_unit_zero (S := S2048x64) zeroOffsets2, View.ld_unit_zero (S := S2048x1) zeroOffsets2, View.ld_unit_zero (S := S512x64) zeroOffsets2]

/-! ## The accumulator point by point -/

/-- At a first column tile the accumulator holds the point's partial products over the zero block. -/
theorem sAt2_reset (c : Dev nD) (t : Fin cfg2.N) (h0 : t.val % 4 = 0) :
    sAt2 V c t.val t.isLt = k2_pay2 (xblk2 V c t) (dcol2 V c t) (ablk2 V c t) (k2_pay1 (F := F)) := by
  obtain ⟨n, hn⟩ := t
  cases n with
  | zero => exact rfl
  | succ n => exact (if_pos h0).trans rfl

/-- At any other column tile it holds them over what the point before left. -/
theorem sAt2_acc (c : Dev nD) (t : Fin cfg2.N) (h0 : ¬ t.val % 4 = 0) :
    sAt2 V c t.val t.isLt = k2_pay2 (xblk2 V c t) (dcol2 V c t) (ablk2 V c t)
      (sAt2 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The invariant position by position -/

theorem PhiS2_zero (c : Dev nD) (n : ℕ) (h : n ≤ cfg2.N) (hz : n = 0) : PhiS2 V c n h = Pipeline.ΦA spec2 c := by
  subst hz; rfl

/-- After point `n`: the accumulator at that point's contents. -/
theorem PhiS2_succ (c : Dev nD) (n : ℕ) (hn : n < cfg2.N) :
    PhiS2 V c (n + 1) hn = iprop(owns (c : Thread nD τ) (scM2) fullShare (sAt2 V c n hn)
      ∗ Pipeline.scopedRestBut (Ix := Unit) (Name := ℕ) (U := UR sig nD τ) (Lvl := ℕ) (Val := Elt F) spec2 c [cc2_scratch0]
      ∗ (∃ r, prngReg c r)) := rfl

/-- Before a point that is not the first: the accumulator at what the point before left. -/
theorem PhiS2_pos (c : Dev nD) (n : ℕ) (h : n ≤ cfg2.N) (hz : n ≠ 0) :
    PhiS2 V c n h = iprop(owns (c : Thread nD τ) (scM2) fullShare (sAt2 V c (n - 1) (by omega))
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

/-- What the region is handed, with the accumulator taken out of the scoped buffers: owned whole at some contents. -/
theorem PhiA2_eq (c : Dev nD) :
    (Pipeline.ΦA (Val := Elt F) (U := UR sig nD τ) spec2 c : sProp 𝕄)
      = iprop((∃ d, owns (c : Thread nD τ) (scM2) fullShare d)
        ∗ Pipeline.scopedRestBut (Ix := Unit) (Name := ℕ) (U := UR sig nD τ) (Lvl := ℕ) (Val := Elt F) spec2 c [cc2_scratch0]
        ∗ (∃ r, prngReg c r)) := by
  unfold Pipeline.ΦA
  rw [Pipeline.scopedRest_split_of_list spec2 c [cc2_scratch0] (by decide) (by decide)]
  simp only [bigSepL_singleton, scM2, owns_whole]
  exact BI.equiv_iff.mp ⟨Idealize.SL.BI.sep_assoc, Idealize.SL.BI.sep_assoc'⟩

/-- The invariant at a point's start, restated at the point's number. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## The body at a grid point -/

/-- Each window's current staging memref at point `t`, and its wholeness. -/
abbrev ms2_0 (t : Fin cfg2.N) : Memref sig .tc .vmem S512x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x2 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x2 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x2 .f32 := win2_6.stage (cfg2.slots t 6)
abbrev hs2_6 (t : Fin cfg2.N) : (ms2_6 t).IsWhole := hstage2_6 ((cfg2.slots t 6).cast nbuf2_6)

/-- What the body is called with at point `t`: the invariant, what the core owes, every window's current buffer at what it then holds, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

/-- What an input window's buffer is left at: its block (the window is never idle). -/
theorem leaves2_0 (c : Dev nD) (t : Fin cfg2.N) :
    (dat2 V c).leavesExact 0 t = owns (c : Thread nD τ) (ms2_0 t) fullShare (iblk2 V c 0 t) := by
  rw [show (dat2 V c).leavesExact 0 t = owns (c : Thread nD τ) (ms2_0 t) fullShare ((dat2 V c).after 0 t) from rfl, after2_0]
theorem leaves2_1 (c : Dev nD) (t : Fin cfg2.N) :
    (dat2 V c).leavesExact 1 t = owns (c : Thread nD τ) (ms2_1 t) fullShare (iblk2 V c 1 t) := by
  rw [show (dat2 V c).leavesExact 1 t = owns (c : Thread nD τ) (ms2_1 t) fullShare ((dat2 V c).after 1 t) from rfl, after2_1]
theorem leaves2_2 (c : Dev nD) (t : Fin cfg2.N) :
    (dat2 V c).leavesExact 2 t = owns (c : Thread nD τ) (ms2_2 t) fullShare (iblk2 V c 2 t) := by
  rw [show (dat2 V c).leavesExact 2 t = owns (c : Thread nD τ) (ms2_2 t) fullShare ((dat2 V c).after 2 t) from rfl, after2_2]
theorem leaves2_3 (c : Dev nD) (t : Fin cfg2.N) :
    (dat2 V c).leavesExact 3 t = owns (c : Thread nD τ) (ms2_3 t) fullShare (iblk2 V c 3 t) := by
  rw [show (dat2 V c).leavesExact 3 t = owns (c : Thread nD τ) (ms2_3 t) fullShare ((dat2 V c).after 3 t) from rfl, after2_3]
theorem leaves2_4 (c : Dev nD) (t : Fin cfg2.N) :
    (dat2 V c).leavesExact 4 t = owns (c : Thread nD τ) (ms2_4 t) fullShare (iblk2 V c 4 t) := by
  rw [show (dat2 V c).leavesExact 4 t = owns (c : Thread nD τ) (ms2_4 t) fullShare ((dat2 V c).after 4 t) from rfl, after2_4]
theorem leaves2_5 (c : Dev nD) (t : Fin cfg2.N) :
    (dat2 V c).leavesExact 5 t = owns (c : Thread nD τ) (ms2_5 t) fullShare (iblk2 V c 5 t) := by
  rw [show (dat2 V c).leavesExact 5 t = owns (c : Thread nD τ) (ms2_5 t) fullShare ((dat2 V c).after 5 t) from rfl, after2_5]
/-- At a last column tile the output window's buffer is left at the output block. -/
theorem leaves2_6_live (c : Dev nD) (t : Fin cfg2.N) (h1 : t.val % 4 = 3) :
    (dat2 V c).leavesExact 6 t = owns (c : Thread nD τ) (ms2_6 t) fullShare (oAt2 V c t) := by
  rw [show (dat2 V c).leavesExact 6 t = owns (c : Thread nD τ) (ms2_6 t) fullShare ((dat2 V c).after 6 t) from by
    unfold Dat.leavesExact; rw [liveAt2_6 t h1], after2_6]

set_option maxHeartbeats 4800000 in
/-- The body at any point. The inputs' buffers hold their blocks; the point's column tile says which case it is in.
    The invariant hands the body the accumulator at what the point before left (at anything before the first point)
    and takes it back at this point's contents; the other scoped buffers, the generator register and what the core
    owes pass through unread; off the last column tile the output's buffer is handed back untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5]
  have hN : t.val < 64 := lt_of_lt_of_eq t.isLt (show cfg2.N = 64 from N_2)
  by_cases h0 : t.val % 4 = 0
  · have h1 : ¬ t.val % 4 = 3 := by omega
    rw [Dat.leavesExact_idle (dat2 V c) 6 t (idleAt2_6 t h1) (noFlush2_6 t h1)]
    rw [sAt2_reset V c t h0]
    by_cases hz : t.val = 0
    · rw [PhiS2_castSucc V c t, PhiS2_zero V c _ _ hz, PhiA2_eq]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
      iapply (run2_A c Set.univ (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => h1 ((hcond2_1 t).mp h)) (ablk2 V c t) (xblk2 V c t) (dcol2 V c t) _)
      isplitl [H0]; · iexact H0
      isplitl [H1]; · iexact H1
      isplitl [H3]; · iexact H3
      isplitl [HS]; · iexact HS
      iintro ⟨H0, H1, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS2_castSucc V c t, PhiS2_pos V c _ _ hz]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
      iapply (run2_A c Set.univ (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => h1 ((hcond2_1 t).mp h)) (ablk2 V c t) (xblk2 V c t) (dcol2 V c t) _)
      isplitl [H0]; · iexact H0
      isplitl [H1]; · iexact H1
      isplitl [H3]; · iexact H3
      isplitl [HS]; · iexists _; iexact HS
      iintro ⟨H0, H1, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    rw [sAt2_acc V c t h0]
    rw [PhiS2_castSucc V c t, PhiS2_pos V c _ _ hz]
    by_cases h1 : t.val % 4 = 3
    · rw [leaves2_6_live V c t h1]
      unfold oAt2
      rw [sAt2_acc V c t h0]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
      iapply (run2_C c Set.univ (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (ablk2 V c t) (xblk2 V c t) (drow2 V c t) (dcol2 V c t) (wblk2 V c t) (bblk2 V c t) (sAt2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat2 V c) 6 t (idleAt2_6 t h1) (noFlush2_6 t h1)]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
      iapply (run2_B c Set.univ (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) (fun h => h1 ((hcond2_1 t).mp h)) (ablk2 V c t) (xblk2 V c t) (dcol2 V c t) (sAt2 V c (t.val - 1) (Nat.lt_of_le_of_lt (Nat.sub_le _ _) t.isLt)) _)
      isplitl [H0]; · iexact H0
      isplitl [H1]; · iexact H1
      isplitl [H3]; · iexact H3
      isplitl [HS]; · iexact HS
      iintro ⟨H0, H1, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of pipeline 2, at every point. -/
theorem body_obligation2 (c : Dev nD) : BodyObligation (dat2 (F := F) V c) (defs₀ (F := F)) Variants.none () Set.univ := by
  intro t
  rw [bigSep_W2, bigSep_W2]
  exact sound_body2 V c t

/-- What the region is handed is the invariant before the first point. -/
theorem hin2 (c : Dev nD) : (Pipeline.ΦA (Val := Elt F) (U := UR sig nD τ) spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives back every scoped buffer that is no staging buffer at anything, and the
    generator register. -/
theorem hout2 (c : Dev nD) : (dat2 V c).Φ (Fin.last cfg2.N) ⊢ (Pipeline.ΦA (Val := Elt F) (U := UR sig nD τ) spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨HS, Hr, Hg⟩
  isplitl [HS]; · iexists _; iexact HS
  isplitl [Hr]; · iexact Hr
  iexact Hg

end Cert.KernelIdeal.Hand

end
-- ==== Proof.SharedArr.lean ====
/-
  Regions 1 and 2 read the scaling array through TWO windows (the row tile's rows and the column tile's rows). The
  pipeline holds each window's array at that window's share, so the one buffer behind the two windows is held as two
  halves of the full share: split at the region's entry, joined again at its exit, where both halves still hold the
  entry contents (an input window's array is never written).
-/
import proofs.«132783_j15479062135163_1_alg».proof.Proof.Region1Defs
import proofs.«132783_j15479062135163_1_alg».proof.Proof.Region2Defs
import Idealize.ShloMosaic.Lib.Pipeline.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind region 1's windows, each listed once: the scaling array stands behind two windows. -/
theorem arrImage1 : Finset.univ.image (Pipeline.arrRef spec1)
    = [main_arg1, main_arg0, main_v0, main_arg2, main_v1, main_v3].toFinset := by decide

/-- They are arrays of @main, none of them scoped. -/
theorem arrSub1 : Finset.univ.image (Pipeline.arrRef spec1) ⊆ Finset.univ.filter fun b : Ref sig .tc => ¬ b.isScoped := by decide

/-- The core's unscoped buffers at a valuation `W`: the six buffers behind region 1's windows, each whole at the full
    share, and the buffers no window reads. -/
theorem unscopedBufs_split1 (c : Dev nD) (W : (b : Ref sig .tc) → Buf (Elt F) ((c : Thread nD τ).loc b)) :
    (unscopedBufs c W : sProp 𝕄)
      = iprop(((((c : Thread nD τ).loc main_arg1) ↦{fullShare} W main_arg1) ∗ (((c : Thread nD τ).loc main_arg0) ↦{fullShare} W main_arg0)
          ∗ (((c : Thread nD τ).loc main_v0) ↦{fullShare} W main_v0) ∗ (((c : Thread nD τ).loc main_arg2) ↦{fullShare} W main_arg2)
          ∗ (((c : Thread nD τ).loc main_v1) ↦{fullShare} W main_v1) ∗ (((c : Thread nD τ).loc main_v3) ↦{fullShare} W main_v3))
        ∗ Pipeline.unscopedRest (Ix := Unit) (Name := ℕ) (U := UR sig nD τ) (Lvl := ℕ) spec1 c W) := by
  unfold unscopedBufs Pipeline.unscopedRest
  rw [bigSep_sdiff_split arrSub1, bigSep_eq_bigSepL_of_eq _ arrImage1 (by decide)]
  rfl

/-- Region 1's arrays at contents `G`, window by window: each a whole buffer, the scaling array's two windows at the two
    halves of the full share, every other at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg1) ↦{fullShare} G 0) ∗ (((c : Thread nD τ).loc main_arg0) ↦{fullShare} G 1)
          ∗ (((c : Thread nD τ).loc main_v0) ↦{fullShare.left} G 2) ∗ (((c : Thread nD τ).loc main_v0) ↦{fullShare.right} G 3)
          ∗ (((c : Thread nD τ).loc main_arg2) ↦{fullShare} G 4) ∗ (((c : Thread nD τ).loc main_v1) ↦{fullShare} G 5)
          ∗ (((c : Thread nD τ).loc main_v3) ↦{fullShare} G 6)) := by
  unfold Dat.arrays
  rw [bigSep_W1]
  rw [(arr_whole1 0).set_eq_univ, (arr_whole1 1).set_eq_univ, (arr_whole1 2).set_eq_univ,
    (arr_whole1 4).set_eq_univ, (arr_whole1 5).set_eq_univ, (arr_whole1 6).set_eq_univ]
  rfl

/-- ENTRY of region 1: the core's unscoped buffers at `V` are the windows' arrays at the proof data's entry contents —
    the scaling array, which two windows read, split into its two halves — and the buffers no window reads. -/
theorem arrays_of_unscopedBufs1 (c : Dev nD) :
    (unscopedBufs c (V c) : sProp 𝕄) ⊢ iprop((dat1 V c).arrays ((dat1 V c).arrAt · 0)
      ∗ Pipeline.unscopedRest (Ix := Unit) (Name := ℕ) (U := UR sig nD τ) (Lvl := ℕ) spec1 c (V c)) := by
  rw [unscopedBufs_split1, arrays1_eq]
  refine sep_mono ?_ .rfl
  -- each window's entry contents are the valuation's at the buffer behind it; the scaling array's full share is its two halves
  show iprop((((c : Thread nD τ).loc main_arg1) ↦{fullShare} V c main_arg1) ∗ (((c : Thread nD τ).loc main_arg0) ↦{fullShare} V c main_arg0)
          ∗ (((c : Thread nD τ).loc main_v0) ↦{fullShare} V c main_v0) ∗ (((c : Thread nD τ).loc main_arg2) ↦{fullShare} V c main_arg2)
          ∗ (((c : Thread nD τ).loc main_v1) ↦{fullShare} V c main_v1) ∗ (((c : Thread nD τ).loc main_v3) ↦{fullShare} V c main_v3))
    ⊢ (iprop((((c : Thread nD τ).loc main_arg1) ↦{fullShare} V c main_arg1) ∗ (((c : Thread nD τ).loc main_arg0) ↦{fullShare} V c main_arg0)
          ∗ (((c : Thread nD τ).loc main_v0) ↦{fullShare.left} V c main_v0) ∗ (((c : Thread nD τ).loc main_v0) ↦{fullShare.right} V c main_v0)
          ∗ (((c : Thread nD τ).loc main_arg2) ↦{fullShare} V c main_arg2) ∗ (((c : Thread nD τ).loc main_v1) ↦{fullShare} V c main_v1)
          ∗ (((c : Thread nD τ).loc main_v3) ↦{fullShare} V c main_v3)) : sProp 𝕄)
  exact sep_mono .rfl (sep_mono .rfl
    ((sep_mono (pointsTo_share (PosShare.mem_left_op_right fullShare)).1 .rfl).trans sep_assoc.1))

/-- EXIT of region 1: the windows' arrays at what the region leaves in them (the inputs as entered: the two halves of the
    scaling array hold the same contents and join) and the buffers no window reads are the core's unscoped buffers at
    any valuation `V'` that agrees with those. -/
theorem unscopedBufs_of_arrays1 (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N)
      ∗ Pipeline.unscopedRest (Ix := Unit) (Name := ℕ) (U := UR sig nD τ) (Lvl := ℕ) spec1 c (V c)) ⊢ (unscopedBufs c V' : sProp 𝕄) := by
  -- the arrays' contents at the exit are `V'` at the buffers behind them
  rw [show ((dat1 V c).arrAt · cfg1.N) = fun w => V' (Pipeline.arrRef spec1 w) from funext hF]
  -- the buffers no window reads hold under `V'` what they hold under `V`
  rw [show (Pipeline.unscopedRest (Ix := Unit) (Name := ℕ) (U := UR sig nD τ) (Lvl := ℕ) spec1 c (V c) : sProp 𝕄)
      = Pipeline.unscopedRest (Ix := Unit) (Name := ℕ) (U := UR sig nD τ) (Lvl := ℕ) spec1 c V' from by
    unfold Pipeline.unscopedRest
    exact bigSep_congr fun b hb => by rw [hrest b (Finset.mem_sdiff.mp hb).2]]
  rw [unscopedBufs_split1, arrays1_eq]
  refine sep_mono ?_ .rfl
  -- the two halves of the scaling array hold the same contents: they join into the full share
  show (iprop((((c : Thread nD τ).loc main_arg1) ↦{fullShare} V' main_arg1) ∗ (((c : Thread nD τ).loc main_arg0) ↦{fullShare} V' main_arg0)
          ∗ (((c : Thread nD τ).loc main_v0) ↦{fullShare.left} V' main_v0) ∗ (((c : Thread nD τ).loc main_v0) ↦{fullShare.right} V' main_v0)
          ∗ (((c : Thread nD τ).loc main_arg2) ↦{fullShare} V' main_arg2) ∗ (((c : Thread nD τ).loc main_v1) ↦{fullShare} V' main_v1)
          ∗ (((c : Thread nD τ).loc main_v3) ↦{fullShare} V' main_v3)) : sProp 𝕄)
    ⊢ iprop((((c : Thread nD τ).loc main_arg1) ↦{fullShare} V' main_arg1) ∗ (((c : Thread nD τ).loc main_arg0) ↦{fullShare} V' main_arg0)
          ∗ (((c : Thread nD τ).loc main_v0) ↦{fullShare} V' main_v0) ∗ (((c : Thread nD τ).loc main_arg2) ↦{fullShare} V' main_arg2)
          ∗ (((c : Thread nD τ).loc main_v1) ↦{fullShare} V' main_v1) ∗ (((c : Thread nD τ).loc main_v3) ↦{fullShare} V' main_v3))
  exact sep_mono .rfl (sep_mono .rfl
    (sep_assoc.2.trans (sep_mono (pointsTo_share (PosShare.mem_left_op_right fullShare)).2 .rfl)))

/-- The buffers behind region 2's windows, each listed once: the scaling array stands behind two windows. -/
theorem arrImage2 : Finset.univ.image (Pipeline.arrRef spec2)
    = [main_arg1, main_v3, main_v0, main_arg4, main_v2, main_v4].toFinset := by decide

/-- They are arrays of @main, none of them scoped. -/
theorem arrSub2 : Finset.univ.image (Pipeline.arrRef spec2) ⊆ Finset.univ.filter fun b : Ref sig .tc => ¬ b.isScoped := by decide

/-- The core's unscoped buffers at a valuation `W`: the six buffers behind region 2's windows, each whole at the full
    share, and the buffers no window reads. -/
theorem unscopedBufs_split2 (c : Dev nD) (W : (b : Ref sig .tc) → Buf (Elt F) ((c : Thread nD τ).loc b)) :
    (unscopedBufs c W : sProp 𝕄)
      = iprop(((((c : Thread nD τ).loc main_arg1) ↦{fullShare} W main_arg1) ∗ (((c : Thread nD τ).loc main_v3) ↦{fullShare} W main_v3)
          ∗ (((c : Thread nD τ).loc main_v0) ↦{fullShare} W main_v0) ∗ (((c : Thread nD τ).loc main_arg4) ↦{fullShare} W main_arg4)
          ∗ (((c : Thread nD τ).loc main_v2) ↦{fullShare} W main_v2) ∗ (((c : Thread nD τ).loc main_v4) ↦{fullShare} W main_v4))
        ∗ Pipeline.unscopedRest (Ix := Unit) (Name := ℕ) (U := UR sig nD τ) (Lvl := ℕ) spec2 c W) := by
  unfold unscopedBufs Pipeline.unscopedRest
  rw [bigSep_sdiff_split arrSub2, bigSep_eq_bigSepL_of_eq _ arrImage2 (by decide)]
  rfl

/-- Region 2's arrays at contents `G`, window by window: each a whole buffer, the scaling array's two windows at the two
    halves of the full share, every other at the full share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_arg1) ↦{fullShare} G 0) ∗ (((c : Thread nD τ).loc main_v3) ↦{fullShare} G 1)
          ∗ (((c : Thread nD τ).loc main_v0) ↦{fullShare.left} G 2) ∗ (((c : Thread nD τ).loc main_v0) ↦{fullShare.right} G 3)
          ∗ (((c : Thread nD τ).loc main_arg4) ↦{fullShare} G 4) ∗ (((c : Thread nD τ).loc main_v2) ↦{fullShare} G 5)
          ∗ (((c : Thread nD τ).loc main_v4) ↦{fullShare} G 6)) := by
  unfold Dat.arrays
  rw [bigSep_W2]
  rw [(arr_whole2 0).set_eq_univ, (arr_whole2 1).set_eq_univ, (arr_whole2 2).set_eq_univ,
    (arr_whole2 4).set_eq_univ, (arr_whole2 5).set_eq_univ, (arr_whole2 6).set_eq_univ]
  rfl

/-- ENTRY of region 2: the core's unscoped buffers at `V` are the windows' arrays at the proof data's entry contents —
    the scaling array, which two windows read, split into its two halves — and the buffers no window reads. -/
theorem arrays_of_unscopedBufs2 (c : Dev nD) :
    (unscopedBufs c (V c) : sProp 𝕄) ⊢ iprop((dat2 V c).arrays ((dat2 V c).arrAt · 0)
      ∗ Pipeline.unscopedRest (Ix := Unit) (Name := ℕ) (U := UR sig nD τ) (Lvl := ℕ) spec2 c (V c)) := by
  rw [unscopedBufs_split2, arrays2_eq]
  refine sep_mono ?_ .rfl
  -- each window's entry contents are the valuation's at the buffer behind it; the scaling array's full share is its two halves
  show iprop((((c : Thread nD τ).loc main_arg1) ↦{fullShare} V c main_arg1) ∗ (((c : Thread nD τ).loc main_v3) ↦{fullShare} V c main_v3)
          ∗ (((c : Thread nD τ).loc main_v0) ↦{fullShare} V c main_v0) ∗ (((c : Thread nD τ).loc main_arg4) ↦{fullShare} V c main_arg4)
          ∗ (((c : Thread nD τ).loc main_v2) ↦{fullShare} V c main_v2) ∗ (((c : Thread nD τ).loc main_v4) ↦{fullShare} V c main_v4))
    ⊢ (iprop((((c : Thread nD τ).loc main_arg1) ↦{fullShare} V c main_arg1) ∗ (((c : Thread nD τ).loc main_v3) ↦{fullShare} V c main_v3)
          ∗ (((c : Thread nD τ).loc main_v0) ↦{fullShare.left} V c main_v0) ∗ (((c : Thread nD τ).loc main_v0) ↦{fullShare.right} V c main_v0)
          ∗ (((c : Thread nD τ).loc main_arg4) ↦{fullShare} V c main_arg4) ∗ (((c : Thread nD τ).loc main_v2) ↦{fullShare} V c main_v2)
          ∗ (((c : Thread nD τ).loc main_v4) ↦{fullShare} V c main_v4)) : sProp 𝕄)
  exact sep_mono .rfl (sep_mono .rfl
    ((sep_mono (pointsTo_share (PosShare.mem_left_op_right fullShare)).1 .rfl).trans sep_assoc.1))

/-- EXIT of region 2: the windows' arrays at what the region leaves in them (the inputs as entered: the two halves of the
    scaling array hold the same contents and join) and the buffers no window reads are the core's unscoped buffers at
    any valuation `V'` that agrees with those. -/
theorem unscopedBufs_of_arrays2 (c : Dev nD) (V' : (b : Ref sig .tc) → Buf (Elt F) ((c : Thread nD τ).loc b))
    (hF : ∀ w, (dat2 V c).arrAt w cfg2.N = V' (Pipeline.arrRef spec2 w))
    (hrest : ∀ b, b ∉ Finset.univ.image (Pipeline.arrRef spec2) → V' b = V c b) :
    iprop((dat2 V c).arrays ((dat2 V c).arrAt · cfg2.N)
      ∗ Pipeline.unscopedRest (Ix := Unit) (Name := ℕ) (U := UR sig nD τ) (Lvl := ℕ) spec2 c (V c)) ⊢ (unscopedBufs c V' : sProp 𝕄) := by
  -- the arrays' contents at the exit are `V'` at the buffers behind them
  rw [show ((dat2 V c).arrAt · cfg2.N) = fun w => V' (Pipeline.arrRef spec2 w) from funext hF]
  -- the buffers no window reads hold under `V'` what they hold under `V`
  rw [show (Pipeline.unscopedRest (Ix := Unit) (Name := ℕ) (U := UR sig nD τ) (Lvl := ℕ) spec2 c (V c) : sProp 𝕄)
      = Pipeline.unscopedRest (Ix := Unit) (Name := ℕ) (U := UR sig nD τ) (Lvl := ℕ) spec2 c V' from by
    unfold Pipeline.unscopedRest
    exact bigSep_congr fun b hb => by rw [hrest b (Finset.mem_sdiff.mp hb).2]]
  rw [unscopedBufs_split2, arrays2_eq]
  refine sep_mono ?_ .rfl
  -- the two halves of the scaling array hold the same contents: they join into the full share
  show (iprop((((c : Thread nD τ).loc main_arg1) ↦{fullShare} V' main_arg1) ∗ (((c : Thread nD τ).loc main_v3) ↦{fullShare} V' main_v3)
          ∗ (((c : Thread nD τ).loc main_v0) ↦{fullShare.left} V' main_v0) ∗ (((c : Thread nD τ).loc main_v0) ↦{fullShare.right} V' main_v0)
          ∗ (((c : Thread nD τ).loc main_arg4) ↦{fullShare} V' main_arg4) ∗ (((c : Thread nD τ).loc main_v2) ↦{fullShare} V' main_v2)
          ∗ (((c : Thread nD τ).loc main_v4) ↦{fullShare} V' main_v4)) : sProp 𝕄)
    ⊢ iprop((((c : Thread nD τ).loc main_arg1) ↦{fullShare} V' main_arg1) ∗ (((c : Thread nD τ).loc main_v3) ↦{fullShare} V' main_v3)
          ∗ (((c : Thread nD τ).loc main_v0) ↦{fullShare} V' main_v0) ∗ (((c : Thread nD τ).loc main_arg4) ↦{fullShare} V' main_arg4)
          ∗ (((c : Thread nD τ).loc main_v2) ↦{fullShare} V' main_v2) ∗ (((c : Thread nD τ).loc main_v4) ↦{fullShare} V' main_v4))
  exact sep_mono .rfl (sep_mono .rfl
    (sep_assoc.2.trans (sep_mono (pointsTo_share (PosShare.mem_left_op_right fullShare)).2 .rfl)))

end Cert.KernelIdeal.Hand

end
-- ==== Proof.Run.lean ====
/-
  The run of the whole program: region 0, the two host reshapes, region 1, region 2, from the launch memory to the
  return. Between two items every unscoped buffer of the core is held at a named valuation: the launch contents, then
  what each item leaves — a region's output array at what its write-backs leave, a host stretch's results at the
  operations' values, everything else untouched. At the end every unscoped buffer is read at the last valuation.
-/
import proofs.«132783_j15479062135163_1_alg».proof.Proof.Region0
import proofs.«132783_j15479062135163_1_alg».proof.Proof.Region1
import proofs.«132783_j15479062135163_1_alg».proof.Proof.Region2
import proofs.«132783_j15479062135163_1_alg».proof.Proof.SharedArr
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- The same read at the TensorCore's references (what region 0's proof data take). -/
abbrev V0 : (c : Dev nD) → (b : Ref sig .tc) → Buf (Elt F) ((c : Thread nD τ).loc b) := fun c b => W0 m c b
/-- After region 0: the scaling array at what the region's write-backs leave, every other buffer as launched. -/
def W1 (c : Dev nD) : Valuation τ sig (Elt F) :=
  Function.update (W0 m c) main_v0 ((dat0 (V0 m) c).arrAt 1 cfg0.N)
abbrev V1 : (c : Dev nD) → (b : Ref sig .tc) → Buf (Elt F) ((c : Thread nD τ).loc b) := fun c b => W1 m c b
/-- After the two reshapes (region 1's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After region 1: the hidden array at what the region leaves, every other buffer as entered. -/
def W3 (c : Dev nD) : Valuation τ sig (Elt F) :=
  Function.update (W2 m c) main_v3 ((dat1 (V2 m) c).arrAt 6 cfg1.N)
abbrev V3 : (c : Dev nD) → (b : Ref sig .tc) → Buf (Elt F) ((c : Thread nD τ).loc b) := fun c b => W3 m c b
/-- After region 2: the result array at what the region leaves, every other buffer as entered. -/
def W4 (c : Dev nD) : Valuation τ sig (Elt F) :=
  Function.update (W3 m c) main_v4 ((dat2 (V3 m) c).arrAt 6 cfg2.N)
abbrev V4 : (c : Dev nD) → (b : Ref sig .tc) → Buf (Elt F) ((c : Thread nD τ).loc b) := fun c b => W4 m c b

theorem W1_out (c : Dev nD) : W1 m c main_v0 = (dat0 (V0 m) c).arrAt 1 cfg0.N := by
  unfold W1; exact Function.update_self ..
theorem W1_of_ne (c : Dev nD) (b : Ref sig .tc) (h : b ≠ main_v0) : W1 m c b = W0 m c b := by
  unfold W1; exact Function.update_of_ne (StableHlo.devRef_ne_of_ne h) ..
theorem W3_out (c : Dev nD) : W3 m c main_v3 = (dat1 (V2 m) c).arrAt 6 cfg1.N := by
  unfold W3; exact Function.update_self ..
theorem W3_of_ne (c : Dev nD) (b : Ref sig .tc) (h : b ≠ main_v3) : W3 m c b = W2 m c b := by
  unfold W3; exact Function.update_of_ne (StableHlo.devRef_ne_of_ne h) ..
theorem W4_out (c : Dev nD) : W4 m c main_v4 = (dat2 (V3 m) c).arrAt 6 cfg2.N := by
  unfold W4; exact Function.update_self ..
theorem W4_of_ne (c : Dev nD) (b : Ref sig .tc) (h : b ≠ main_v4) : W4 m c b = W3 m c b := by
  unfold W4; exact Function.update_of_ne (StableHlo.devRef_ne_of_ne h) ..

/-- The references the two reshapes write. -/
theorem hostOps1_writes : (hostOps1 : List (HloOp τ sig (Elt F))).Forall fun op => op.writes ⊆ (([main_v1, main_v2] : List (Ref sig .tc)).map (Proc.devRef (τ := τ) .tc)).toFinset := by
  simp only [List.Forall]
  exact ⟨by simp only [StableHlo.reshape_writes, Finset.singleton_subset_iff, List.mem_toFinset]; exact List.mem_map_of_mem (by decide),
    by simp only [StableHlo.reshape_writes, Finset.singleton_subset_iff, List.mem_toFinset]; exact List.mem_map_of_mem (by decide)⟩
theorem W2_of (c : Dev nD) (r : Ref sig .tc) (h : r ∉ ([main_v1, main_v2] : List (Ref sig .tc))) : W2 m c r = W1 m c r :=
  StableHlo.after_of_writes_sub hostOps1 _ hostOps1_writes h

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at
    nothing. -/
abbrev R (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor

/-- The host stretch as a segment over the unscoped references from the contents `W1`. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## What each region leaves in its arrays, against the next valuation -/

theorem hF0 (c : Dev nD) (w : Fin cfg0.W) : (dat0 (V0 m) c).arrAt w cfg0.N = V1 m c (Pipeline.arrRef spec0 w) := by
  match w with
  | ⟨0, _⟩ => exact ((dat0 (V0 m) c).arrAt_in 0 rfl _).trans ((A_eq0 (V0 m) c 0).trans (W1_of_ne m c main_arg1 (by decide)).symm)
  | ⟨1, _⟩ => exact (W1_out m c).symm
theorem hrest0 (c : Dev nD) : ∀ b, b ∉ Finset.univ.image (Pipeline.arrRef spec0) → V1 m c b = V0 m c b :=
  fun b hb => W1_of_ne m c b fun e => hb (Finset.mem_image.mpr ⟨1, Finset.mem_univ _, e.symm⟩)

theorem hF1 (c : Dev nD) (w : Fin cfg1.W) : (dat1 (V2 m) c).arrAt w cfg1.N = V3 m c (Pipeline.arrRef spec1 w) := by
  match w with
  | ⟨0, _⟩ => exact ((dat1 (V2 m) c).arrAt_in 0 rfl _).trans ((A_eq1 (V2 m) c 0).trans (W3_of_ne m c main_arg1 (by decide)).symm)
  | ⟨1, _⟩ => exact ((dat1 (V2 m) c).arrAt_in 1 rfl _).trans ((A_eq1 (V2 m) c 1).trans (W3_of_ne m c main_arg0 (by decide)).symm)
  | ⟨2, _⟩ => exact ((dat1 (V2 m) c).arrAt_in 2 rfl _).trans ((A_eq1 (V2 m) c 2).trans (W3_of_ne m c main_v0 (by decide)).symm)
  | ⟨3, _⟩ => exact ((dat1 (V2 m) c).arrAt_in 3 rfl _).trans ((A_eq1 (V2 m) c 3).trans (W3_of_ne m c main_v0 (by decide)).symm)
  | ⟨4, _⟩ => exact ((dat1 (V2 m) c).arrAt_in 4 rfl _).trans ((A_eq1 (V2 m) c 4).trans (W3_of_ne m c main_arg2 (by decide)).symm)
  | ⟨5, _⟩ => exact ((dat1 (V2 m) c).arrAt_in 5 rfl _).trans ((A_eq1 (V2 m) c 5).trans (W3_of_ne m c main_v1 (by decide)).symm)
  | ⟨6, _⟩ => exact (W3_out m c).symm
theorem hrest1 (c : Dev nD) : ∀ b, b ∉ Finset.univ.image (Pipeline.arrRef spec1) → V3 m c b = V2 m c b :=
  fun b hb => W3_of_ne m c b fun e => hb (Finset.mem_image.mpr ⟨6, Finset.mem_univ _, e.symm⟩)

theorem hF2 (c : Dev nD) (w : Fin cfg2.W) : (dat2 (V3 m) c).arrAt w cfg2.N = V4 m c (Pipeline.arrRef spec2 w) := by
  match w with
  | ⟨0, _⟩ => exact ((dat2 (V3 m) c).arrAt_in 0 rfl _).trans ((A_eq2 (V3 m) c 0).trans (W4_of_ne m c main_arg1 (by decide)).symm)
  | ⟨1, _⟩ => exact ((dat2 (V3 m) c).arrAt_in 1 rfl _).trans ((A_eq2 (V3 m) c 1).trans (W4_of_ne m c main_v3 (by decide)).symm)
  | ⟨2, _⟩ => exact ((dat2 (V3 m) c).arrAt_in 2 rfl _).trans ((A_eq2 (V3 m) c 2).trans (W4_of_ne m c main_v0 (by decide)).symm)
  | ⟨3, _⟩ => exact ((dat2 (V3 m) c).arrAt_in 3 rfl _).trans ((A_eq2 (V3 m) c 3).trans (W4_of_ne m c main_v0 (by decide)).symm)
  | ⟨4, _⟩ => exact ((dat2 (V3 m) c).arrAt_in 4 rfl _).trans ((A_eq2 (V3 m) c 4).trans (W4_of_ne m c main_arg4 (by decide)).symm)
  | ⟨5, _⟩ => exact ((dat2 (V3 m) c).arrAt_in 5 rfl _).trans ((A_eq2 (V3 m) c 5).trans (W4_of_ne m c main_v2 (by decide)).symm)
  | ⟨6, _⟩ => exact (W4_out m c).symm
theorem hrest2 (c : Dev nD) : ∀ b, b ∉ Finset.univ.image (Pipeline.arrRef spec2) → V4 m c b = V3 m c b :=
  fun b hb => W4_of_ne m c b fun e => hb (Finset.mem_image.mpr ⟨6, Finset.mem_univ _, e.symm⟩)

/-! ## The regions as segments -/

set_option backward.isDefEq.respectTransparency.types false in
/-- REGION 0 over the thread state: entered from every unscoped buffer at `V0`, left at `V1`. Its arrays split out of
    the unscoped buffers and put back at the exit contents; the generator register and the scoped rest into the region
    invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m) c)
    unfold Pipeline.ΦA
    iintro ⟨Hp, -, Hr⟩
    isplitl [Hr]; · iexact Hr
    iexact Hp
  hout c := by
    rw [Pipeline.ownSems0_none]
    refine BIBase.Entails.trans (hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `V2`, left at `V3`. Its arrays split out of
    the unscoped buffers and put back at the exit contents; the generator register and the scoped rest into the region
    invariant and out; nothing owed; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs c (V2 m c) : sProp 𝕄) ⊢ iprop((pdats m 1 c).arrays ((pdats m 1 c).arrAt · 0) ∗ Pipeline.unscopedRest (Ix := Unit) (Name := ℕ) (U := UR sig nD τ) (Lvl := ℕ) spec1 c (V2 m c)) :=
      arrays_of_unscopedBufs1 (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine BIBase.Entails.trans (hout1 (V2 m) c) ?_
    unfold Pipeline.ΦA
    iintro ⟨Hr, Hp⟩
    isplitl [Hp]; · iexact Hp
    isplitr; · iempintro
    iexact Hr
  hexit c := by
    have hjoin : iprop((pdats m 1 c).arrays ((pdats m 1 c).arrAt · (Pipeline.pin (pcfgs (F := F)) adm 1).N) ∗ Pipeline.unscopedRest (Ix := Unit) (Name := ℕ) (U := UR sig nD τ) (Lvl := ℕ) spec1 c (V2 m c)) ⊢ (unscopedBufs c (V3 m c) : sProp 𝕄) :=
      unscopedBufs_of_arrays1 (V2 m) c (V3 m c) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `V3`, left at `V4`. Its arrays split out of
    the unscoped buffers and put back at the exit contents; the generator register and the scoped rest into the region
    invariant and out; nothing owed; no semaphore of the kernel's own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit : (unscopedBufs c (V3 m c) : sProp 𝕄) ⊢ iprop((pdats m 2 c).arrays ((pdats m 2 c).arrAt · 0) ∗ Pipeline.unscopedRest (Ix := Unit) (Name := ℕ) (U := UR sig nD τ) (Lvl := ℕ) spec2 c (V3 m c)) :=
      arrays_of_unscopedBufs2 (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V3 m) c)
    unfold Pipeline.ΦA
    iintro ⟨Hp, -, Hr⟩
    isplitl [Hr]; · iexact Hr
    iexact Hp
  hout c := by
    rw [Pipeline.ownSems0_none]
    refine BIBase.Entails.trans (hout2 (V3 m) c) ?_
    unfold Pipeline.ΦA
    iintro ⟨Hr, Hp⟩
    isplitl [Hp]; · iexact Hp
    isplitr; · iempintro
    iexact Hr
  hexit c := by
    have hjoin : iprop((pdats m 2 c).arrays ((pdats m 2 c).arrAt · (Pipeline.pin (pcfgs (F := F)) adm 2).N) ∗ Pipeline.unscopedRest (Ix := Unit) (Name := ℕ) (U := UR sig nD τ) (Lvl := ℕ) spec2 c (V3 m c)) ⊢ (unscopedBufs c (V4 m c) : sProp 𝕄) :=
      unscopedBufs_of_arrays2 (V3 m) c (V4 m c) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four items in order: region 0, the host stretch, region 1, region 2. -/
abbrev segs : List (Pipeline.Seg (pcfgs (F := F)) adm (pdats m) () defs₀ 𝒱₀ L lv) :=
  [ .region (reg0 m),
    .host (hseg1 m),
    .region (reg1 m),
    .region (reg2 m) ]
/-- @main IS the run of the segments. -/
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and in every final state each unscoped buffer of each core holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The last valuation at the arguments and at the result -/

theorem W2_arg (c : Dev nD) (r : Ref sig .tc) (h1 : r ∉ ([main_v1, main_v2] : List (Ref sig .tc))) (h0 : r ≠ main_v0) : W2 m c r = m ((c : Thread nD τ).loc r) :=
  (W2_of m c r h1).trans (W1_of_ne m c r h0)

theorem W4_arg (c : Dev nD) (r : Ref sig .tc) (h4 : r ≠ main_v4) (h3 : r ≠ main_v3) (h1 : r ∉ ([main_v1, main_v2] : List (Ref sig .tc))) (h0 : r ≠ main_v0) :
    W4 m c r = m ((c : Thread nD τ).loc r) :=
  (W4_of_ne m c r h4).trans ((W3_of_ne m c r h3).trans (W2_arg m c r h1 h0))

/-- The frame and the result together: every argument array ends as launched, and the result array holds what region
    2's write-backs leave. -/
theorem run_result : θ_run defs (onTc (τ := τ) (main (F := F))) ⟨m, fun _ => 0, ρ⟩ (fun r => ∀ c : Dev nD,
      r.2.mem ((c.tc : Thread nD τ).loc main_v4) = (dat2 (V3 m) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v4 (by decide))).trans (W4_out m c),
     (h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide)),
     (h c _ (mem_uc main_arg4 (by decide))).trans (W4_arg m c main_arg4 (by decide) (by decide) (by decide) (by decide)),
     (h c _ (mem_uc main_arg5 (by decide))).trans (W4_arg m c main_arg5 (by decide) (by decide) (by decide) (by decide))⟩)
    (run_all m ρ)

/-- The frame claim at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_result m ρ)

end Cert.KernelIdeal.Hand

end
-- ==== Proof.Spec.lean ====
/-
  The mathematics of the two programs, free of any program text: a two-layer graph convolution over a dense
  8192 × 8192 matrix `A`, with the symmetric degree scaling `d i = 1 / √(Σ_c A i c + ε)`.

  * The kernel computes a layer as  `((Σ_c A i c · (X c g · d c)) · d i)`  contracted with the weights, plus the bias.
  * The reference computes it as   `Σ_c ((d i · A i c) · d c) · X c g`    contracted with the weights, plus the bias.

  On the extended reals the two agree as soon as every entry of `A`, `X` and the scaling `d` is a real number:
  then both are the same finite sum of products of reals, rearranged (`ring` under the coercion). The scaling is real
  exactly when the argument of the square root is positive, which is where the reference's `1 / √·` is defined.
-/
import Idealize.ShloMosaic.PureOps.Ideal
import Idealize.ShloMosaic.Lib.ValueIdx

noncomputable section

open scoped BigOperators

namespace Cert.Spec

open Idealize.ShloMosaic

/-- The word of the additive constant under the square root, read at the ideal instance. -/
abbrev eps : EReal := Ideal.ofBits .f32 0x358637BD#32
/-- The word of the numerator `1.0`, read at the ideal instance. -/
abbrev one : EReal := Ideal.ofBits .f32 0x3F800000#32

/-- The degree scaling of row `i`: one over the square root of the row's sum plus `ε`. -/
def dinv (A : Fin 8192 → Fin 8192 → EReal) (i : Fin 8192) : EReal :=
  Ideal.div one (Ideal.sqrt ((∑ c, A i c) + eps))

/-- The kernel's aggregation: the columns scaled first, the row scaled after the sum. -/
def kagg {n : Nat} (A : Fin 8192 → Fin 8192 → EReal) (X : Fin 8192 → Fin n → EReal) (d : Fin 8192 → EReal)
    (i : Fin 8192) (g : Fin n) : EReal :=
  (∑ c, A i c * (X c g * d c)) * d i

/-- The reference's aggregation: the matrix normalised entry by entry, then the product. -/
def ragg {n : Nat} (A : Fin 8192 → Fin 8192 → EReal) (X : Fin 8192 → Fin n → EReal) (d : Fin 8192 → EReal)
    (i : Fin 8192) (g : Fin n) : EReal :=
  ∑ c, ((d i * A i c) * d c) * X c g

/-- The dense layer after an aggregation: a contraction with the weights plus the bias. -/
def lin {n p : Nat} (Y : Fin 8192 → Fin n → EReal) (W : Fin n → Fin p → EReal) (b : Fin p → EReal)
    (i : Fin 8192) (f : Fin p) : EReal :=
  (∑ g, Y i g * W g f) + b f

/-- The hidden layer as the kernel computes it. -/
def khid (x : Fin 8192 → Fin 128 → EReal) (A : Fin 8192 → Fin 8192 → EReal) (W1 : Fin 128 → Fin 64 → EReal)
    (b1 : Fin 64 → EReal) (i : Fin 8192) (f : Fin 64) : EReal :=
  max (lin (kagg A x (dinv A)) W1 b1 i f) 0

/-- The result as the kernel computes it. -/
def kout (x : Fin 8192 → Fin 128 → EReal) (A : Fin 8192 → Fin 8192 → EReal) (W1 : Fin 128 → Fin 64 → EReal)
    (b1 : Fin 64 → EReal) (W2 : Fin 64 → Fin 2 → EReal) (b2 : Fin 2 → EReal) (i : Fin 8192) (o : Fin 2) : EReal :=
  lin (kagg A (khid x A W1 b1) (dinv A)) W2 b2 i o

/-- The hidden layer as the reference computes it. -/
def rhid (x : Fin 8192 → Fin 128 → EReal) (A : Fin 8192 → Fin 8192 → EReal) (W1 : Fin 128 → Fin 64 → EReal)
    (b1 : Fin 64 → EReal) (i : Fin 8192) (f : Fin 64) : EReal :=
  max (lin (ragg A x (dinv A)) W1 b1 i f) 0

/-- The result as the reference computes it. -/
def rout (x : Fin 8192 → Fin 128 → EReal) (A : Fin 8192 → Fin 8192 → EReal) (W1 : Fin 128 → Fin 64 → EReal)
    (b1 : Fin 64 → EReal) (W2 : Fin 64 → Fin 2 → EReal) (b2 : Fin 2 → EReal) (i : Fin 8192) (o : Fin 2) : EReal :=
  lin (ragg A (rhid x A W1 b1) (dinv A)) W2 b2 i o

/-- An extended real that is a real number. -/
def IsReal (z : EReal) : Prop := ∃ r : ℝ, z = (r : EReal)

/-! ## The same over arrays: a rank-2 array read as a matrix, a rank-1 array as a vector -/

/-- A rank-2 array as a matrix of its two coordinates. -/
abbrev mat {a b : Nat} (v : (⟨2, ![a, b]⟩ : Shape).Idx → EReal) : Fin a → Fin b → EReal := fun i j => v (ValueIdx.ix2 i j)
/-- A rank-1 array as a vector of its coordinate. -/
abbrev vec {a : Nat} (v : (⟨1, ![a]⟩ : Shape).Idx → EReal) : Fin a → EReal := fun i => v (ValueIdx.ix1 i)

/-- The reference's result array, from the six argument arrays. -/
def routArr (x : (⟨2, ![8192, 128]⟩ : Shape).Idx → EReal) (A : (⟨2, ![8192, 8192]⟩ : Shape).Idx → EReal)
    (W1 : (⟨2, ![128, 64]⟩ : Shape).Idx → EReal) (b1 : (⟨1, ![64]⟩ : Shape).Idx → EReal)
    (W2 : (⟨2, ![64, 2]⟩ : Shape).Idx → EReal) (b2 : (⟨1, ![2]⟩ : Shape).Idx → EReal) :
    (⟨2, ![8192, 2]⟩ : Shape).Idx → EReal :=
  fun j => rout (mat x) (mat A) (mat W1) (vec b1) (mat W2) (vec b2) (j 0) (j 1)

/-- The kernel's result array, from the six argument arrays. -/
def koutArr (x : (⟨2, ![8192, 128]⟩ : Shape).Idx → EReal) (A : (⟨2, ![8192, 8192]⟩ : Shape).Idx → EReal)
    (W1 : (⟨2, ![128, 64]⟩ : Shape).Idx → EReal) (b1 : (⟨1, ![64]⟩ : Shape).Idx → EReal)
    (W2 : (⟨2, ![64, 2]⟩ : Shape).Idx → EReal) (b2 : (⟨1, ![2]⟩ : Shape).Idx → EReal) :
    (⟨2, ![8192, 2]⟩ : Shape).Idx → EReal :=
  fun j => kout (mat x) (mat A) (mat W1) (vec b1) (mat W2) (vec b2) (j 0) (j 1)

/-- The kernel's degree scaling as the 8192 × 1 array the first region writes. -/
def dArr (A : (⟨2, ![8192, 8192]⟩ : Shape).Idx → EReal) : (⟨2, ![8192, 1]⟩ : Shape).Idx → EReal :=
  fun j => dinv (mat A) (j 0)

/-- A layer as the kernel computes it, over arrays: the aggregation of `X` over `A` scaled by the column `D`,
    the dense layer with weights `W` and the bias row `B` (a 1 × p array). -/
def klayerArr {n p : Nat} (A : (⟨2, ![8192, 8192]⟩ : Shape).Idx → EReal) (X : (⟨2, ![8192, n]⟩ : Shape).Idx → EReal)
    (D : (⟨2, ![8192, 1]⟩ : Shape).Idx → EReal) (W : (⟨2, ![n, p]⟩ : Shape).Idx → EReal)
    (B : (⟨2, ![1, p]⟩ : Shape).Idx → EReal) : (⟨2, ![8192, p]⟩ : Shape).Idx → EReal :=
  fun j => lin (kagg (mat A) (mat X) (fun i => D (ValueIdx.ix2 i 0))) (mat W) (fun f => B (ValueIdx.ix2 0 f)) (j 0) (j 1)

end Cert.Spec

end
-- ==== Proof.Region0Value.lean ====
/-
  Region 0, the value at the ideal instance: after the region the scaling array holds, at every row, one over the square root of the row's sum plus ε: the four column tiles' partial row sums, accumulated from zero, are the row's whole sum.
-/
import proofs.«132783_j15479062135163_1_alg».proof.Proof.Region0Defs
import proofs.«132783_j15479062135163_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open scoped BigOperators

open Idealize.ShloMosaic.ValueIdx

/-! ## The three payloads read at a row -/

/-- The block the reset stores is zero everywhere. -/
theorem k0_pay1_apply (j : S512x1.Idx) : k0_pay1 (F := Ideal) j = 0 := by
  unfold k0_pay1
  rw [shapeCast_self]
  exact Ideal.ofBits_zero_f32

/-- The accumulation step at row `p`: what was there plus the sum of the block's row `p` over its 2048 columns. -/
theorem k0_pay2_apply (v3 : Vec Ideal S512x1 .f32) (v4 : Vec Ideal S512x2048 .f32) (p : Fin 512) :
    k0_pay2 v3 v4 (ix2 p 0) = v3 (ix2 p 0) + ∑ q : Fin 2048, v4 (ix2 p q) := by
  unfold k0_pay2
  rw [shapeCast_self]
  refine (addf_apply _ _ _).trans ?_
  congr 1
  refine (shapeCast_apply _ _ (ix2 p (0 : Fin 1)) (ix1 p) (by
    rw [Shape.rowMajor_val_two, Shape.rowMajor_val_one]; show p.val = p.val * 1 + 0; omega)).trans ?_
  refine (Ideal.multiReduction_add_single _ _ _ _ _ _).trans ?_
  refine Finset.sum_congr rfl fun q _ => congrArg v4 ?_
  funext a
  match a with
  | ⟨0, _⟩ => rfl
  | ⟨1, _⟩ => rfl

/-- The finalisation at row `p`: one over the square root of the accumulated sum plus ε. -/
theorem k0_pay3_apply (v : Vec Ideal S512x1 .f32) (p : Fin 512) :
    k0_pay3 v (ix2 p 0) = Ideal.div Cert.Spec.one (Ideal.sqrt (v (ix2 p 0) + Cert.Spec.eps)) := by
  unfold k0_pay3
  rfl

/-! ## The blocks of the two windows, by coordinates -/

/-- The block indices over the grid: the adjacency block of point `t` is row tile `t / 4`, column tile `t % 4`; the scaling
    block is row tile `t / 4` of the one column. -/
theorem idx_facts0 : ∀ t : Fin cfg0.N, win0_0.index t (0 : Fin 2) = t.val / 4 ∧ win0_0.index t (1 : Fin 2) = t.val % 4
    ∧ win0_1.index t (0 : Fin 2) = t.val / 4 ∧ win0_1.index t (1 : Fin 2) = 0 :=
  (by decide +kernel : ∀ t : Fin grid0.N, _)

/-- The adjacency matrix at natural-number coordinates, zero outside its extent. -/
def adjAt0 (A : S8192x8192.Idx → EReal) (r k : ℕ) : EReal :=
  if h : r < 8192 ∧ k < 8192 then A (ix2 ⟨r, h.1⟩ ⟨k, h.2⟩) else 0

theorem adjAt0_of_lt (A : S8192x8192.Idx → EReal) (r k : ℕ) (hr : r < 8192) (hk : k < 8192) :
    adjAt0 A r k = A (ix2 ⟨r, hr⟩ ⟨k, hk⟩) := by
  unfold adjAt0; rw [dif_pos ⟨hr, hk⟩]

variable (V : (c : Dev nD) → (b : Ref sig .tc) → Buf (Elt Ideal) ((c : Thread nD τ).loc b))

/-- The adjacency array as the region finds it. -/
abbrev aarr0 (c : Dev nD) : Vec Ideal S8192x8192 .f32 := V c main_arg1

/-- The adjacency block of point `t` at `(p, q)` is the matrix at row `512 (t / 4) + p`, column `2048 (t % 4) + q`. -/
theorem ablk0_apply (c : Dev nD) (t : Fin cfg0.N) (p : Fin 512) (q : Fin 2048) :
    ablk0 V c t (ix2 p q) = adjAt0 (aarr0 V c) (512 * (t.val / 4) + p.val) (2048 * (t.val % 4) + q.val) := by
  obtain ⟨e0, e1, -, -⟩ := idx_facts0 t
  have ht : t.val < 64 := t.isLt
  have hp := p.isLt
  have hq := q.isLt
  rw [adjAt0_of_lt _ _ _ (by omega) (by omega)]
  unfold ablk0 iblk0
  rw [View.read_apply]
  show V c main_arg1 _ = V c main_arg1 _
  congr 1
  funext a
  apply Fin.ext
  match a with
  | ⟨0, _⟩ => show win0_0.index t (0 : Fin 2) * 512 + 1 * p.val = 512 * (t.val / 4) + p.val; rw [e0]; omega
  | ⟨1, _⟩ => show win0_0.index t (1 : Fin 2) * 2048 + 1 * q.val = 2048 * (t.val % 4) + q.val; rw [e1]; omega

/-! ## The accumulator: after column tile `k` of a row tile it holds the row sums over the first `k + 1` column tiles -/

/-- Column tile `s`'s part of row `r`'s sum. -/
def tileSum0 (A : S8192x8192.Idx → EReal) (r s : ℕ) : EReal := ∑ q : Fin 2048, adjAt0 A r (2048 * s + q.val)

/-- This point's partial row sum at row `p` is its column tile's part of the row's sum. -/
theorem ablk0_rowsum (c : Dev nD) (t : Fin cfg0.N) (p : Fin 512) :
    ∑ q : Fin 2048, ablk0 V c t (ix2 p q) = tileSum0 (aarr0 V c) (512 * (t.val / 4) + p.val) (t.val % 4) :=
  Finset.sum_congr rfl fun q _ => ablk0_apply V c t p q

/-- After point `n` the accumulator holds, at row `p`, the sum of the parts of column tiles `0 … n % 4` of the row's sum:
    by induction on the point, the reset at a multiple of 4 starting the sum from zero. -/
theorem sAt0_apply (c : Dev nD) (p : Fin 512) : ∀ (n : ℕ) (hn : n < cfg0.N),
    sAt0 V c n hn (ix2 p 0) = ∑ s ∈ Finset.range (n % 4 + 1), tileSum0 (aarr0 V c) (512 * (n / 4) + p.val) s
  | 0, hn => by
    show k0_pay2 (k0_pay1 (F := Ideal)) (ablk0 V c ⟨0, hn⟩) (ix2 p 0) = ∑ s ∈ Finset.range 1, tileSum0 (aarr0 V c) (512 * (0 / 4) + p.val) s
    refine (k0_pay2_apply (k0_pay1 (F := Ideal)) (ablk0 V c ⟨0, hn⟩) p).trans ?_
    rw [k0_pay1_apply, zero_add, Finset.sum_range_one]
    exact ablk0_rowsum V c ⟨0, hn⟩ p
  | n + 1, hn => by
    have ih := sAt0_apply c p n (Nat.lt_of_succ_lt hn)
    by_cases h : (n + 1) % 4 = 0
    · have e : sAt0 V c (n + 1) hn = k0_pay2 (k0_pay1 (F := Ideal)) (ablk0 V c ⟨n + 1, hn⟩) := by
        rw [sAt0, if_pos h]
      rw [e]
      refine (k0_pay2_apply (k0_pay1 (F := Ideal)) (ablk0 V c ⟨n + 1, hn⟩) p).trans ?_
      rw [k0_pay1_apply, zero_add, h, Finset.sum_range_one]
      refine (ablk0_rowsum V c ⟨n + 1, hn⟩ p).trans ?_
      show tileSum0 _ (512 * ((n + 1) / 4) + p.val) ((n + 1) % 4) = _
      rw [h]
    · have e : sAt0 V c (n + 1) hn = k0_pay2 (sAt0 V c n (Nat.lt_of_succ_lt hn)) (ablk0 V c ⟨n + 1, hn⟩) := by
        rw [sAt0, if_neg h]
      rw [e]
      refine (k0_pay2_apply (sAt0 V c n (Nat.lt_of_succ_lt hn)) (ablk0 V c ⟨n + 1, hn⟩) p).trans ?_
      rw [ih]
      have h1 : (n + 1) / 4 = n / 4 := by omega
      have h2 : (n + 1) % 4 = n % 4 + 1 := by omega
      rw [h1, h2, Finset.sum_range_succ _ (n % 4 + 1)]
      congr 1
      refine (ablk0_rowsum V c ⟨n + 1, hn⟩ p).trans ?_
      show tileSum0 _ (512 * ((n + 1) / 4) + p.val) ((n + 1) % 4) = _
      rw [h1, h2]

/-- The four column tiles' parts are the row's whole sum: the 8192 columns are 4 tiles of 2048. -/
theorem sum_tiles0 (A : S8192x8192.Idx → EReal) (r : Fin 8192) :
    ∑ s ∈ Finset.range 4, tileSum0 A r.val s = ∑ k : Fin 8192, A (ix2 r k) := by
  have e1 : ∑ k : Fin 8192, A (ix2 r k) = ∑ k : Fin (4 * 2048), adjAt0 A r.val k.val :=
    Finset.sum_congr rfl fun k _ => (adjAt0_of_lt A r.val k.val r.isLt k.isLt).symm
  rw [e1, ← Equiv.sum_comp finProdFinEquiv, Fintype.sum_prod_type, Finset.sum_range]
  refine Finset.sum_congr rfl fun s _ => ?_
  unfold tileSum0
  refine Finset.sum_congr rfl fun q _ => ?_
  show adjAt0 A r.val (2048 * s.val + q.val) = adjAt0 A r.val (q.val + 2048 * s.val)
  rw [Nat.add_comm]

/-! ## The output block, the write-backs, the array -/

/-- At column tile 3 the output block holds, at row `p`, the scaling of row `512 (t / 4) + p`. -/
theorem oAt0_apply (c : Dev nD) (t : Fin cfg0.N) (h3 : t.val % 4 = 3) (p : Fin 512) (r : Fin 8192)
    (hr : r.val = 512 * (t.val / 4) + p.val) :
    oAt0 V c t (ix2 p 0) = Cert.Spec.dinv (Cert.Spec.mat (aarr0 V c)) r := by
  unfold oAt0
  refine (k0_pay3_apply (sAt0 V c t.val t.isLt) p).trans ?_
  rw [sAt0_apply V c p t.val t.isLt, h3, ← hr, sum_tiles0]
  rfl

/-- What a point at column tile 3 writes back is its block of the scaling array. -/
theorem flushed0_eq (c : Dev nD) (t : Fin cfg0.N) (hf : (cfg0.win 1).flush t = true) :
    (dat0 (F := Ideal) V c).flushed 1 t
      = ((cfg0.win 1).blk t).view.read (Elt Ideal) (Cert.Spec.dArr (aarr0 V c) : FVec Ideal S8192x1 .f32) := by
  have h3 : t.val % 4 = 3 := (flush0_1 t).mp hf
  obtain ⟨-, -, e2, e3⟩ := idx_facts0 t
  have ht : t.val < 64 := t.isLt
  funext y
  have hy0 : (y 0).val < 512 := (y 0).isLt
  have hy1 : (y 1).val < 1 := (y 1).isLt
  rw [View.read_apply]
  show oAt0 V c t ((cfg0.win 1).xinj (grid0.coords t) y)
    = Cert.Spec.dinv (Cert.Spec.mat (aarr0 V c)) ((((cfg0.win 1).blk t).view.emb y) 0)
  have hx : (cfg0.win 1).xinj (grid0.coords t) y = ix2 (⟨(y 0).val, hy0⟩ : Fin 512) (0 : Fin 1) := by
    funext a
    match a with
    | ⟨0, _⟩ => rfl
    | ⟨1, _⟩ => exact Fin.ext (by show (y 1).val = 0; omega)
  refine (congrArg (oAt0 V c t) hx).trans ?_
  refine oAt0_apply V c t h3 ⟨(y 0).val, hy0⟩ _ ?_
  show win0_1.index t (0 : Fin 2) * 512 + 1 * (y 0).val = 512 * (t.val / 4) + (y 0).val
  rw [e2]; omega

/-- An index of the scaling array is in point `t`'s block iff each coordinate is in the block's range on its axis. -/
theorem mem_blk0 (t : Fin cfg0.N) (i : S8192x1.Idx) :
    i ∈ ((cfg0.win 1).blk t).view.set ↔ ∀ a : Fin 2, win0_1.index t a * S512x1.size a ≤ (i a).val
      ∧ (i a).val < win0_1.index t a * S512x1.size a + S512x1.size a := by
  show i ∈ ((View.whole main_v0).slice (win0_1.rect t)).set ↔ _
  rw [View.set_slice_whole, Rect.mem_set_unit]
  exact Iff.rfl

/-- Row `r` lies in the block of the point at column tile 3 of row tile `r / 512`, which writes its block back. -/
theorem cover0 (i : S8192x1.Idx) :
    ∃ t : Fin cfg0.N, (cfg0.win 1).flush t = true ∧ i ∈ ((cfg0.win 1).blk t).view.set := by
  have hi0 : (i 0).val < 8192 := (i 0).isLt
  have hi1 : (i 1).val < 1 := (i 1).isLt
  obtain ⟨t, ht⟩ : ∃ t : Fin cfg0.N, t.val = 4 * ((i 0).val / 512) + 3 :=
    ⟨⟨4 * ((i 0).val / 512) + 3, by show _ < 64; omega⟩, rfl⟩
  obtain ⟨-, -, e2, e3⟩ := idx_facts0 t
  refine ⟨t, (flush0_1 t).mpr (by omega), ?_⟩
  rw [mem_blk0]
  intro a
  match a with
  | ⟨0, _⟩ =>
    show win0_1.index t (0 : Fin 2) * 512 ≤ (i 0).val ∧ (i 0).val < win0_1.index t (0 : Fin 2) * 512 + 512
    rw [e2]; omega
  | ⟨1, _⟩ =>
    show win0_1.index t (1 : Fin 2) * 1 ≤ (i 1).val ∧ (i 1).val < win0_1.index t (1 : Fin 2) * 1 + 1
    rw [e3]; omega

/-- After the region the scaling array holds `1 / √(Σ_c A i c + ε)` at every row. -/
theorem arrAt_out0 (c : Dev nD) :
    (dat0 (F := Ideal) V c).arrAt 1 cfg0.N = (Cert.Spec.dArr (V c main_arg1) : FVec Ideal S8192x1 .f32) :=
  (dat0 (F := Ideal) V c).arrAt_eq_of_cover 1 (Cert.Spec.dArr (aarr0 V c) : FVec Ideal S8192x1 .f32)
    (fun t hf => flushed0_eq V c t hf) cover0

end Cert.KernelIdeal.Hand

end
-- ==== Proof.Region1Value.lean ====
/-
  Region 1, the value at the ideal instance: after the region the hidden array holds max(((Σ_c A i c · (x c g · d c)) · d i) · W1 + b1, 0): the four column tiles' partial products, accumulated from zero, are the whole contraction over the 8192 columns.
-/
import proofs.«132783_j15479062135163_1_alg».proof.Proof.Region1Defs
import proofs.«132783_j15479062135163_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open scoped BigOperators

variable (V : (c : Dev nD) → (b : Ref sig .tc) → Buf (Elt Ideal) ((c : Thread nD τ).loc b))

/-! ## The body's three values read at an entry -/

/-- A column broadcast over the lanes reads, at every lane, the column's entry of that row. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ValueIdx.ix2 p q) = v (ValueIdx.ix2 p (0 : Fin 1)) := by
  refine broadcastTo_apply v h (ValueIdx.ix2 p q) (ValueIdx.ix2 p (0 : Fin 1)) fun ax => ?_
  match ax with
  | ⟨0, _⟩ =>
    show p.val = if a = 1 then 0 else p.val
    split
    · have := p.isLt; omega
    · rfl
  | ⟨1, _⟩ => rfl

/-- The zero block is zero at every entry. -/
theorem zeroBlock_apply (j : S512x128.Idx) : k1_pay1 (F := Ideal) j = 0 := by
  unfold k1_pay1
  rw [shapeCast_self]
  exact Ideal.ofBits_zero_f32

/-! The aggregation's product: rows of the adjacency tile against the scaled feature tile, contracted over the tile's 2048 columns. -/

theorem aggDot_lhs_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem aggDot_lhs_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem aggDot_rhs_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem aggDot_rhs_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The tile product into the zero splat, at row p and lane g: the sum over the tile's columns. -/
theorem aggDot_apply (L : FVec Ideal S512x2048 .bf16) (R : FVec Ideal S2048x128 .bf16) (p : Fin 512) (g : Fin 128) :
    matmul dot_S512x2048_S2048x128_S512x128_1_0_0_1_n_n none L R (constant (F := Ideal) S512x128 .f32 0x00000000#32) (ValueIdx.ix2 p g)
      = ∑ k : Fin 2048, L (ValueIdx.ix2 p k) * R (ValueIdx.ix2 k g) := by
  simp only [matmul]
  rw [Ideal.matmul_constant_zero_apply, ← Equiv.sum_comp (ValueIdx.contrEquiv1 dot_S512x2048_S2048x128_S512x128_1_0_0_1_n_n 2048 rfl rfl).symm]
  refine Finset.sum_congr rfl fun k _ => ?_
  have hk := ValueIdx.contrEquiv1_symm_val dot_S512x2048_S2048x128_S512x128_1_0_0_1_n_n 2048 rfl rfl k
  have el : dot_S512x2048_S2048x128_S512x128_1_0_0_1_n_n.lhsIdx (ValueIdx.ix2 p g) ((ValueIdx.contrEquiv1 dot_S512x2048_S2048x128_S512x128_1_0_0_1_n_n 2048 rfl rfl).symm k) = ValueIdx.ix2 p k := funext fun a => Fin.ext (by
    match a with
    | ⟨0, _⟩ => exact aggDot_lhs_0 _ _
    | ⟨1, _⟩ => exact (aggDot_lhs_1 _ _).trans hk)
  have er : dot_S512x2048_S2048x128_S512x128_1_0_0_1_n_n.rhsIdx (ValueIdx.ix2 p g) ((ValueIdx.contrEquiv1 dot_S512x2048_S2048x128_S512x128_1_0_0_1_n_n 2048 rfl rfl).symm k) = ValueIdx.ix2 k g := funext fun a => Fin.ext (by
    match a with
    | ⟨0, _⟩ => exact (aggDot_rhs_0 _ _).trans hk
    | ⟨1, _⟩ => exact aggDot_rhs_1 _ _)
  rw [el, er]

/-- One accumulation step at row p and lane g: what was there plus the tile's products, each feature entry scaled by its
    row's scaling first. -/
theorem accStep_apply (x : Vec Ideal S2048x128 .f32) (dc : Vec Ideal S2048x1 .f32) (A : Vec Ideal S512x2048 .f32)
    (acc : Vec Ideal S512x128 .f32) (p : Fin 512) (g : Fin 128) :
    k1_pay2 x dc A acc (ValueIdx.ix2 p g)
      = acc (ValueIdx.ix2 p g) + ∑ k : Fin 2048, A (ValueIdx.ix2 p k) * (x (ValueIdx.ix2 k g) * dc (ValueIdx.ix2 k (0 : Fin 1))) := by
  unfold k1_pay2
  rw [shapeCast_self, shapeCast_self, ValueIdx.addf_apply, aggDot_apply]
  refine congrArg (acc (ValueIdx.ix2 p g) + ·) (Finset.sum_congr rfl fun k _ => ?_)
  rw [ValueIdx.truncf_apply, ValueIdx.truncf_apply, ValueIdx.mulf_apply, broadcastTo_col_apply]

/-! The dense layer's product: the scaled aggregate against the weights, contracted over the 128 features. -/

theorem linDot_lhs_0 (i : S512x64.Idx) (q : dot_S512x128_S128x64_S512x64_1_0_0_1_n_n.contr.Idx) :
    (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
  rfl
theorem linDot_lhs_1 (i : S512x64.Idx) (q : dot_S512x128_S128x64_S512x64_1_0_0_1_n_n.contr.Idx) :
    (dot_S512x128_S128x64_S512x64_1_0_0_1_n_n.lhsIdx i q 1).val = (q ⟨0, by decide⟩).val :=
  dot_S512x128_S128x64_S512x64_1_0_0_1_n_n.lhsIdx_val_of_single rfl i q
theorem linDot_rhs_0 (i : S512x64.Idx) (q : dot_S512x128_S128x64_S512x64_1_0_0_1_n_n.contr.Idx) :
    (dot_S512x128_S128x64_S512x64_1_0_0_1_n_n.rhsIdx i q 0).val = (q ⟨0, by decide⟩).val :=
  dot_S512x128_S128x64_S512x64_1_0_0_1_n_n.rhsIdx_val_of_single rfl i q
theorem linDot_rhs_1 (i : S512x64.Idx) (q : dot_S512x128_S128x64_S512x64_1_0_0_1_n_n.contr.Idx) :
    (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
  rfl

/-- The dense product into the zero splat, at row p and output feature f: the sum over the 128 features. -/
theorem linDot_apply (L : FVec Ideal S512x128 .bf16) (R : FVec Ideal S128x64 .bf16) (p : Fin 512) (f : Fin 64) :
    matmul dot_S512x128_S128x64_S512x64_1_0_0_1_n_n none L R (constant (F := Ideal) S512x64 .f32 0x00000000#32) (ValueIdx.ix2 p f)
      = ∑ g : Fin 128, L (ValueIdx.ix2 p g) * R (ValueIdx.ix2 g f) := by
  simp only [matmul]
  rw [Ideal.matmul_constant_zero_apply, ← Equiv.sum_comp (ValueIdx.contrEquiv1 dot_S512x128_S128x64_S512x64_1_0_0_1_n_n 128 rfl rfl).symm]
  refine Finset.sum_congr rfl fun k _ => ?_
  have hk := ValueIdx.contrEquiv1_symm_val dot_S512x128_S128x64_S512x64_1_0_0_1_n_n 128 rfl rfl k
  have el : dot_S512x128_S128x64_S512x64_1_0_0_1_n_n.lhsIdx (ValueIdx.ix2 p f) ((ValueIdx.contrEquiv1 dot_S512x128_S128x64_S512x64_1_0_0_1_n_n 128 rfl rfl).symm k) = ValueIdx.ix2 p k := funext fun a => Fin.ext (by
    match a with
    | ⟨0, _⟩ => exact linDot_lhs_0 _ _
    | ⟨1, _⟩ => exact (linDot_lhs_1 _ _).trans hk)
  have er : dot_S512x128_S128x64_S512x64_1_0_0_1_n_n.rhsIdx (ValueIdx.ix2 p f) ((ValueIdx.contrEquiv1 dot_S512x128_S128x64_S512x64_1_0_0_1_n_n 128 rfl rfl).symm k) = ValueIdx.ix2 k f := funext fun a => Fin.ext (by
    match a with
    | ⟨0, _⟩ => exact (linDot_rhs_0 _ _).trans hk
    | ⟨1, _⟩ => exact linDot_rhs_1 _ _)
  rw [el, er]

/-- The output block at row p and output feature f: the aggregate scaled by the row's scaling, contracted with the
    weights, plus the bias, rectified. -/
theorem finalize_apply (acc : Vec Ideal S512x128 .f32) (dr : Vec Ideal S512x1 .f32) (W : Vec Ideal S128x64 .f32)
    (b : Vec Ideal S1x64 .f32) (p : Fin 512) (f : Fin 64) :
    k1_pay3 acc dr W b (ValueIdx.ix2 p f)
      = max ((∑ g : Fin 128, (acc (ValueIdx.ix2 p g) * dr (ValueIdx.ix2 p (0 : Fin 1))) * W (ValueIdx.ix2 g f))
          + b (ValueIdx.ix2 (0 : Fin 1) f)) 0 := by
  unfold k1_pay3
  rw [shapeCast_self, shapeCast_self, ValueIdx.maximumf_apply, ValueIdx.addf_apply, linDot_apply,
    ValueIdx.broadcastTo_1b_ab_apply, ValueIdx.broadcast_apply]
  have hz : (Scalar.ofBits .f32 0x00000000#32 : Ideal .f32) = 0 := Ideal.ofBits_zero_f32
  rw [hz]
  refine congrArg (fun z => max (z + b (ValueIdx.ix2 (0 : Fin 1) f)) 0) (Finset.sum_congr rfl fun g _ => ?_)
  rw [ValueIdx.truncf_apply, ValueIdx.truncf_apply, ValueIdx.mulf_apply, broadcastTo_col_apply]

/-! ## The windows' blocks read at the arrays' coordinates -/

/-- Where each window's block sits at point t: row tile t / 4, column tile t % 4. -/
theorem blockIndex1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = t.val % 4 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val / 4 ∧ win1_6.index t (1 : Fin 2) = 0 :=
  (by decide +kernel : ∀ t : Fin grid1.N, _)

/-- The adjacency block: rows of row tile t / 4, columns of column tile t % 4. -/
theorem adjBlock_apply (c : Dev nD) (t : Fin cfg1.N) (y : S512x2048.Idx) (i : S8192x8192.Idx)
    (h0 : (i 0).val = t.val / 4 * 512 + (y 0).val) (h1 : (i 1).val = t.val % 4 * 2048 + (y 1).val) :
    ablk1 V c t y = V c main_arg1 i := by
  obtain ⟨e0, e1, -⟩ := blockIndex1 t
  show V c main_arg1 (((cfg1.win 0).blk t).view.emb y) = V c main_arg1 i
  refine congrArg _ (funext fun a => Fin.ext ?_)
  match a with
  | ⟨0, _⟩ => show win1_0.index t (0 : Fin 2) * 512 + 1 * (y 0).val = (i 0).val; omega
  | ⟨1, _⟩ => show win1_0.index t (1 : Fin 2) * 2048 + 1 * (y 1).val = (i 1).val; omega

/-- The feature block: the rows of column tile t % 4, every lane. -/
theorem featBlock_apply (c : Dev nD) (t : Fin cfg1.N) (y : S2048x128.Idx) (i : S8192x128.Idx)
    (h0 : (i 0).val = t.val % 4 * 2048 + (y 0).val) (h1 : (i 1).val = (y 1).val) :
    xblk1 V c t y = V c main_arg0 i := by
  obtain ⟨-, -, e0, e1, -⟩ := blockIndex1 t
  show V c main_arg0 (((cfg1.win 1).blk t).view.emb y) = V c main_arg0 i
  refine congrArg _ (funext fun a => Fin.ext ?_)
  match a with
  | ⟨0, _⟩ => show win1_1.index t (0 : Fin 2) * 2048 + 1 * (y 0).val = (i 0).val; omega
  | ⟨1, _⟩ => show win1_1.index t (1 : Fin 2) * 128 + 1 * (y 1).val = (i 1).val; omega

/-- The row tile's scaling. -/
theorem rowScale_apply (c : Dev nD) (t : Fin cfg1.N) (y : S512x1.Idx) (i : S8192x1.Idx)
    (h0 : (i 0).val = t.val / 4 * 512 + (y 0).val) (h1 : (i 1).val = (y 1).val) :
    drow1 V c t y = V c main_v0 i := by
  obtain ⟨-, -, -, -, e0, e1, -⟩ := blockIndex1 t
  show V c main_v0 (((cfg1.win 2).blk t).view.emb y) = V c main_v0 i
  refine congrArg _ (funext fun a => Fin.ext ?_)
  match a with
  | ⟨0, _⟩ => show win1_2.index t (0 : Fin 2) * 512 + 1 * (y 0).val = (i 0).val; omega
  | ⟨1, _⟩ => show win1_2.index t (1 : Fin 2) * 1 + 1 * (y 1).val = (i 1).val; omega

/-- The column tile's scaling. -/
theorem colScale_apply (c : Dev nD) (t : Fin cfg1.N) (y : S2048x1.Idx) (i : S8192x1.Idx)
    (h0 : (i 0).val = t.val % 4 * 2048 + (y 0).val) (h1 : (i 1).val = (y 1).val) :
    dcol1 V c t y = V c main_v0 i := by
  obtain ⟨-, -, -, -, -, -, e0, e1, -⟩ := blockIndex1 t
  show V c main_v0 (((cfg1.win 3).blk t).view.emb y) = V c main_v0 i
  refine congrArg _ (funext fun a => Fin.ext ?_)
  match a with
  | ⟨0, _⟩ => show win1_3.index t (0 : Fin 2) * 2048 + 1 * (y 0).val = (i 0).val; omega
  | ⟨1, _⟩ => show win1_3.index t (1 : Fin 2) * 1 + 1 * (y 1).val = (i 1).val; omega

/-- The weights: the whole array at every point. -/
theorem weightBlock_apply (c : Dev nD) (t : Fin cfg1.N) (y : S128x64.Idx) :
    wblk1 V c t y = V c main_arg2 y := by
  obtain ⟨-, -, -, -, -, -, -, -, e0, e1, -⟩ := blockIndex1 t
  show V c main_arg2 (((cfg1.win 4).blk t).view.emb y) = V c main_arg2 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 64 + 1 * (y 1).val = (y 1).val; omega

/-- The bias row: the whole array at every point. -/
theorem biasBlock_apply (c : Dev nD) (t : Fin cfg1.N) (y : S1x64.Idx) :
    bblk1 V c t y = V c main_v1 y := by
  obtain ⟨-, -, -, -, -, -, -, -, -, -, e0, e1, -⟩ := blockIndex1 t
  show V c main_v1 (((cfg1.win 5).blk t).view.emb y) = V c main_v1 y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

/-! ## The accumulator after each column tile -/

/-- At column tile 0 the accumulator is this point's products over the zero block. -/
theorem sAt1_reset (c : Dev nD) : ∀ (n : ℕ) (hn : n < cfg1.N), n % 4 = 0 →
    sAt1 (F := Ideal) V c n hn
      = k1_pay2 (xblk1 V c ⟨n, hn⟩) (dcol1 V c ⟨n, hn⟩) (ablk1 V c ⟨n, hn⟩) (k1_pay1 (F := Ideal))
  | 0, _, _ => rfl
  | n + 1, hn, h => by
    show (if (n + 1) % 4 = 0 then _ else _) = _
    rw [if_pos h]

/-- At every other column tile it is this point's products over what the point before left. -/
theorem sAt1_step (c : Dev nD) (n : ℕ) (hn : n + 1 < cfg1.N) (h : ¬(n + 1) % 4 = 0) :
    sAt1 (F := Ideal) V c (n + 1) hn
      = k1_pay2 (xblk1 V c ⟨n + 1, hn⟩) (dcol1 V c ⟨n + 1, hn⟩) (ablk1 V c ⟨n + 1, hn⟩) (sAt1 V c n (Nat.lt_of_succ_lt hn)) := by
  show (if (n + 1) % 4 = 0 then _ else _) = _
  rw [if_neg h]

/-- Column k of column tile s. -/
def tileCol (s : ℕ) (k : Fin 2048) : Fin 8192 :=
  ⟨s % 4 * 2048 + k.val, by have := Nat.mod_lt s (show 0 < 4 by decide); have := k.isLt; omega⟩

/-- Row p of row tile q. -/
def tileRow (q : ℕ) (p : Fin 512) : Fin 8192 :=
  ⟨q % 16 * 512 + p.val, by have := Nat.mod_lt q (show 0 < 16 by decide); have := p.isLt; omega⟩

/-- Column tile s's share of the contraction for row r and lane g: the row's entries in the tile's columns against the
    scaled features of those columns. -/
def tileShare (c : Dev nD) (r : Fin 8192) (g : Fin 128) (s : ℕ) : EReal :=
  ∑ k : Fin 2048, Cert.Spec.mat (V c main_arg1) r (tileCol s k)
    * (Cert.Spec.mat (V c main_arg0) (tileCol s k) g * V c main_v0 (ValueIdx.ix2 (tileCol s k) (0 : Fin 1)))

/-- One accumulation step at point 4 q + s adds column tile s's share for the rows of row tile q. -/
theorem accStep_point (c : Dev nD) (q s n : ℕ) (hn : n < cfg1.N) (hs : s < 4) (hq : n = 4 * q + s)
    (acc : Vec Ideal S512x128 .f32) (p : Fin 512) (g : Fin 128) :
    k1_pay2 (xblk1 V c ⟨n, hn⟩) (dcol1 V c ⟨n, hn⟩) (ablk1 V c ⟨n, hn⟩) acc (ValueIdx.ix2 p g)
      = acc (ValueIdx.ix2 p g) + tileShare V c (tileRow q p) g s := by
  have h64 : n < 64 := hn
  rw [accStep_apply (xblk1 V c ⟨n, hn⟩) (dcol1 V c ⟨n, hn⟩) (ablk1 V c ⟨n, hn⟩) acc p g]
  refine congrArg (acc (ValueIdx.ix2 p g) + ·) (Finset.sum_congr rfl fun k _ => ?_)
  have hk := k.isLt
  have hp := p.isLt
  rw [adjBlock_apply V c ⟨n, hn⟩ (ValueIdx.ix2 p k) (ValueIdx.ix2 (tileRow q p) (tileCol s k))
      (by show q % 16 * 512 + p.val = n / 4 * 512 + p.val; omega)
      (by show s % 4 * 2048 + k.val = n % 4 * 2048 + k.val; omega),
    featBlock_apply V c ⟨n, hn⟩ (ValueIdx.ix2 k g) (ValueIdx.ix2 (tileCol s k) g)
      (by show s % 4 * 2048 + k.val = n % 4 * 2048 + k.val; omega) rfl,
    colScale_apply V c ⟨n, hn⟩ (ValueIdx.ix2 k (0 : Fin 1)) (ValueIdx.ix2 (tileCol s k) (0 : Fin 1))
      (by show s % 4 * 2048 + k.val = n % 4 * 2048 + k.val; omega) rfl]

/-- After column tile j of row tile q the accumulator holds, at row p and lane g, the shares of column tiles 0 … j. -/
theorem sAt1_shares (c : Dev nD) (q : ℕ) : ∀ (j : ℕ) (hj : j < 4) (h : 4 * q + j < cfg1.N) (p : Fin 512) (g : Fin 128),
    sAt1 (F := Ideal) V c (4 * q + j) h (ValueIdx.ix2 p g)
      = ∑ s ∈ Finset.range (j + 1), tileShare V c (tileRow q p) g s
  | 0, _, h, p, g => by
    rw [sAt1_reset V c (4 * q + 0) h (by omega), accStep_point V c q 0 (4 * q + 0) h (by omega) rfl _ p g,
      zeroBlock_apply, zero_add, Finset.sum_range_one]
  | j + 1, hj, h, p, g => by
    have ih := sAt1_shares c q j (by omega) (Nat.lt_of_succ_lt h) p g
    show sAt1 (F := Ideal) V c ((4 * q + j) + 1) h (ValueIdx.ix2 p g) = _
    rw [sAt1_step V c (4 * q + j) h (by omega), accStep_point V c q (j + 1) ((4 * q + j) + 1) h hj rfl _ p g, ih,
      Finset.sum_range_succ _ (j + 1)]

/-! ## The four column tiles are the whole contraction -/

/-- A sum over the 8192 columns, taken column tile by column tile. -/
theorem sum_tiles (f : Fin 8192 → EReal) :
    ∑ s ∈ Finset.range 4, ∑ k : Fin 2048, f (tileCol s k) = ∑ cc : Fin 8192, f cc := by
  rw [← Fin.sum_univ_eq_sum_range (fun s => ∑ k : Fin 2048, f (tileCol s k)) 4]
  have e := Equiv.sum_comp (finProdFinEquiv (m := 4) (n := 2048)) (f : Fin (4 * 2048) → EReal)
  refine Eq.trans ?_ e
  rw [Fintype.sum_prod_type]
  refine Finset.sum_congr rfl fun s _ => Finset.sum_congr rfl fun k _ => congrArg f (Fin.ext ?_)
  show s.val % 4 * 2048 + k.val = k.val + 2048 * s.val
  have := s.isLt
  omega

/-- The hidden array as the kernel's arrangement gives it: the rectified layer at every entry. -/
def hiddenArr (c : Dev nD) : FVec Ideal S8192x64 .f32 :=
  fun j => max (Cert.Spec.klayerArr (V c main_arg1) (V c main_arg0) (V c main_v0) (V c main_arg2) (V c main_v1) j) 0

/-- The output block computed after a row tile's last column tile, at row p and output feature f, is the rectified
    layer at that row of the array. -/
theorem outBlock_apply (c : Dev nD) (t : Fin cfg1.N) (ht : t.val % 4 = 3) (p : Fin 512) (f : Fin 64) :
    oAt1 (F := Ideal) V c t (ValueIdx.ix2 p f) = hiddenArr V c (ValueIdx.ix2 (tileRow (t.val / 4) p) f) := by
  have h64 : t.val < 64 := t.isLt
  have hp := p.isLt
  have same : ∀ (u : ℕ) (hu : u < cfg1.N), u = t.val → sAt1 (F := Ideal) V c u hu = sAt1 V c t.val t.isLt := by
    intro u hu e; subst e; rfl
  have hu : 4 * (t.val / 4) + 3 < cfg1.N := by show 4 * (t.val / 4) + 3 < 64; omega
  unfold oAt1
  rw [finalize_apply (sAt1 V c t.val t.isLt) (drow1 V c t) (wblk1 V c t) (bblk1 V c t) p f,
    ← same (4 * (t.val / 4) + 3) hu (by omega),
    rowScale_apply V c t (ValueIdx.ix2 p (0 : Fin 1)) (ValueIdx.ix2 (tileRow (t.val / 4) p) (0 : Fin 1))
      (by show t.val / 4 % 16 * 512 + p.val = t.val / 4 * 512 + p.val; omega) rfl,
    biasBlock_apply V c t (ValueIdx.ix2 (0 : Fin 1) f)]
  show _ = max ((∑ g : Fin 128, ((∑ cc : Fin 8192, Cert.Spec.mat (V c main_arg1) (tileRow (t.val / 4) p) cc
        * (Cert.Spec.mat (V c main_arg0) cc g * V c main_v0 (ValueIdx.ix2 cc (0 : Fin 1))))
        * V c main_v0 (ValueIdx.ix2 (tileRow (t.val / 4) p) (0 : Fin 1))) * Cert.Spec.mat (V c main_arg2) g f)
      + V c main_v1 (ValueIdx.ix2 (0 : Fin 1) f)) 0
  refine congrArg (fun z => max (z + V c main_v1 (ValueIdx.ix2 (0 : Fin 1) f)) 0) (Finset.sum_congr rfl fun g _ => ?_)
  rw [sAt1_shares V c (t.val / 4) 3 (by decide) hu p g, weightBlock_apply V c t (ValueIdx.ix2 g f)]
  refine congrArg (fun z => z * V c main_v0 (ValueIdx.ix2 (tileRow (t.val / 4) p) (0 : Fin 1)) * V c main_arg2 (ValueIdx.ix2 g f)) ?_
  exact sum_tiles fun cc => Cert.Spec.mat (V c main_arg1) (tileRow (t.val / 4) p) cc
    * (Cert.Spec.mat (V c main_arg0) cc g * V c main_v0 (ValueIdx.ix2 cc (0 : Fin 1)))

/-! ## From the blocks to the array -/

/-- What a row tile's last point writes back is its block of the rectified layer. -/
theorem flushed1_eq (c : Dev nD) (t : Fin cfg1.N) (hf : (cfg1.win 6).flush t = true) :
    (dat1 (F := Ideal) V c).flushed 6 t = ((cfg1.win 6).blk t).view.read (Elt Ideal) (hiddenArr V c) := by
  have ht : t.val % 4 = 3 := (flush1_6 t).mp hf
  have h64 : t.val < 64 := t.isLt
  refine funext fun (y : S512x64.Idx) => ?_
  obtain ⟨p, f, rfl⟩ : ∃ (p : Fin 512) (f : Fin 64), y = ValueIdx.ix2 p f := ⟨y 0, y 1, ValueIdx.eq_ix2 y⟩
  have hemb : ((cfg1.win 6).blk t).view.emb (ValueIdx.ix2 p f) = ValueIdx.ix2 (tileRow (t.val / 4) p) f := by
    obtain ⟨-, -, -, -, -, -, -, -, -, -, -, -, e0, e1⟩ := blockIndex1 t
    funext a; apply Fin.ext
    match a with
    | ⟨0, _⟩ => show win1_6.index t (0 : Fin 2) * 512 + 1 * p.val = t.val / 4 % 16 * 512 + p.val; omega
    | ⟨1, _⟩ => show win1_6.index t (1 : Fin 2) * 64 + 1 * f.val = f.val; omega
  show oAt1 (F := Ideal) V c t (ValueIdx.ix2 p f) = hiddenArr V c (((cfg1.win 6).blk t).view.emb (ValueIdx.ix2 p f))
  rw [hemb, outBlock_apply V c t ht p f]

/-- An entry of the hidden array is in point t's block iff each coordinate is in the block's range on its axis. -/
theorem mem_outBlock1 (t : Fin cfg1.N) (i : S8192x64.Idx) :
    i ∈ ((cfg1.win 6).blk t).view.set ↔ ∀ a : Fin 2, win1_6.index t a * S512x64.size a ≤ (i a).val
      ∧ (i a).val < win1_6.index t a * S512x64.size a + S512x64.size a := by
  show i ∈ ((View.whole main_v3).slice (win1_6.rect t)).set ↔ _
  rw [View.set_slice_whole, Rect.mem_set_unit]
  exact Iff.rfl

/-- Every entry of the hidden array is written back by its row tile's last point. -/
theorem cover1 (i : S8192x64.Idx) :
    ∃ t : Fin cfg1.N, (cfg1.win 6).flush t = true ∧ i ∈ ((cfg1.win 6).blk t).view.set := by
  have hi0 : (i 0).val < 8192 := (i 0).isLt
  have hi1 : (i 1).val < 64 := (i 1).isLt
  have hN : 4 * ((i 0).val / 512) + 3 < cfg1.N := by show 4 * ((i 0).val / 512) + 3 < 64; omega
  refine ⟨⟨4 * ((i 0).val / 512) + 3, hN⟩, (flush1_6 _).mpr (by show (4 * ((i 0).val / 512) + 3) % 4 = 3; omega), ?_⟩
  rw [mem_outBlock1]
  obtain ⟨-, -, -, -, -, -, -, -, -, -, -, -, e0, e1⟩ := blockIndex1 ⟨4 * ((i 0).val / 512) + 3, hN⟩
  have e0' : win1_6.index ⟨4 * ((i 0).val / 512) + 3, hN⟩ (0 : Fin 2) = (4 * ((i 0).val / 512) + 3) / 4 := e0
  intro a
  match a with
  | ⟨0, _⟩ =>
    show win1_6.index ⟨4 * ((i 0).val / 512) + 3, hN⟩ (0 : Fin 2) * 512 ≤ (i 0).val
      ∧ (i 0).val < win1_6.index ⟨4 * ((i 0).val / 512) + 3, hN⟩ (0 : Fin 2) * 512 + 512
    omega
  | ⟨1, _⟩ =>
    show win1_6.index ⟨4 * ((i 0).val / 512) + 3, hN⟩ (1 : Fin 2) * 64 ≤ (i 1).val
      ∧ (i 1).val < win1_6.index ⟨4 * ((i 0).val / 512) + 3, hN⟩ (1 : Fin 2) * 64 + 64
    omega

/-- After the region the hidden array holds the rectified layer of the kernel's arrangement at every entry. -/
theorem arrAt_out1 (c : Dev nD) :
    (dat1 (F := Ideal) V c).arrAt 6 cfg1.N
      = ((fun j => max (Cert.Spec.klayerArr (V c main_arg1) (V c main_arg0) (V c main_v0) (V c main_arg2) (V c main_v1) j) 0) : FVec Ideal S8192x64 .f32) :=
  (dat1 (F := Ideal) V c).arrAt_eq_of_cover 6 (hiddenArr V c) (fun t hf => flushed1_eq V c t hf) (cover1)

end Cert.KernelIdeal.Hand

end
-- ==== Proof.Region2Value.lean ====
/-
  Region 2, the value at the ideal instance: after the region the result array holds ((Σ_c A i c · (h c f · d c)) · d i) · W2 + b2: the four column tiles' partial products, accumulated from zero, are the whole contraction over the 8192 columns.
-/
import proofs.«132783_j15479062135163_1_alg».proof.Proof.Region2Defs
import proofs.«132783_j15479062135163_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open scoped BigOperators

variable (V : (c : Dev nD) → (b : Ref sig .tc) → Buf (Elt Ideal) ((c : Thread nD τ).loc b))

/-! ## Where each window's block sits, decided over the 64 points -/

/-- Point `t` is column tile `t % 4` of row tile `t / 4`: the adjacency block moves on both axes, the feature and
    column-scaling blocks with the column tile, the row-scaling and result blocks with the row tile; the weights and the bias stay. -/
theorem blockIndex2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0
    ∧ win2_3.index t (0 : Fin 2) = t.val % 4 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val / 4 ∧ win2_6.index t (1 : Fin 2) = 0 :=
  (by decide +kernel : ∀ t : Fin grid2.N, _)

/-- The grid has 16 × 4 points. -/
theorem points2 : cfg2.N = 64 := by decide

/-! ## Each window's block, read at coordinates: an element of a block sits in its array at block index × block size + its own coordinate -/

/-- The adjacency block of point `t` holds rows `512 (t / 4) + p`, columns `2048 (t % 4) + q`. -/
theorem ablk2_apply (c : Dev nD) (t : Fin cfg2.N) (p : Fin 512) (q : Fin 2048) (i : S8192x8192.Idx)
    (h0 : (i 0).val = 512 * (t.val / 4) + p.val) (h1 : (i 1).val = 2048 * (t.val % 4) + q.val) :
    ablk2 V c t (ValueIdx.ix2 p q) = V c main_arg1 i := by
  obtain ⟨e0, e1, -⟩ := blockIndex2 t
  show V c main_arg1 (((cfg2.win 0).blk t).view.emb (ValueIdx.ix2 p q)) = V c main_arg1 i
  congr 1
  funext a; apply Fin.ext
  match a with
  | ⟨0, _⟩ => show win2_0.index t (0 : Fin 2) * 512 + 1 * p.val = (i 0).val; omega
  | ⟨1, _⟩ => show win2_0.index t (1 : Fin 2) * 2048 + 1 * q.val = (i 1).val; omega

/-- The feature block of point `t` holds rows `2048 (t % 4) + q` of the hidden layer, every column. -/
theorem xblk2_apply (c : Dev nD) (t : Fin cfg2.N) (q : Fin 2048) (g : Fin 64) (i : S8192x64.Idx)
    (h0 : (i 0).val = 2048 * (t.val % 4) + q.val) (h1 : (i 1).val = g.val) :
    xblk2 V c t (ValueIdx.ix2 q g) = V c main_v3 i := by
  obtain ⟨-, -, e0, e1, -⟩ := blockIndex2 t
  show V c main_v3 (((cfg2.win 1).blk t).view.emb (ValueIdx.ix2 q g)) = V c main_v3 i
  congr 1
  funext a; apply Fin.ext
  match a with
  | ⟨0, _⟩ => show win2_1.index t (0 : Fin 2) * 2048 + 1 * q.val = (i 0).val; omega
  | ⟨1, _⟩ => show win2_1.index t (1 : Fin 2) * 64 + 1 * g.val = (i 1).val; omega

/-- The row-scaling block of point `t` holds rows `512 (t / 4) + p` of the scaling column. -/
theorem drow2_apply (c : Dev nD) (t : Fin cfg2.N) (p : Fin 512) (z : Fin 1) (i : S8192x1.Idx)
    (h0 : (i 0).val = 512 * (t.val / 4) + p.val) :
    drow2 V c t (ValueIdx.ix2 p z) = V c main_v0 i := by
  obtain ⟨-, -, -, -, e0, e1, -⟩ := blockIndex2 t
  show V c main_v0 (((cfg2.win 2).blk t).view.emb (ValueIdx.ix2 p z)) = V c main_v0 i
  congr 1
  funext a; apply Fin.ext
  match a with
  | ⟨0, _⟩ => show win2_2.index t (0 : Fin 2) * 512 + 1 * p.val = (i 0).val; omega
  | ⟨1, _⟩ => show win2_2.index t (1 : Fin 2) * 1 + 1 * z.val = (i 1).val; have hi : (i 1).val < 1 := (i 1).isLt; have hz : z.val < 1 := z.isLt; omega

/-- The column-scaling block of point `t` holds rows `2048 (t % 4) + q` of the scaling column. -/
theorem dcol2_apply (c : Dev nD) (t : Fin cfg2.N) (q : Fin 2048) (z : Fin 1) (i : S8192x1.Idx)
    (h0 : (i 0).val = 2048 * (t.val % 4) + q.val) :
    dcol2 V c t (ValueIdx.ix2 q z) = V c main_v0 i := by
  obtain ⟨-, -, -, -, -, -, e0, e1, -⟩ := blockIndex2 t
  show V c main_v0 (((cfg2.win 3).blk t).view.emb (ValueIdx.ix2 q z)) = V c main_v0 i
  congr 1
  funext a; apply Fin.ext
  match a with
  | ⟨0, _⟩ => show win2_3.index t (0 : Fin 2) * 2048 + 1 * q.val = (i 0).val; omega
  | ⟨1, _⟩ => show win2_3.index t (1 : Fin 2) * 1 + 1 * z.val = (i 1).val; have hi : (i 1).val < 1 := (i 1).isLt; have hz : z.val < 1 := z.isLt; omega

/-- The weights' block is the whole array at every point. -/
theorem wblk2_apply (c : Dev nD) (t : Fin cfg2.N) (g : Fin 64) (f : Fin 2) :
    wblk2 V c t (ValueIdx.ix2 g f) = V c main_arg4 (ValueIdx.ix2 g f) := by
  obtain ⟨-, -, -, -, -, -, -, -, e0, e1, -⟩ := blockIndex2 t
  show V c main_arg4 (((cfg2.win 4).blk t).view.emb (ValueIdx.ix2 g f)) = V c main_arg4 (ValueIdx.ix2 g f)
  congr 1
  funext a; apply Fin.ext
  match a with
  | ⟨0, _⟩ => show win2_4.index t (0 : Fin 2) * 64 + 1 * g.val = g.val; omega
  | ⟨1, _⟩ => show win2_4.index t (1 : Fin 2) * 2 + 1 * f.val = f.val; omega

/-- The bias row's block is the whole array at every point. -/
theorem bblk2_apply (c : Dev nD) (t : Fin cfg2.N) (z : Fin 1) (f : Fin 2) :
    bblk2 V c t (ValueIdx.ix2 z f) = V c main_v2 (ValueIdx.ix2 z f) := by
  obtain ⟨-, -, -, -, -, -, -, -, -, -, e0, e1, -⟩ := blockIndex2 t
  show V c main_v2 (((cfg2.win 5).blk t).view.emb (ValueIdx.ix2 z f)) = V c main_v2 (ValueIdx.ix2 z f)
  congr 1
  funext a; apply Fin.ext
  match a with
  | ⟨0, _⟩ => show win2_5.index t (0 : Fin 2) * 1 + 1 * z.val = z.val; omega
  | ⟨1, _⟩ => show win2_5.index t (1 : Fin 2) * 2 + 1 * f.val = f.val; omega

/-! ## The three payloads at the ideal values, read at an entry -/

/-- The block the accumulator is reset to is zero everywhere. -/
theorem zeroBlock2_apply (j : S512x64.Idx) : k2_pay1 (F := Ideal) j = 0 := by
  unfold k2_pay1
  simp only [shapeCast_self]
  exact Ideal.ofBits_zero_f32

/-- A column of 2048 scalings spread over 64 columns reads its row's scaling. -/
theorem spreadColTile2_apply (d : Vec Ideal S2048x1 .f32) (h : S2048x1.Broadcasts S2048x64) (j : S2048x64.Idx) :
    broadcastTo S2048x64 d h j = d (ValueIdx.ix2 (j 0) 0) :=
  broadcastTo_apply d h j (ValueIdx.ix2 (j 0) 0) fun a => by
    match a with
    | ⟨0, _⟩ => exact (if_neg (show ¬(2048 : Nat) = 1 by decide)).symm
    | ⟨1, _⟩ => exact (if_pos rfl).symm

/-- A column of 512 scalings spread over 64 columns reads its row's scaling. -/
theorem spreadRowTile2_apply (d : Vec Ideal S512x1 .f32) (h : S512x1.Broadcasts S512x64) (j : S512x64.Idx) :
    broadcastTo S512x64 d h j = d (ValueIdx.ix2 (j 0) 0) :=
  broadcastTo_apply d h j (ValueIdx.ix2 (j 0) 0) fun a => by
    match a with
    | ⟨0, _⟩ => exact (if_neg (show ¬(512 : Nat) = 1 by decide)).symm
    | ⟨1, _⟩ => exact (if_pos rfl).symm

/-- A bias row spread over 512 rows reads its column's bias. -/
theorem spreadBias2_apply (b : Vec Ideal S1x2 .f32) (h : S1x2.Broadcasts S512x2) (j : S512x2.Idx) :
    broadcastTo S512x2 b h j = b (ValueIdx.ix2 0 (j 1)) :=
  broadcastTo_apply b h j (ValueIdx.ix2 0 (j 1)) fun a => by
    match a with
    | ⟨0, _⟩ => exact (if_pos rfl).symm
    | ⟨1, _⟩ => exact (if_neg (show ¬(2 : Nat) = 1 by decide)).symm

/-! ### The accumulating product: 512 × 2048 times 2048 × 64, contracted over the column tile -/

theorem agg2Lhs_0 (j : S512x64.Idx) (q : dot_S512x2048_S2048x64_S512x64_1_0_0_1_n_n.contr.Idx) :
    (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem agg2Lhs_1 (j : S512x64.Idx) (q : dot_S512x2048_S2048x64_S512x64_1_0_0_1_n_n.contr.Idx) :
    (dot_S512x2048_S2048x64_S512x64_1_0_0_1_n_n.lhsIdx j q 1).val = (q ⟨0, by decide⟩).val :=
  dot_S512x2048_S2048x64_S512x64_1_0_0_1_n_n.lhsIdx_val_of_single rfl j q
theorem agg2Rhs_0 (j : S512x64.Idx) (q : dot_S512x2048_S2048x64_S512x64_1_0_0_1_n_n.contr.Idx) :
    (dot_S512x2048_S2048x64_S512x64_1_0_0_1_n_n.rhsIdx j q 0).val = (q ⟨0, by decide⟩).val :=
  dot_S512x2048_S2048x64_S512x64_1_0_0_1_n_n.rhsIdx_val_of_single rfl j q
theorem agg2Rhs_1 (j : S512x64.Idx) (q : dot_S512x2048_S2048x64_S512x64_1_0_0_1_n_n.contr.Idx) :
    (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The product of a 512 × 2048 block and a 2048 × 64 block into zero, at an entry: the sum over the 2048 inner coordinates. -/
theorem agg2Product_apply (a : FVec Ideal S512x2048 .bf16) (y : FVec Ideal S2048x64 .bf16) (j : S512x64.Idx) :
    FloatOps.matmul dot_S512x2048_S2048x64_S512x64_1_0_0_1_n_n none a y (constant S512x64 .f32 0x00000000#32) j
      = ∑ q : Fin 2048, a (ValueIdx.ix2 (j 0) q) * y (ValueIdx.ix2 q (j 1)) := by
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx j ((ValueIdx.contrEquiv1 dot_S512x2048_S2048x64_S512x64_1_0_0_1_n_n 2048 rfl rfl).symm k) = ValueIdx.ix2 (j 0) k := funext fun a => Fin.ext (by
    match a with
    | ⟨0, _⟩ => exact agg2Lhs_0 _ _
    | ⟨1, _⟩ => exact (agg2Lhs_1 _ _).trans hk)
  have er : dot_S512x2048_S2048x64_S512x64_1_0_0_1_n_n.rhsIdx j ((ValueIdx.contrEquiv1 dot_S512x2048_S2048x64_S512x64_1_0_0_1_n_n 2048 rfl rfl).symm k) = ValueIdx.ix2 k (j 1) := funext fun a => Fin.ext (by
    match a with
    | ⟨0, _⟩ => exact (agg2Rhs_0 _ _).trans hk
    | ⟨1, _⟩ => exact agg2Rhs_1 _ _)
  rw [el, er]
  rfl

/-- The accumulating step at an entry: what the accumulator held plus this column tile's partial product, the
    features scaled by their rows' scalings first. -/
theorem accumulate2_apply (x : Vec Ideal S2048x64 .f32) (d : Vec Ideal S2048x1 .f32) (a : Vec Ideal S512x2048 .f32)
    (acc : Vec Ideal S512x64 .f32) (j : S512x64.Idx) :
    k2_pay2 x d a acc j = acc j + ∑ q : Fin 2048, a (ValueIdx.ix2 (j 0) q) * (x (ValueIdx.ix2 q (j 1)) * d (ValueIdx.ix2 q 0)) := by
  unfold k2_pay2
  simp only [shapeCast_self, matmul]
  rw [ValueIdx.addf_apply, agg2Product_apply]
  refine congrArg (acc j + ·) (Finset.sum_congr rfl fun q _ => ?_)
  rw [ValueIdx.truncf_apply, ValueIdx.truncf_apply, ValueIdx.mulf_apply, spreadColTile2_apply]

/-! ### The dense layer's product: 512 × 64 times 64 × 2 -/

theorem lin2Lhs_0 (j : S512x2.Idx) (q : dot_S512x64_S64x2_S512x2_1_0_0_1_n_n.contr.Idx) :
    (dot_S512x64_S64x2_S512x2_1_0_0_1_n_n.lhsIdx j q 0).val = (j 0).val := by
  unfold DotDims.lhsIdx
  rw [dif_neg (show ¬(0 : Fin S512x64.rank) ∈ dot_S512x64_S64x2_S512x2_1_0_0_1_n_n.lhsBatch by decide), dif_pos (show (0 : Fin S512x64.rank) ∈ dot_S512x64_S64x2_S512x2_1_0_0_1_n_n.lhsNonContracting by decide)]
  rfl
theorem lin2Lhs_1 (j : S512x2.Idx) (q : dot_S512x64_S64x2_S512x2_1_0_0_1_n_n.contr.Idx) :
    (dot_S512x64_S64x2_S512x2_1_0_0_1_n_n.lhsIdx j q 1).val = (q ⟨0, by decide⟩).val :=
  dot_S512x64_S64x2_S512x2_1_0_0_1_n_n.lhsIdx_val_of_single rfl j q
theorem lin2Rhs_0 (j : S512x2.Idx) (q : dot_S512x64_S64x2_S512x2_1_0_0_1_n_n.contr.Idx) :
    (dot_S512x64_S64x2_S512x2_1_0_0_1_n_n.rhsIdx j q 0).val = (q ⟨0, by decide⟩).val :=
  dot_S512x64_S64x2_S512x2_1_0_0_1_n_n.rhsIdx_val_of_single rfl j q
theorem lin2Rhs_1 (j : S512x2.Idx) (q : dot_S512x64_S64x2_S512x2_1_0_0_1_n_n.contr.Idx) :
    (dot_S512x64_S64x2_S512x2_1_0_0_1_n_n.rhsIdx j q 1).val = (j 1).val := by
  unfold DotDims.rhsIdx
  rw [dif_neg (show ¬(1 : Fin S64x2.rank) ∈ dot_S512x64_S64x2_S512x2_1_0_0_1_n_n.rhsBatch by decide), dif_pos (show (1 : Fin S64x2.rank) ∈ dot_S512x64_S64x2_S512x2_1_0_0_1_n_n.rhsNonContracting by decide)]
  rfl

/-- The product of a 512 × 64 block and the 64 × 2 weights into zero, at an entry: the sum over the 64 hidden coordinates. -/
theorem lin2Product_apply (s : FVec Ideal S512x64 .bf16) (w : FVec Ideal S64x2 .bf16) (j : S512x2.Idx) :
    FloatOps.matmul dot_S512x64_S64x2_S512x2_1_0_0_1_n_n none s w (constant S512x2 .f32 0x00000000#32) j
      = ∑ g : Fin 64, s (ValueIdx.ix2 (j 0) g) * w (ValueIdx.ix2 g (j 1)) := by
  rw [Ideal.matmul_constant_zero_apply, ← Equiv.sum_comp (ValueIdx.contrEquiv1 dot_S512x64_S64x2_S512x2_1_0_0_1_n_n 64 rfl rfl).symm]
  refine Finset.sum_congr rfl fun k _ => ?_
  have hk := ValueIdx.contrEquiv1_symm_val dot_S512x64_S64x2_S512x2_1_0_0_1_n_n 64 rfl rfl k
  have el : dot_S512x64_S64x2_S512x2_1_0_0_1_n_n.lhsIdx j ((ValueIdx.contrEquiv1 dot_S512x64_S64x2_S512x2_1_0_0_1_n_n 64 rfl rfl).symm k) = ValueIdx.ix2 (j 0) k := funext fun a => Fin.ext (by
    match a with
    | ⟨0, _⟩ => exact lin2Lhs_0 _ _
    | ⟨1, _⟩ => exact (lin2Lhs_1 _ _).trans hk)
  have er : dot_S512x64_S64x2_S512x2_1_0_0_1_n_n.rhsIdx j ((ValueIdx.contrEquiv1 dot_S512x64_S64x2_S512x2_1_0_0_1_n_n 64 rfl rfl).symm k) = ValueIdx.ix2 k (j 1) := funext fun a => Fin.ext (by
    match a with
    | ⟨0, _⟩ => exact (lin2Rhs_0 _ _).trans hk
    | ⟨1, _⟩ => exact lin2Rhs_1 _ _)
  rw [el, er]
  rfl

/-- The closing step at an entry: the accumulated rows scaled by their own scalings, contracted with the weights, plus the bias. -/
theorem finalize2_apply (s : Vec Ideal S512x64 .f32) (dr : Vec Ideal S512x1 .f32) (w : Vec Ideal S64x2 .f32)
    (b : Vec Ideal S1x2 .f32) (j : S512x2.Idx) :
    k2_pay3 s dr w b j
      = (∑ g : Fin 64, (s (ValueIdx.ix2 (j 0) g) * dr (ValueIdx.ix2 (j 0) 0)) * w (ValueIdx.ix2 g (j 1))) + b (ValueIdx.ix2 0 (j 1)) := by
  unfold k2_pay3
  simp only [shapeCast_self, matmul]
  rw [ValueIdx.addf_apply, lin2Product_apply, spreadBias2_apply]
  refine congrArg (· + b (ValueIdx.ix2 0 (j 1))) (Finset.sum_congr rfl fun g _ => ?_)
  rw [ValueIdx.truncf_apply, ValueIdx.truncf_apply, ValueIdx.mulf_apply, spreadRowTile2_apply]

/-! ## The accumulator: after column tile `k` of a row tile it holds the aggregation over the first `k + 1` column tiles -/

/-- The adjacency matrix as the region finds it. -/
abbrev adj2 (c : Dev nD) : Vec Ideal S8192x8192 .f32 := V c main_arg1
/-- The hidden layer as the region finds it. -/
abbrev hid2 (c : Dev nD) : Vec Ideal S8192x64 .f32 := V c main_v3
/-- The scaling column as the region finds it. -/
abbrev scal2 (c : Dev nD) : Vec Ideal S8192x1 .f32 := V c main_v0

/-- Column `k`'s term of row `r`'s aggregation of feature `g`, at natural-number coordinates (zero past the arrays,
    so that sums over tiles need no bounds). -/
def aggTerm2 (A : S8192x8192.Idx → EReal) (H : S8192x64.Idx → EReal) (D : S8192x1.Idx → EReal) (g : Fin 64) (r k : ℕ) : EReal :=
  if h : r < 8192 ∧ k < 8192 then
    A (ValueIdx.ix2 (⟨r, h.1⟩ : Fin 8192) (⟨k, h.2⟩ : Fin 8192))
      * (H (ValueIdx.ix2 (⟨k, h.2⟩ : Fin 8192) g) * D (ValueIdx.ix2 (⟨k, h.2⟩ : Fin 8192) (0 : Fin 1)))
  else 0

theorem aggTerm2_of_lt (A : S8192x8192.Idx → EReal) (H : S8192x64.Idx → EReal) (D : S8192x1.Idx → EReal) (g : Fin 64)
    (r k : Fin 8192) :
    aggTerm2 A H D g r.val k.val = A (ValueIdx.ix2 r k) * (H (ValueIdx.ix2 k g) * D (ValueIdx.ix2 k (0 : Fin 1))) := by
  unfold aggTerm2
  rw [dif_pos ⟨r.isLt, k.isLt⟩]

/-- Column tile `s`'s part of row `r`'s aggregation of feature `g`. -/
def tileAgg2 (A : S8192x8192.Idx → EReal) (H : S8192x64.Idx → EReal) (D : S8192x1.Idx → EReal) (g : Fin 64) (r s : ℕ) : EReal :=
  ∑ q : Fin 2048, aggTerm2 A H D g r (2048 * s + q.val)

/-- This point's partial product at row `p`, feature `g` is its column tile's part of the row's aggregation. -/
theorem tileProduct2 (c : Dev nD) (t : Fin cfg2.N) (p : Fin 512) (g : Fin 64) :
    ∑ q : Fin 2048, ablk2 V c t (ValueIdx.ix2 p q) * (xblk2 V c t (ValueIdx.ix2 q g) * dcol2 V c t (ValueIdx.ix2 q (0 : Fin 1)))
      = tileAgg2 (adj2 V c) (hid2 V c) (scal2 V c) g (512 * (t.val / 4) + p.val) (t.val % 4) := by
  have ht : t.val < 64 := t.isLt
  refine Finset.sum_congr rfl fun q _ => ?_
  have hr : 512 * (t.val / 4) + p.val < 8192 := by have := p.isLt; omega
  have hk : 2048 * (t.val % 4) + q.val < 8192 := by have := q.isLt; omega
  rw [show aggTerm2 (adj2 V c) (hid2 V c) (scal2 V c) g (512 * (t.val / 4) + p.val) (2048 * (t.val % 4) + q.val)
      = aggTerm2 (adj2 V c) (hid2 V c) (scal2 V c) g (⟨_, hr⟩ : Fin 8192).val (⟨_, hk⟩ : Fin 8192).val from rfl,
    aggTerm2_of_lt,
    ablk2_apply V c t p q (ValueIdx.ix2 (⟨_, hr⟩ : Fin 8192) (⟨_, hk⟩ : Fin 8192)) rfl rfl,
    xblk2_apply V c t q g (ValueIdx.ix2 (⟨_, hk⟩ : Fin 8192) g) rfl rfl,
    dcol2_apply V c t q 0 (ValueIdx.ix2 (⟨_, hk⟩ : Fin 8192) (0 : Fin 1)) rfl]

/-- After point `n` the accumulator holds, at row `p` and feature `g`, the parts of column tiles `0 … n % 4` of the
    row's aggregation: by induction on the point; at a multiple of 4 the sum restarts from the zero block. -/
theorem sAt2_apply (c : Dev nD) (p : Fin 512) (g : Fin 64) : ∀ (n : ℕ) (hn : n < cfg2.N),
    sAt2 V c n hn (ValueIdx.ix2 p g)
      = ∑ s ∈ Finset.range (n % 4 + 1), tileAgg2 (adj2 V c) (hid2 V c) (scal2 V c) g (512 * (n / 4) + p.val) s
  | 0, hn => by
    show k2_pay2 (xblk2 V c ⟨0, hn⟩) (dcol2 V c ⟨0, hn⟩) (ablk2 V c ⟨0, hn⟩) (k2_pay1 (F := Ideal)) (ValueIdx.ix2 p g) = _
    refine (accumulate2_apply (xblk2 V c ⟨0, hn⟩) (dcol2 V c ⟨0, hn⟩) (ablk2 V c ⟨0, hn⟩) (k2_pay1 (F := Ideal)) (ValueIdx.ix2 p g)).trans ?_
    rw [zeroBlock2_apply, zero_add]
    refine (tileProduct2 V c ⟨0, hn⟩ p g).trans ?_
    exact (Finset.sum_range_one _).symm
  | n + 1, hn => by
    have ih := sAt2_apply c p g n (Nat.lt_of_succ_lt hn)
    by_cases h : (n + 1) % 4 = 0
    · have e : sAt2 V c (n + 1) hn
          = k2_pay2 (xblk2 V c ⟨n + 1, hn⟩) (dcol2 V c ⟨n + 1, hn⟩) (ablk2 V c ⟨n + 1, hn⟩) (k2_pay1 (F := Ideal)) := by
        rw [sAt2, if_pos h]
      rw [e]
      refine (accumulate2_apply (xblk2 V c ⟨n + 1, hn⟩) (dcol2 V c ⟨n + 1, hn⟩) (ablk2 V c ⟨n + 1, hn⟩) (k2_pay1 (F := Ideal)) (ValueIdx.ix2 p g)).trans ?_
      rw [zeroBlock2_apply, zero_add, h, Finset.sum_range_one]
      refine (tileProduct2 V c ⟨n + 1, hn⟩ p g).trans ?_
      show tileAgg2 _ _ _ g (512 * ((n + 1) / 4) + p.val) ((n + 1) % 4) = _
      rw [h]
    · have e : sAt2 V c (n + 1) hn
          = k2_pay2 (xblk2 V c ⟨n + 1, hn⟩) (dcol2 V c ⟨n + 1, hn⟩) (ablk2 V c ⟨n + 1, hn⟩) (sAt2 V c n (Nat.lt_of_succ_lt hn)) := by
        rw [sAt2, if_neg h]
      rw [e]
      refine (accumulate2_apply (xblk2 V c ⟨n + 1, hn⟩) (dcol2 V c ⟨n + 1, hn⟩) (ablk2 V c ⟨n + 1, hn⟩) (sAt2 V c n (Nat.lt_of_succ_lt hn)) (ValueIdx.ix2 p g)).trans ?_
      rw [ih]
      have h1 : (n + 1) / 4 = n / 4 := by omega
      have h2 : (n + 1) % 4 = n % 4 + 1 := by omega
      rw [h1, h2, Finset.sum_range_succ _ (n % 4 + 1)]
      refine congrArg (_ + ·) ?_
      refine (tileProduct2 V c ⟨n + 1, hn⟩ p g).trans ?_
      show tileAgg2 _ _ _ g (512 * ((n + 1) / 4) + p.val) ((n + 1) % 4) = _
      rw [h1, h2]

/-- The four column tiles' parts are the row's whole aggregation: the 8192 columns are 4 tiles of 2048. -/
theorem sum_tileAgg2 (A : S8192x8192.Idx → EReal) (H : S8192x64.Idx → EReal) (D : S8192x1.Idx → EReal) (g : Fin 64) (r : Fin 8192) :
    ∑ s ∈ Finset.range 4, tileAgg2 A H D g r.val s
      = ∑ k : Fin 8192, A (ValueIdx.ix2 r k) * (H (ValueIdx.ix2 k g) * D (ValueIdx.ix2 k (0 : Fin 1))) := by
  have e1 : ∑ k : Fin 8192, A (ValueIdx.ix2 r k) * (H (ValueIdx.ix2 k g) * D (ValueIdx.ix2 k (0 : Fin 1)))
      = ∑ k : Fin (4 * 2048), aggTerm2 A H D g r.val k.val :=
    Finset.sum_congr rfl fun k _ => (aggTerm2_of_lt A H D g r k).symm
  rw [e1, ← Equiv.sum_comp finProdFinEquiv, Fintype.sum_prod_type, Finset.sum_range]
  refine Finset.sum_congr rfl fun s _ => ?_
  unfold tileAgg2
  refine Finset.sum_congr rfl fun q _ => ?_
  show aggTerm2 A H D g r.val (2048 * s.val + q.val) = aggTerm2 A H D g r.val (q.val + 2048 * s.val)
  rw [Nat.add_comm]

/-! ## The output block, the write-backs, the array -/

/-- The second layer of the kernel's arrangement over the arrays the region finds. -/
abbrev layer2 (c : Dev nD) : FVec Ideal S8192x2 .f32 :=
  Cert.Spec.klayerArr (V c main_arg1) (V c main_v3) (V c main_v0) (V c main_arg4) (V c main_v2)

/-- At column tile 3 the output block holds, at row `p` and column `f`, the layer's entry at row `512 (t / 4) + p`. -/
theorem outBlock2_apply (c : Dev nD) (t : Fin cfg2.N) (h3 : t.val % 4 = 3) (p : Fin 512) (f : Fin 2) (r : Fin 8192)
    (hr : r.val = 512 * (t.val / 4) + p.val) :
    oAt2 V c t (ValueIdx.ix2 p f) = layer2 V c (ValueIdx.ix2 r f) := by
  unfold oAt2
  refine (finalize2_apply (sAt2 V c t.val t.isLt) (drow2 V c t) (wblk2 V c t) (bblk2 V c t) (ValueIdx.ix2 p f)).trans ?_
  show (∑ g : Fin 64, (sAt2 V c t.val t.isLt (ValueIdx.ix2 p g) * drow2 V c t (ValueIdx.ix2 p (0 : Fin 1))) * wblk2 V c t (ValueIdx.ix2 g f))
      + bblk2 V c t (ValueIdx.ix2 (0 : Fin 1) f)
    = (∑ g : Fin 64, ((∑ k : Fin 8192, adj2 V c (ValueIdx.ix2 r k) * (hid2 V c (ValueIdx.ix2 k g) * scal2 V c (ValueIdx.ix2 k (0 : Fin 1))))
          * scal2 V c (ValueIdx.ix2 r (0 : Fin 1))) * V c main_arg4 (ValueIdx.ix2 g f))
      + V c main_v2 (ValueIdx.ix2 (0 : Fin 1) f)
  rw [bblk2_apply, drow2_apply V c t p 0 (ValueIdx.ix2 r (0 : Fin 1)) hr]
  refine congrArg (· + _) (Finset.sum_congr rfl fun g _ => ?_)
  rw [wblk2_apply, sAt2_apply V c p g t.val t.isLt, h3, ← hr, sum_tileAgg2]

/-- What a point at column tile 3 writes back is its block of the layer. -/
theorem writeBack2_eq (c : Dev nD) (t : Fin cfg2.N) (hf : (cfg2.win 6).flush t = true) :
    (dat2 (F := Ideal) V c).flushed 6 t = ((cfg2.win 6).blk t).view.read (Elt Ideal) (layer2 V c) := by
  have h3 : t.val % 4 = 3 := (flush2_6 t).mp hf
  obtain ⟨-, -, -, -, -, -, -, -, -, -, -, -, e0, e1⟩ := blockIndex2 t
  have ht : t.val < 64 := t.isLt
  funext y
  have hy0 : (y 0).val < 512 := (y 0).isLt
  have hy1 : (y 1).val < 2 := (y 1).isLt
  rw [View.read_apply]
  show oAt2 V c t ((cfg2.win 6).xinj (grid2.coords t) y) = layer2 V c (((cfg2.win 6).blk t).view.emb y)
  have hx : (cfg2.win 6).xinj (grid2.coords t) y = ValueIdx.ix2 (⟨(y 0).val, hy0⟩ : Fin 512) (⟨(y 1).val, hy1⟩ : Fin 2) := by
    funext a
    match a with
    | ⟨0, _⟩ => rfl
    | ⟨1, _⟩ => rfl
  have hr : 512 * (t.val / 4) + (y 0).val < 8192 := by omega
  have he : ((cfg2.win 6).blk t).view.emb y = ValueIdx.ix2 (⟨_, hr⟩ : Fin 8192) (⟨(y 1).val, hy1⟩ : Fin 2) := by
    funext a; apply Fin.ext
    match a with
    | ⟨0, _⟩ => show win2_6.index t (0 : Fin 2) * 512 + 1 * (y 0).val = 512 * (t.val / 4) + (y 0).val; omega
    | ⟨1, _⟩ => show win2_6.index t (1 : Fin 2) * 2 + 1 * (y 1).val = (y 1).val; omega
  rw [hx, he]
  exact outBlock2_apply V c t h3 ⟨(y 0).val, hy0⟩ ⟨(y 1).val, hy1⟩ ⟨_, hr⟩ rfl

/-- An index of the result array is in point `t`'s block iff each coordinate is in the block's range on its axis. -/
theorem mem_outBlock2 (t : Fin cfg2.N) (i : S8192x2.Idx) :
    i ∈ ((cfg2.win 6).blk t).view.set ↔ ∀ a : Fin 2, win2_6.index t a * S512x2.size a ≤ (i a).val
      ∧ (i a).val < win2_6.index t a * S512x2.size a + S512x2.size a := by
  show i ∈ ((View.whole main_v4).slice (win2_6.rect t)).set ↔ _
  rw [View.set_slice_whole, Rect.mem_set_unit]
  exact Iff.rfl

/-- Row `r` lies in the block of the point at column tile 3 of row tile `r / 512`, which writes its block back. -/
theorem covered2 (i : S8192x2.Idx) :
    ∃ t : Fin cfg2.N, (cfg2.win 6).flush t = true ∧ i ∈ ((cfg2.win 6).blk t).view.set := by
  have hi0 : (i 0).val < 8192 := (i 0).isLt
  have hi1 : (i 1).val < 2 := (i 1).isLt
  obtain ⟨t, ht⟩ : ∃ t : Fin cfg2.N, t.val = 4 * ((i 0).val / 512) + 3 :=
    ⟨⟨4 * ((i 0).val / 512) + 3, by show _ < 64; omega⟩, rfl⟩
  obtain ⟨-, -, -, -, -, -, -, -, -, -, -, -, e0, e1⟩ := blockIndex2 t
  refine ⟨t, (flush2_6 t).mpr (by omega), ?_⟩
  rw [mem_outBlock2]
  intro a
  match a with
  | ⟨0, _⟩ =>
    show win2_6.index t (0 : Fin 2) * 512 ≤ (i 0).val ∧ (i 0).val < win2_6.index t (0 : Fin 2) * 512 + 512
    rw [e0]; omega
  | ⟨1, _⟩ =>
    show win2_6.index t (1 : Fin 2) * 2 ≤ (i 1).val ∧ (i 1).val < win2_6.index t (1 : Fin 2) * 2 + 2
    rw [e1]; omega

/-- After the region the result array holds the second layer of the kernel's arrangement at every entry. -/
theorem arrAt_out2 (c : Dev nD) :
    (dat2 (F := Ideal) V c).arrAt 6 cfg2.N
      = (Cert.Spec.klayerArr (V c main_arg1) (V c main_v3) (V c main_v0) (V c main_arg4) (V c main_v2) : FVec Ideal S8192x2 .f32) := by
  exact (dat2 (F := Ideal) V c).arrAt_eq_of_cover 6 (layer2 V c) (fun t hf => writeBack2_eq V c t hf) covered2

end Cert.KernelIdeal.Hand

end
-- ==== Proof.Bridge.lean ====
/-
  The kernel program's result array as the mathematics of Proof/Spec.lean: the three regions' closed forms chained
  through the valuations of Proof/Run.lean. Region 0 leaves the degree scaling; the two reshapes present the biases as
  rows; region 1 leaves the rectified first layer over that scaling; region 2 leaves the second layer over both.
-/
import proofs.«132783_j15479062135163_1_alg».proof.Proof.Run
import proofs.«132783_j15479062135163_1_alg».proof.Proof.Region0Value
import proofs.«132783_j15479062135163_1_alg».proof.Proof.Region1Value
import proofs.«132783_j15479062135163_1_alg».proof.Proof.Region2Value
import proofs.«132783_j15479062135163_1_alg».proof.Proof.Spec
import Idealize.ShloMosaic.Lib.StableHlo.Run
import Idealize.ShloMosaic.Lib.ValueLayout
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (m : (ℓ : Loc nD τ sig) → Buf (Elt Ideal) ℓ)

/-- The first reshape's result: the first bias as a row. -/
theorem W2_v1 (c : Dev nD) : (W2 m c main_v1 : FVec Ideal S1x64 .f32)
    = shapeCast S1x64 (W1 m c main_arg3 : FVec Ideal S64 .f32) shapeCasts_S64_S1x64 := by
  show StableHlo.after hostOps1 (W1 m c) (Proc.devRef .tc main_v1) = _
  after_results
  rfl

/-- The second reshape's result: the second bias as a row. -/
theorem W2_v2 (c : Dev nD) : (W2 m c main_v2 : FVec Ideal S1x2 .f32)
    = shapeCast S1x2 (W1 m c main_arg5 : FVec Ideal S2 .f32) shapeCasts_S2_S1x2 := by
  show StableHlo.after hostOps1 (W1 m c) (Proc.devRef .tc main_v2) = _
  after_results
  rfl

/-- A layer over the scaling array and a bias presented as a row is the layer of Proof/Spec.lean over the scaling
    function and the bias vector. -/
theorem klayerArr_row {n p : Nat} (A : (⟨2, ![8192, 8192]⟩ : Shape).Idx → EReal) (X : (⟨2, ![8192, n]⟩ : Shape).Idx → EReal)
    (W : (⟨2, ![n, p]⟩ : Shape).Idx → EReal) (b : (⟨1, ![p]⟩ : Shape).Idx → EReal)
    (h : (⟨1, ![p]⟩ : Shape).ShapeCasts ⟨2, ![1, p]⟩) (j : (⟨2, ![8192, p]⟩ : Shape).Idx) :
    Cert.Spec.klayerArr A X (Cert.Spec.dArr A) W (shapeCast ⟨2, ![1, p]⟩ b h) j
      = Cert.Spec.lin (Cert.Spec.kagg (Cert.Spec.mat A) (Cert.Spec.mat X) (Cert.Spec.dinv (Cert.Spec.mat A))) (Cert.Spec.mat W) (Cert.Spec.vec b) (j 0) (j 1) := by
  unfold Cert.Spec.klayerArr
  have hb : (fun f : Fin p => shapeCast ⟨2, ![1, p]⟩ b h (ix2 (0 : Fin 1) f)) = Cert.Spec.vec b :=
    funext fun f => ValueIdx.shapeCast_a_1a_apply b h 0 f
  rw [hb]
  rfl

/-- The scaling array after region 0. -/
theorem W1_v0 (c : Dev nD) : (W1 m c main_v0 : FVec Ideal S8192x1 .f32) = Cert.Spec.dArr (m ((c : Thread nD τ).loc main_arg1)) :=
  (W1_out m c).trans (arrAt_out0 (V0 m) c)

/-- The hidden array after region 1: the rectified first layer. -/
theorem W3_v3 (c : Dev nD) : (W3 m c main_v3 : FVec Ideal S8192x64 .f32)
    = fun j => Cert.Spec.khid (Cert.Spec.mat (m ((c : Thread nD τ).loc main_arg0))) (Cert.Spec.mat (m ((c : Thread nD τ).loc main_arg1)))
        (Cert.Spec.mat (m ((c : Thread nD τ).loc main_arg2))) (Cert.Spec.vec (m ((c : Thread nD τ).loc main_arg3))) (j 0) (j 1) := by
  refine (W3_out m c).trans ((arrAt_out1 (V2 m) c).trans ?_)
  have e1 : V2 m c main_arg1 = m ((c : Thread nD τ).loc main_arg1) := W2_arg m c main_arg1 (by decide) (by decide)
  have e0 : V2 m c main_arg0 = m ((c : Thread nD τ).loc main_arg0) := W2_arg m c main_arg0 (by decide) (by decide)
  have e2 : V2 m c main_arg2 = m ((c : Thread nD τ).loc main_arg2) := W2_arg m c main_arg2 (by decide) (by decide)
  have ed : (V2 m c main_v0 : FVec Ideal S8192x1 .f32) = Cert.Spec.dArr (m ((c : Thread nD τ).loc main_arg1)) :=
    (W2_of m c main_v0 (by decide)).trans (W1_v0 m c)
  have eb : (V2 m c main_v1 : FVec Ideal S1x64 .f32) = shapeCast S1x64 (m ((c : Thread nD τ).loc main_arg3) : FVec Ideal S64 .f32) shapeCasts_S64_S1x64 :=
    (W2_v1 m c).trans (by rw [show W1 m c main_arg3 = m ((c : Thread nD τ).loc main_arg3) from W1_of_ne m c main_arg3 (by decide)])
  rw [e1, e0, e2, ed, eb]
  funext j
  rw [klayerArr_row]
  rfl

/-- The result array after region 2: the second layer over the rectified first. -/
theorem result_eq (c : Dev nD) : ((dat2 (V3 m) c).arrAt 6 cfg2.N : FVec Ideal S8192x2 .f32)
    = Cert.Spec.koutArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (arrAt_out2 (V3 m) c).trans ?_
  have e1 : V3 m c main_arg1 = m ((c : Thread nD τ).loc main_arg1) :=
    (W3_of_ne m c main_arg1 (by decide)).trans (W2_arg m c main_arg1 (by decide) (by decide))
  have e4 : V3 m c main_arg4 = m ((c : Thread nD τ).loc main_arg4) :=
    (W3_of_ne m c main_arg4 (by decide)).trans (W2_arg m c main_arg4 (by decide) (by decide))
  have eh : (V3 m c main_v3 : FVec Ideal S8192x64 .f32)
      = fun j => Cert.Spec.khid (Cert.Spec.mat (m ((c : Thread nD τ).loc main_arg0))) (Cert.Spec.mat (m ((c : Thread nD τ).loc main_arg1)))
          (Cert.Spec.mat (m ((c : Thread nD τ).loc main_arg2))) (Cert.Spec.vec (m ((c : Thread nD τ).loc main_arg3))) (j 0) (j 1) := W3_v3 m c
  have ed : (V3 m c main_v0 : FVec Ideal S8192x1 .f32) = Cert.Spec.dArr (m ((c : Thread nD τ).loc main_arg1)) :=
    (W3_of_ne m c main_v0 (by decide)).trans ((W2_of m c main_v0 (by decide)).trans (W1_v0 m c))
  have eb : (V3 m c main_v2 : FVec Ideal S1x2 .f32) = shapeCast S1x2 (m ((c : Thread nD τ).loc main_arg5) : FVec Ideal S2 .f32) shapeCasts_S2_S1x2 :=
    (W3_of_ne m c main_v2 (by decide)).trans ((W2_v2 m c).trans (by rw [show W1 m c main_arg5 = m ((c : Thread nD τ).loc main_arg5) from W1_of_ne m c main_arg5 (by decide)]))
  rw [e1, e4, eh, ed, eb]
  funext j
  rw [klayerArr_row]
  rfl

end Cert.KernelIdeal.Hand

end
-- ==== Proof.RefValue.lean ====
/-
  The reference program's run read as the mathematics of Proof/Spec.lean: its result array is `Cert.Spec.routArr` of the
  six argument arrays, and it leaves the arguments unchanged.
-/
import proofs.«132783_j15479062135163_1_alg».proof.Defs
import proofs.«132783_j15479062135163_1_alg».proof.Proof.Gen.ReferenceIdeal
import proofs.«132783_j15479062135163_1_alg».proof.Proof.Gen.ReferenceIdeal.Run
import proofs.«132783_j15479062135163_1_alg».proof.Proof.Gen.ReferenceIdeal.Read
import proofs.«132783_j15479062135163_1_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem

namespace Cert.ReferenceIdeal.RefValue

open Cert.ReferenceIdeal

section Stages

open Cert.ReferenceIdeal.Read Idealize.ShloMosaic.ValueIdx Cert.Spec
open scoped BigOperators

variable (x : (⟨S8192x128, .f32⟩ : BufTy).Contents (Elt Ideal)) (A : (⟨S8192x8192, .f32⟩ : BufTy).Contents (Elt Ideal))
  (W1 : (⟨S128x64, .f32⟩ : BufTy).Contents (Elt Ideal)) (b1 : (⟨S64, .f32⟩ : BufTy).Contents (Elt Ideal))
  (W2 : (⟨S64x2, .f32⟩ : BufTy).Contents (Elt Ideal)) (b2 : (⟨S2, .f32⟩ : BufTy).Contents (Elt Ideal))

/-! ## The degree scaling: one over the square root of a row's sum plus ε -/

/-- Entry `k` of row `i`, as the row sum reads it. -/
theorem rowEntry (i k : Fin 8192) : idx_main_v0 (ix1 i) k = ix2 i k :=
  funext fun a => Fin.ext (by match a with | ⟨0, _⟩ => rfl | ⟨1, _⟩ => rfl)

/-- The scaling vector at `i` is `dinv` of the matrix at `i`: the sum starts from the zero word, the numerator is the
    word of one and the added constant the word of ε. -/
theorem scaling_at (i : Fin 8192) : val_main_v5 (F := Ideal) A (ix1 i) = dinv (mat A) i := by
  rw [val_main_v5_apply, val_main_v4_apply, val_main_cst_1_apply, val_main_v3_apply, val_main_v2_apply,
    val_main_v0_apply, val_main_cst_apply, val_main_v1_apply, val_main_cst_0_apply]
  simp only [Ideal.hostDivf_def, Ideal.hostUnary_sqrt_def, Ideal.addf_def, Ideal.ofBits_def, Ideal.ofBits_zero_f32,
    zero_add, rowEntry]
  rfl

/-! ## The normalised matrix: entry `(i, c)` is `(d i · A i c) · d c` -/

/-- The column of scalings spread over the matrix is read at the entry's row. -/
theorem rowOfEntry (i c : Fin 8192) : idx_main_v6 (idx_main_v7 (ix2 i c)) = ix1 i :=
  funext fun a => Fin.ext (by match a with | ⟨0, _⟩ => rfl)
/-- The row of scalings spread over the matrix is read at the entry's column. -/
theorem colOfEntry (i c : Fin 8192) : idx_main_v9 (idx_main_v10 (ix2 i c)) = ix1 c :=
  funext fun a => Fin.ext (by match a with | ⟨0, _⟩ => rfl)

theorem normalised_at (i c : Fin 8192) :
    val_main_v11 (F := Ideal) A (ix2 i c) = (dinv (mat A) i * A (ix2 i c)) * dinv (mat A) c := by
  rw [val_main_v11_apply, val_main_v8_apply, val_main_v7_apply, val_main_v6_apply, val_main_v10_apply,
    val_main_v9_apply, rowOfEntry, colOfEntry, scaling_at, scaling_at]
  rfl

/-! ## The first layer: aggregation, the dense layer with its bias, and the maximum with zero -/

/-- The first aggregation's contraction reads row `i` of the normalised matrix at `k` … -/
theorem agg1Left (i : Fin 8192) (g : Fin 128) (k : Fin 8192) : lidx_main_v12 (ix2 i g) k = ix2 i k :=
  funext fun a => Fin.ext (by match a with | ⟨0, _⟩ => rfl | ⟨1, _⟩ => rfl)
/-- … against column `g` of the features at `k`. -/
theorem agg1Right (i : Fin 8192) (g : Fin 128) (k : Fin 8192) : ridx_main_v12 (ix2 i g) k = ix2 k g :=
  funext fun a => Fin.ext (by match a with | ⟨0, _⟩ => rfl | ⟨1, _⟩ => rfl)

theorem agg1_at (i : Fin 8192) (g : Fin 128) :
    val_main_v12 (F := Ideal) x A (ix2 i g) = ragg (mat A) (mat x) (dinv (mat A)) i g := by
  rw [val_main_v12_apply]
  unfold ragg
  refine Finset.sum_congr rfl fun k _ => ?_
  rw [agg1Left, agg1Right, normalised_at]

/-- The first dense layer's contraction reads row `i` of the aggregate at `k` … -/
theorem dense1Left (i : Fin 8192) (f : Fin 64) (k : Fin 128) : lidx_main_v13 (ix2 i f) k = ix2 i k :=
  funext fun a => Fin.ext (by match a with | ⟨0, _⟩ => rfl | ⟨1, _⟩ => rfl)
/-- … against column `f` of the weights at `k`. -/
theorem dense1Right (i : Fin 8192) (f : Fin 64) (k : Fin 128) : ridx_main_v13 (ix2 i f) k = ix2 k f :=
  funext fun a => Fin.ext (by match a with | ⟨0, _⟩ => rfl | ⟨1, _⟩ => rfl)
/-- The bias spread over the rows is read at the entry's column. -/
theorem bias1Entry (i : Fin 8192) (f : Fin 64) : idx_main_v14 (idx_main_v15 (ix2 i f)) = ix1 f :=
  funext fun a => Fin.ext (by match a with | ⟨0, _⟩ => rfl)

theorem lin1_at (i : Fin 8192) (f : Fin 64) :
    val_main_v16 (F := Ideal) x A W1 b1 (ix2 i f)
      = lin (ragg (mat A) (mat x) (dinv (mat A))) (mat W1) (vec b1) i f := by
  rw [val_main_v16_apply, val_main_v13_apply, val_main_v15_apply, val_main_v14_apply, bias1Entry]
  unfold lin
  simp only [Ideal.addf_def]
  refine congrArg (· + b1 (ix1 f)) (Finset.sum_congr rfl fun k _ => ?_)
  rw [dense1Left, dense1Right, agg1_at]

/-- The hidden layer: the maximum of the dense layer with the zero word, which is zero. -/
theorem hidden_at (i : Fin 8192) (f : Fin 64) :
    val_main_v17 (F := Ideal) x A W1 b1 (ix2 i f) = rhid (mat x) (mat A) (mat W1) (vec b1) i f := by
  rw [val_main_v17_apply, val_main_call0_v0_apply, val_main_call0_cst_apply, lin1_at]
  simp only [Ideal.maximumf_def, Ideal.ofBits_def, Ideal.ofBits_zero_f32]
  rfl

/-! ## The second layer: the matrix normalised again, aggregation of the hidden layer, the dense layer with its bias -/

/-- The column of scalings spread over the matrix is read at the entry's row. -/
theorem rowOfEntry' (i c : Fin 8192) : idx_main_v18 (idx_main_v19 (ix2 i c)) = ix1 i :=
  funext fun a => Fin.ext (by match a with | ⟨0, _⟩ => rfl)
/-- The row of scalings spread over the matrix is read at the entry's column. -/
theorem colOfEntry' (i c : Fin 8192) : idx_main_v21 (idx_main_v22 (ix2 i c)) = ix1 c :=
  funext fun a => Fin.ext (by match a with | ⟨0, _⟩ => rfl)

theorem normalised'_at (i c : Fin 8192) :
    val_main_v23 (F := Ideal) A (ix2 i c) = (dinv (mat A) i * A (ix2 i c)) * dinv (mat A) c := by
  rw [val_main_v23_apply, val_main_v20_apply, val_main_v19_apply, val_main_v18_apply, val_main_v22_apply,
    val_main_v21_apply, rowOfEntry', colOfEntry', scaling_at, scaling_at]
  rfl

/-- The second aggregation's contraction reads row `i` of the normalised matrix at `k` … -/
theorem agg2Left (i : Fin 8192) (f : Fin 64) (k : Fin 8192) : lidx_main_v24 (ix2 i f) k = ix2 i k :=
  funext fun a => Fin.ext (by match a with | ⟨0, _⟩ => rfl | ⟨1, _⟩ => rfl)
/-- … against column `f` of the hidden layer at `k`. -/
theorem agg2Right (i : Fin 8192) (f : Fin 64) (k : Fin 8192) : ridx_main_v24 (ix2 i f) k = ix2 k f :=
  funext fun a => Fin.ext (by match a with | ⟨0, _⟩ => rfl | ⟨1, _⟩ => rfl)

theorem agg2_at (i : Fin 8192) (f : Fin 64) :
    val_main_v24 (F := Ideal) x A W1 b1 (ix2 i f)
      = ragg (mat A) (rhid (mat x) (mat A) (mat W1) (vec b1)) (dinv (mat A)) i f := by
  rw [val_main_v24_apply]
  unfold ragg
  refine Finset.sum_congr rfl fun k _ => ?_
  rw [agg2Left, agg2Right, normalised'_at, hidden_at]

/-- The second dense layer's contraction reads row `i` of the aggregate at `k` … -/
theorem dense2Left (i : Fin 8192) (o : Fin 2) (k : Fin 64) : lidx_main_v25 (ix2 i o) k = ix2 i k :=
  funext fun a => Fin.ext (by match a with | ⟨0, _⟩ => rfl | ⟨1, _⟩ => rfl)
/-- … against column `o` of the weights at `k`. -/
theorem dense2Right (i : Fin 8192) (o : Fin 2) (k : Fin 64) : ridx_main_v25 (ix2 i o) k = ix2 k o :=
  funext fun a => Fin.ext (by match a with | ⟨0, _⟩ => rfl | ⟨1, _⟩ => rfl)
/-- The bias spread over the rows is read at the entry's column. -/
theorem bias2Entry (i : Fin 8192) (o : Fin 2) : idx_main_v26 (idx_main_v27 (ix2 i o)) = ix1 o :=
  funext fun a => Fin.ext (by match a with | ⟨0, _⟩ => rfl)

theorem result_at (i : Fin 8192) (o : Fin 2) :
    val_main_v28 (F := Ideal) x A W1 b1 W2 b2 (ix2 i o)
      = rout (mat x) (mat A) (mat W1) (vec b1) (mat W2) (vec b2) i o := by
  rw [val_main_v28_apply, val_main_v25_apply, val_main_v27_apply, val_main_v26_apply, bias2Entry]
  unfold rout lin
  simp only [Ideal.addf_def]
  refine congrArg (· + b2 (ix1 o)) (Finset.sum_congr rfl fun k _ => ?_)
  rw [dense2Left, dense2Right, agg2_at]

/-- The whole result array is `routArr` of the six argument arrays. -/
theorem result_eq : val_main_v28 (F := Ideal) x A W1 b1 W2 b2 = routArr x A W1 b1 W2 b2 := by
  funext j
  obtain ⟨i, o, rfl⟩ : ∃ (i : Fin 8192) (o : Fin 2), j = ix2 i o := ⟨j 0, j 1, eq_ix2 j⟩
  rw [result_at]
  rfl

end Stages

/-- Every weakly fair execution of the reference from `m` terminates with its result at `routArr` of the argument
    arrays and the arguments unchanged. -/
theorem run_rout [Cert.ReferenceIdeal.Facts] (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v28) = Cert.Spec.routArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (Cert.ReferenceIdeal.defs (F := Ideal)) _ _).mono
    (fun _ h c => ⟨(h c).1.trans ((Read.val_main_v28_eq _ _ _ _ _ _).trans (result_eq _ _ _ _ _ _)), (h c).2⟩)
    (Cert.ReferenceIdeal.Value.run (F := Ideal) m ρ)

end Cert.ReferenceIdeal.RefValue

end
-- ==== Proof.PreFacts.lean ====
/-
  What the precondition says of the argument arrays at the ideal instance: every entry of every array is a real
  number, and every row of the adjacency matrix has a positive degree argument `Σ_c A i c + ε`.
-/
import proofs.«132783_j15479062135163_1_alg».proof.Pre_finite_inputs
import proofs.«132783_j15479062135163_1_alg».proof.Proof.Gen.Pre_finite_inputs
import proofs.«132783_j15479062135163_1_alg».proof.Proof.Spec
import Idealize.ShloMosaic.Lib.ValueIdx
import Idealize.ShloMosaic.Lib.ReduceAll
import Idealize.ShloMosaic.Lib.StableHlo.Predicate
import Idealize.ShloMosaic.PureOps.Ideal.Laws

noncomputable section

open scoped BigOperators
open Idealize.ShloMosaic

namespace Cert.PreFacts

open Cert.Pre_finite_inputs

/-- The scalar shape has one index. -/
instance : Subsingleton S_.Idx := ⟨fun a b => funext fun d => d.elim0⟩

/-- The word of the single-precision positive infinity is the top of the extended reals. -/
theorem ofBits_inf : Ideal.ofBits .f32 0x7F800000#32 = (⊤ : EReal) := by
  simp [Ideal.ofBits, Ideal.ieee]

/-- An extended real whose absolute value lies strictly below the top is a real number. -/
theorem isReal_of_abs_lt_top (z : EReal) (h : max z (-z) < (⊤ : EReal)) : Cert.Spec.IsReal z := by
  induction z using EReal.rec with
  | bot => simp at h
  | top => simp at h
  | coe r => exact ⟨r, rfl⟩

/-- A "less than" comparison word that is one says the order relation holds. -/
theorem cmp_olt_eq_one {x y : EReal} (h : Ideal.cmp .olt x y = 1#1) : x < y := by
  simpa [Ideal.cmp, StableHlo.Predicate.ofBool_eq_one_iff] using h

/-- A "greater than" comparison word that is one says the order relation holds. -/
theorem cmp_ogt_eq_one {x y : EReal} (h : Ideal.cmp .ogt x y = 1#1) : y < x := by
  simpa [Ideal.cmp, StableHlo.Predicate.ofBool_eq_one_iff] using h

/-- ALL FINITE, at any shape: if the conjunction over every entry of `|v| < +∞` is one, every entry of `v` is a
    real number. -/
theorem allFinite {s : Shape} {axes : List (Fin s.rank)} (v : FVec Ideal s .f32)
    (hb : S_.BroadcastsInDim s (![] : Fin 0 → Fin s.rank)) (hr : s.ReducesTo axes S_) (h0 : 0 < S_.numel) (init : IVec S_ 1)
    (e : Host.reduce IntOp.andi (cmpf .olt (Host.absf v) (broadcastInDim s ![] hb (constant S_ .f32 0x7F800000#32)))
        init hr h0 ValueIdx.ix0 = 1#1) :
    ∀ j, Cert.Spec.IsReal (v j) := by
  intro j
  have hj := Host.reduce_andi_all _ init hr h0 ValueIdx.ix0 e j
  have hc : Ideal.cmp .olt (max (v j) (-(v j))) (Ideal.ofBits .f32 0x7F800000#32) = 1#1 := hj
  rw [ofBits_inf] at hc
  exact isReal_of_abs_lt_top _ (cmp_olt_eq_one hc)

/-- The index a sum over the second axis of a square array inserts is the pair (row, column). -/
theorem lift_row (hR : S8192x8192.Reduces [1] S8192) (i : Fin 8192) (k : Fin (S8192x8192.size 1)) :
    hR.lift (ValueIdx.ix1 i) k = ValueIdx.ix2 i k := by
  funext d
  match d with
  | ⟨0, _⟩ => rfl
  | ⟨1, _⟩ => rfl

/-- POSITIVE DEGREES: if the conjunction over the rows of `Σ_c A i c + ε > 0` is one, every row's sum plus `ε` is
    above zero. -/
theorem rowsum_pos (A : FVec Ideal S8192x8192 .f32)
    (hr : S8192x8192.ReducesTo [1] S8192) (hb : S_.BroadcastsInDim S8192 (![] : Fin 0 → Fin S8192.rank))
    (hr0 : S8192.ReducesTo [0] S_) (h0 : 0 < S_.numel) (init : IVec S_ 1)
    (e : Host.reduce IntOp.andi
        (cmpf .ogt (addf (Host.reduceAdd A (constant S_ .f32 0x00000000#32) hr h0)
            (broadcastInDim S8192 ![] hb (constant S_ .f32 0x358637BD#32)))
          (broadcastInDim S8192 ![] hb (constant S_ .f32 0x00000000#32)))
        init hr0 h0 ValueIdx.ix0 = 1#1) :
    ∀ i : Fin 8192, (0 : EReal) < (∑ c : Fin 8192, A (ValueIdx.ix2 i c)) + Cert.Spec.eps := by
  intro i
  have hi := Host.reduce_andi_all _ init hr0 h0 ValueIdx.ix0 e (ValueIdx.ix1 i)
  have hc : Ideal.cmp .ogt
      (Ideal.hostReduceAdd hr A (Ideal.ofBits .f32 0x00000000#32) (ValueIdx.ix1 i) + Ideal.ofBits .f32 0x358637BD#32)
      (Ideal.ofBits .f32 0x00000000#32) = 1#1 := hi
  have hR : S8192x8192.Reduces [1] S8192 := by decide
  have hlt := cmp_ogt_eq_one hc
  rw [Ideal.ofBits_zero_f32, Ideal.hostReduceAdd_single hr hR, zero_add] at hlt
  have hs : (∑ k : Fin (S8192x8192.size 1), A (hR.lift (ValueIdx.ix1 i) k)) = ∑ c : Fin 8192, A (ValueIdx.ix2 i c) :=
    Finset.sum_congr rfl fun k _ => congrArg A (lift_row hR i k)
  rw [hs] at hlt
  exact hlt

/-- The printed precondition, all ones, read entry by entry. -/
theorem of_pre [Cert.Pre_finite_inputs.Facts] (x : FVec Ideal S8192x128 .f32) (A : FVec Ideal S8192x8192 .f32) (W1 : FVec Ideal S128x64 .f32)
    (b1 : FVec Ideal S64 .f32) (W2 : FVec Ideal S64x2 .f32) (b2 : FVec Ideal S2 .f32)
    (h : Cert.Pre_finite_inputs.fn (F := Ideal) x A W1 b1 W2 b2 = fun _ => 1#1) :
    (∀ j, Cert.Spec.IsReal (x j)) ∧ (∀ j, Cert.Spec.IsReal (A j)) ∧ (∀ j, Cert.Spec.IsReal (W1 j)) ∧ (∀ j, Cert.Spec.IsReal (b1 j))
      ∧ (∀ j, Cert.Spec.IsReal (W2 j)) ∧ (∀ j, Cert.Spec.IsReal (b2 j))
      ∧ (∀ i : Fin 8192, (0 : EReal) < (∑ c : Fin 8192, A (ValueIdx.ix2 i c)) + Cert.Spec.eps) := by
  have h0 := congrFun h ValueIdx.ix0
  dsimp only [fn, fn_part1, fn_part2] at h0
  -- the result is a conjunction of seven words: six "every entry finite", one "every degree argument positive"
  obtain ⟨h0, hsum⟩ := IntOp.andi_eq_one.1 h0
  obtain ⟨h0, hb2⟩ := IntOp.andi_eq_one.1 h0
  obtain ⟨h0, hW2⟩ := IntOp.andi_eq_one.1 h0
  obtain ⟨h0, hb1⟩ := IntOp.andi_eq_one.1 h0
  obtain ⟨h0, hW1⟩ := IntOp.andi_eq_one.1 h0
  obtain ⟨hx, hA⟩ := IntOp.andi_eq_one.1 h0
  exact ⟨allFinite x _ _ _ _ hx, allFinite A _ _ _ _ hA, allFinite W1 _ _ _ _ hW1, allFinite b1 _ _ _ _ hb1,
    allFinite W2 _ _ _ _ hW2, allFinite b2 _ _ _ _ hb2, rowsum_pos A _ _ _ _ _ hsum⟩

end Cert.PreFacts

end
-- ==== Proof.Algebra.lean ====
/-
  The two arrangements of the graph convolution agree on the extended reals when every entry is a real number and
  every row's degree argument is positive (so that the scaling is a positive real).

  The road: the real numbers sit inside the extended reals as a sub-semiring closed under finite sums and under the
  maximum with zero. The scaling `d i = 1 / √(Σ_c A i c + ε)` is a real number as soon as its square root's argument is a
  positive real. With every entry real, both aggregations are the coercion of one finite sum of real products,
  rearranged by distributing the row factor over the sum and commuting the factors of each term.
-/
import proofs.«132783_j15479062135163_1_alg».proof.Proof.Spec
import Mathlib.Data.EReal.Basic
import Mathlib.Data.EReal.Inv
import Mathlib.Analysis.Real.Sqrt
import Mathlib.Algebra.BigOperators.Group.Finset.Basic
import Mathlib.Algebra.BigOperators.Ring.Finset

noncomputable section

open scoped BigOperators

namespace Cert.Spec

open Idealize.ShloMosaic

/-! ### The real numbers inside the extended reals -/

/-- The coercion of a finite sum of reals is the sum of the coercions. -/
theorem coe_sum {ι : Type} (s : Finset ι) (f : ι → ℝ) :
    ((∑ c ∈ s, f c : ℝ) : EReal) = ∑ c ∈ s, (f c : EReal) := by
  classical
  refine Finset.induction_on s ?_ ?_
  · simp
  · intro a t ha ih
    rw [Finset.sum_insert ha, Finset.sum_insert ha, EReal.coe_add, ih]

/-- A sum of two reals is a real. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- A product of two reals is a real. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A finite sum of reals is a real. -/
theorem IsReal.sum {ι : Type} (s : Finset ι) {f : ι → EReal} (hf : ∀ c, IsReal (f c)) :
    IsReal (∑ c ∈ s, f c) := by
  choose r hr using hf
  exact ⟨∑ c ∈ s, r c, by rw [coe_sum]; exact Finset.sum_congr rfl (fun c _ => hr c)⟩

/-- The maximum of a real and zero is a real: it is one of the two. -/
theorem IsReal.max_zero {a : EReal} (ha : IsReal a) : IsReal (max a 0) := by
  rcases max_choice a 0 with h | h
  · rw [h]; exact ha
  · rw [h]; exact ⟨0, EReal.coe_zero.symm⟩

/-! ### The two constants are real numbers -/

/-- A pattern whose exponent field is not all ones denotes a real number (a zero, a subnormal or a normal). -/
theorem ieee_isReal (e m : Nat) {w : Nat} (b : BitVec w) (h : (b.extractLsb' m e).toNat ≠ 2 ^ e - 1) :
    IsReal (Ideal.ieee e m b) := by
  unfold Ideal.ieee
  simp only [if_neg h]
  split_ifs <;> exact ⟨_, rfl⟩

/-- `ε` is a real number: its exponent field is 107. -/
theorem eps_isReal : IsReal eps := by
  show IsReal (Ideal.ieee 8 23 (0x358637BD#32 : BitVec 32))
  exact ieee_isReal 8 23 _ (by decide)

/-- The numerator `1.0` is a real number: its exponent field is 127. -/
theorem one_isReal : IsReal one := by
  show IsReal (Ideal.ieee 8 23 (0x3F800000#32 : BitVec 32))
  exact ieee_isReal 8 23 _ (by decide)

/-! ### The scaling is a real number -/

/-- The square root of a positive real is the real square root. -/
theorem sqrt_coe_of_pos {r : ℝ} (hr : 0 < r) : Ideal.sqrt (r : EReal) = ((Real.sqrt r : ℝ) : EReal) := by
  show (if r < 0 then (⊥ : EReal) else ((Real.sqrt r : ℝ) : EReal)) = _
  rw [if_neg (not_lt.mpr hr.le)]

/-- The quotient of a real by a nonzero real is a real: the product with the inverse. -/
theorem div_isReal {x y : EReal} (hx : IsReal x) (hy : IsReal y) (hy0 : y ≠ 0) : IsReal (Ideal.div x y) := by
  obtain ⟨r, rfl⟩ := hx
  obtain ⟨s, rfl⟩ := hy
  unfold Ideal.div
  rw [if_neg hy0, ← EReal.coe_inv, ← EReal.coe_mul]
  exact ⟨_, rfl⟩

/-- With every entry of `A` real and every row's sum plus `ε` positive, the scaling of each row is a real number:
    the argument of the square root is a positive real, its root a positive real, and one over it a real. -/
theorem dinv_isReal (A : Fin 8192 → Fin 8192 → EReal) (hA : ∀ i c, IsReal (A i c))
    (hpos : ∀ i, (0 : EReal) < (∑ c, A i c) + eps) (i : Fin 8192) : IsReal (dinv A i) := by
  obtain ⟨S, hS⟩ := IsReal.sum Finset.univ (hA i)
  obtain ⟨e, he⟩ := eps_isReal
  have hp := hpos i
  unfold dinv
  rw [hS, he, ← EReal.coe_add] at hp ⊢
  have hr : 0 < S + e := EReal.coe_pos.mp hp
  rw [sqrt_coe_of_pos hr]
  have hs : 0 < Real.sqrt (S + e) := Real.sqrt_pos.mpr hr
  exact div_isReal one_isReal ⟨_, rfl⟩ (EReal.coe_ne_zero.mpr hs.ne')

/-! ### The two aggregations agree on real entries -/

/-- The kernel's aggregation of reals is a real. -/
theorem kagg_isReal {n : Nat} (A : Fin 8192 → Fin 8192 → EReal) (X : Fin 8192 → Fin n → EReal) (d : Fin 8192 → EReal)
    (hA : ∀ i c, IsReal (A i c)) (hX : ∀ c g, IsReal (X c g)) (hd : ∀ i, IsReal (d i))
    (i : Fin 8192) (g : Fin n) : IsReal (kagg A X d i g) := by
  unfold kagg
  exact (IsReal.sum _ (fun c => (hA i c).mul ((hX c g).mul (hd c)))).mul (hd i)

/-- The dense layer of reals is a real. -/
theorem lin_isReal {n p : Nat} (Y : Fin 8192 → Fin n → EReal) (W : Fin n → Fin p → EReal) (b : Fin p → EReal)
    (hY : ∀ i g, IsReal (Y i g)) (hW : ∀ g f, IsReal (W g f)) (hb : ∀ f, IsReal (b f))
    (i : Fin 8192) (f : Fin p) : IsReal (lin Y W b i f) := by
  unfold lin
  exact (IsReal.sum _ (fun g => (hY i g).mul (hW g f))).add (hb f)

/-- On real entries the two aggregations are the same real number:
    `(Σ_c a·(x·d_c))·d_i = Σ_c ((d_i·a)·d_c)·x`, the row factor distributed over the sum and each term rearranged. -/
theorem kagg_eq_ragg {n : Nat} (A : Fin 8192 → Fin 8192 → EReal) (X : Fin 8192 → Fin n → EReal) (d : Fin 8192 → EReal)
    (hA : ∀ i c, IsReal (A i c)) (hX : ∀ c g, IsReal (X c g)) (hd : ∀ i, IsReal (d i)) :
    kagg A X d = ragg A X d := by
  choose a ha using hA
  choose x hx using hX
  choose e he using hd
  funext i g
  unfold kagg ragg
  simp only [ha, hx, he, ← EReal.coe_mul, ← coe_sum]
  congr 1
  rw [Finset.sum_mul]
  exact Finset.sum_congr rfl (fun c _ => by ring)

/-! ### The two layers -/

theorem kout_eq_rout (x : Fin 8192 → Fin 128 → EReal) (A : Fin 8192 → Fin 8192 → EReal) (W1 : Fin 128 → Fin 64 → EReal)
    (b1 : Fin 64 → EReal) (W2 : Fin 64 → Fin 2 → EReal) (b2 : Fin 2 → EReal)
    (hx : ∀ i g, IsReal (x i g)) (hA : ∀ i c, IsReal (A i c)) (hW1 : ∀ g f, IsReal (W1 g f)) (hb1 : ∀ f, IsReal (b1 f))
    (hW2 : ∀ f o, IsReal (W2 f o)) (hb2 : ∀ o, IsReal (b2 o))
    (hpos : ∀ i, (0 : EReal) < (∑ c, A i c) + eps) :
    kout x A W1 b1 W2 b2 = rout x A W1 b1 W2 b2 := by
  -- the scaling is real, so the first aggregation agrees, and with it the hidden layer
  have hd : ∀ i, IsReal (dinv A i) := dinv_isReal A hA hpos
  have h1 : kagg A x (dinv A) = ragg A x (dinv A) := kagg_eq_ragg A x (dinv A) hA hx hd
  have hh : khid x A W1 b1 = rhid x A W1 b1 := by
    funext i f
    unfold khid rhid
    rw [h1]
  -- the hidden layer is real: a dense layer of reals, cut off below at zero
  have hhr : ∀ i f, IsReal (khid x A W1 b1 i f) := by
    intro i f
    unfold khid
    exact (lin_isReal _ W1 b1 (kagg_isReal A x (dinv A) hA hx hd) hW1 hb1 i f).max_zero
  -- so the second aggregation agrees as well
  funext i o
  unfold kout rout
  rw [← hh, kagg_eq_ragg A (khid x A W1 b1) (dinv A) hA hhr hd]

end Cert.Spec

end
-- ==== Proof.lean ====
/-
  The certificate of a two-layer graph convolution over a dense adjacency matrix, kernel against reference.

  The kernel runs three pipelined regions over a 16 × 4 grid of (row tile, column tile): the degree scaling
  `d i = 1 / √(Σ_c A i c + ε)`, then twice a layer `((Σ_c A i c · (X c g · d c)) · d i) · W + b` (rectified the first time),
  each accumulating a row tile's sum over the four column tiles in a scratch block. The reference normalises the matrix
  entry by entry, `(d i · A i c) · d c`, and multiplies. On the extended reals the two are one function where every
  entry is a real number and every degree argument is positive — which is where the reference's own `1 / √·` is
  defined, and what the precondition says. The frames: each region's body is run at every grid point against proof
  data that name the accumulator after each point; the reference's frame is its run with the result dropped.
-/
import proofs.«132783_j15479062135163_1_alg».proof.Defs
import proofs.«132783_j15479062135163_1_alg».proof.Proof.Gen.Kernel
import proofs.«132783_j15479062135163_1_alg».proof.Proof.Gen.KernelIdeal
import proofs.«132783_j15479062135163_1_alg».proof.Proof.Gen.ReferenceIdeal
import proofs.«132783_j15479062135163_1_alg».proof.Proof.Gen.Pre_finite_inputs
import proofs.«132783_j15479062135163_1_alg».proof.Proof.BitsRun
import proofs.«132783_j15479062135163_1_alg».proof.Proof.Run
import proofs.«132783_j15479062135163_1_alg».proof.Proof.Bridge
import proofs.«132783_j15479062135163_1_alg».proof.Proof.RefValue
import proofs.«132783_j15479062135163_1_alg».proof.Proof.PreFacts
import proofs.«132783_j15479062135163_1_alg».proof.Proof.Algebra
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame m ρ

/-- The idealized kernel runs and leaves its arguments unchanged. -/
theorem frame_ki : Cert.frame_KernelIdeal := fun m ρ _ => Cert.KernelIdeal.Hand.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.RefValue.run_rout m ρ)

/-- From memories agreeing on the arguments both programs end with the same result array: the kernel's arrangement
    of the two layers at the arguments, which under the precondition is the reference's. -/
theorem algebraic : Cert.algebraic_KernelIdeal_ReferenceIdeal := by
  intro m ρ m' ρ' hpre hagree
  refine ⟨fun c => Cert.Spec.koutArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.result_eq m c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.RefValue.run_rout m' ρ')
    obtain ⟨a0, a1, a2, a3, a4, a5⟩ := hagree c
    rw [a0, a1, a2, a3, a4, a5]
    obtain ⟨hx, hA, hW1, hb1, hW2, hb2, hpos⟩ := Cert.PreFacts.of_pre _ _ _ _ _ _ (hpre c)
    unfold Cert.Spec.routArr Cert.Spec.koutArr
    funext j
    exact (Cert.Spec.kout_eq_rout _ _ _ _ _ _ (fun i g => hx _) (fun i k => hA _) (fun g f => hW1 _) (fun f => hb1 _)
      (fun f o => hW2 _) (fun o => hb2 _) hpos).symm ▸ rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
